-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S64x64 : Shape := ⟨2, ![64, 64]⟩
abbrev S64x1 : Shape := ⟨2, ![64, 1]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_

variable [Facts]

def fn {F : FTy → Type} [FloatOps F] (main_arg0 : FVec F S64x256x56x56 .f32) (main_arg1 : FVec F S64x64 .f32) (main_arg2 : FVec F S64x1 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x1 .f32 := Host.absf main_arg2
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  main_v13
-- ==== Kernel.lean ====
abbrev S64x256x56x56 : Shape := ⟨4, ![64, 256, 56, 56]⟩
abbrev S64x64 : Shape := ⟨2, ![64, 64]⟩
abbrev S64x1 : Shape := ⟨2, ![64, 1]⟩
abbrev S256x64x3136 : Shape := ⟨3, ![256, 64, 3136]⟩
abbrev S2x64x1 : Shape := ⟨3, ![2, 64, 1]⟩
abbrev S2x64x64 : Shape := ⟨3, ![2, 64, 64]⟩
abbrev S16x64x3136 : Shape := ⟨3, ![16, 64, 3136]⟩
abbrev S1x64x1 : Shape := ⟨3, ![1, 64, 1]⟩
abbrev S1x64x64 : Shape := ⟨3, ![1, 64, 64]⟩
abbrev S1x64x3136 : Shape := ⟨3, ![1, 64, 3136]⟩
abbrev S64x3136 : Shape := ⟨2, ![64, 3136]⟩
abbrev S64 : Shape := ⟨1, ![64]⟩
abbrev S_ : Shape := ⟨0, ![]⟩
abbrev S1x64 : Shape := ⟨2, ![1, 64]⟩
abbrev S8x64x3136 : Shape := ⟨3, ![8, 64, 3136]⟩

abbrev nBuf : Space → Nat
  | .hbm => 149
  | .vmem => 13
  | .smem => 0
  | _ => 0

abbrev hbmTy0_0 (i : Nat) : BufTy := match i % 128 with
  | 0 => ⟨S64x256x56x56, .f32⟩
  | 1 => ⟨S64x64, .f32⟩
  | 2 => ⟨S64x1, .f32⟩
  | 3 => ⟨S256x64x3136, .f32⟩
  | 4 => ⟨S2x64x1, .f32⟩
  | 5 => ⟨S2x64x64, .f32⟩
  | 6 => ⟨S_, .f32⟩
  | 7 => ⟨S64x1, .f32⟩
  | 8 => ⟨S_, .f32⟩
  | 9 => ⟨S64x64, .f32⟩
  | 10 => ⟨S_, .f32⟩
  | 11 => ⟨S64x1, .f32⟩
  | 12 => ⟨S64x1, .f32⟩
  | 13 => ⟨S_, .f32⟩
  | 14 => ⟨S64x64, .f32⟩
  | 15 => ⟨S64x64, .f32⟩
  | 16 => ⟨S1x64, .f32⟩
  | 17 => ⟨S64x64, .f32⟩
  | 18 => ⟨S64x64, .f32⟩
  | 19 => ⟨S64x64, .i32⟩
  | 20 => ⟨S64x64, .i32⟩
  | 21 => ⟨S_, .i32⟩
  | 22 => ⟨S64x64, .i32⟩
  | 23 => ⟨S64x64, .i32⟩
  | 24 => ⟨S64x64, .i1⟩
  | 25 => ⟨S64x64, .f32⟩
  | 26 => ⟨S_, .f32⟩
  | 27 => ⟨S64x64, .f32⟩
  | 28 => ⟨S64x64, .f32⟩
  | 29 => ⟨S64x64, .f32⟩
  | 30 => ⟨S64x64, .f32⟩
  | 31 => ⟨S_, .f32⟩
  | 32 => ⟨S_, .f32⟩
  | 33 => ⟨S_, .f32⟩
  | 34 => ⟨S64x64, .f32⟩
  | 35 => ⟨S64x64, .f32⟩
  | 36 => ⟨S64x64, .i32⟩
  | 37 => ⟨S64x64, .i32⟩
  | 38 => ⟨S_, .i32⟩
  | 39 => ⟨S64x64, .i32⟩
  | 40 => ⟨S64x64, .i32⟩
  | 41 => ⟨S64x64, .i1⟩
  | 42 => ⟨S64x64, .f32⟩
  | 43 => ⟨S_, .f32⟩
  | 44 => ⟨S64x64, .f32⟩
  | 45 => ⟨S64x64, .f32⟩
  | 46 => ⟨S64x64, .f32⟩
  | 47 => ⟨S64x64, .f32⟩
  | 48 => ⟨S_, .f32⟩
  | 49 => ⟨S64x64, .f32⟩
  | 50 => ⟨S64x64, .f32⟩
  | 51 => ⟨S64x64, .f32⟩
  | 52 => ⟨S64x64, .f32⟩
  | 53 => ⟨S_, .f32⟩
  | 54 => ⟨S64x64, .f32⟩
  | 55 => ⟨S64x64, .f32⟩
  | 56 => ⟨S64x64, .f32⟩
  | 57 => ⟨S64x64, .f32⟩
  | 58 => ⟨S_, .f32⟩
  | 59 => ⟨S64x64, .f32⟩
  | 60 => ⟨S64x64, .f32⟩
  | 61 => ⟨S64x64, .f32⟩
  | 62 => ⟨S64x64, .f32⟩
  | 63 => ⟨S_, .f32⟩
  | 64 => ⟨S64x64, .f32⟩
  | 65 => ⟨S64x64, .f32⟩
  | 66 => ⟨S64x64, .f32⟩
  | 67 => ⟨S64x64, .f32⟩
  | 68 => ⟨S_, .f32⟩
  | 69 => ⟨S64x64, .f32⟩
  | 70 => ⟨S64x64, .f32⟩
  | 71 => ⟨S64x64, .f32⟩
  | 72 => ⟨S64x64, .f32⟩
  | 73 => ⟨S_, .f32⟩
  | 74 => ⟨S64x64, .f32⟩
  | 75 => ⟨S64x64, .f32⟩
  | 76 => ⟨S64x64, .f32⟩
  | 77 => ⟨S64x64, .f32⟩
  | 78 => ⟨S_, .f32⟩
  | 79 => ⟨S64x64, .f32⟩
  | 80 => ⟨S64x64, .f32⟩
  | 81 => ⟨S64x64, .f32⟩
  | 82 => ⟨S64x64, .f32⟩
  | 83 => ⟨S_, .f32⟩
  | 84 => ⟨S64x64, .f32⟩
  | 85 => ⟨S64x64, .f32⟩
  | 86 => ⟨S64x64, .f32⟩
  | 87 => ⟨S64x64, .f32⟩
  | 88 => ⟨S_, .f32⟩
  | 89 => ⟨S64x64, .f32⟩
  | 90 => ⟨S64x64, .f32⟩
  | 91 => ⟨S64x64, .f32⟩
  | 92 => ⟨S64x64, .f32⟩
  | 93 => ⟨S_, .f32⟩
  | 94 => ⟨S64x64, .f32⟩
  | 95 => ⟨S64x64, .f32⟩
  | 96 => ⟨S64x64, .f32⟩
  | 97 => ⟨S64x64, .f32⟩
  | 98 => ⟨S_, .f32⟩
  | 99 => ⟨S64x64, .f32⟩
  | 100 => ⟨S64x64, .f32⟩
  | 101 => ⟨S64x64, .f32⟩
  | 102 => ⟨S64x64, .f32⟩
  | 103 => ⟨S_, .f32⟩
  | 104 => ⟨S64x64, .f32⟩
  | 105 => ⟨S64x64, .f32⟩
  | 106 => ⟨S64x64, .f32⟩
  | 107 => ⟨S64x64, .f32⟩
  | 108 => ⟨S_, .f32⟩
  | 109 => ⟨S64x64, .f32⟩
  | 110 => ⟨S64x64, .f32⟩
  | 111 => ⟨S64x64, .f32⟩
  | 112 => ⟨S64x64, .f32⟩
  | 113 => ⟨S_, .f32⟩
  | 114 => ⟨S64x64, .f32⟩
  | 115 => ⟨S64x64, .f32⟩
  | 116 => ⟨S64x64, .f32⟩
  | 117 => ⟨S64x64, .f32⟩
  | 118 => ⟨S_, .f32⟩
  | 119 => ⟨S64x64, .f32⟩
  | 120 => ⟨S64x64, .f32⟩
  | 121 => ⟨S64x64, .f32⟩
  | 122 => ⟨S64x64, .f32⟩
  | 123 => ⟨S_, .f32⟩
  | 124 => ⟨S64x64, .f32⟩
  | 125 => ⟨S64x64, .f32⟩
  | 126 => ⟨S64x64, .f32⟩
  | 127 => ⟨S64x64, .f32⟩
  | _ => ⟨S64x256x56x56, .f32⟩

abbrev hbmTy0_1 (i : Nat) : BufTy := match i % 128 with
  | 0 => ⟨S_, .f32⟩
  | 1 => ⟨S64x64, .f32⟩
  | 2 => ⟨S64x64, .f32⟩
  | 3 => ⟨S64x64, .f32⟩
  | 4 => ⟨S64x64, .f32⟩
  | 5 => ⟨S_, .f32⟩
  | 6 => ⟨S64x64, .f32⟩
  | 7 => ⟨S64x64, .f32⟩
  | 8 => ⟨S64x64, .f32⟩
  | 9 => ⟨S64x64, .f32⟩
  | 10 => ⟨S_, .f32⟩
  | 11 => ⟨S64x64, .f32⟩
  | 12 => ⟨S64x64, .f32⟩
  | 13 => ⟨S64x64, .f32⟩
  | 14 => ⟨S64x64, .f32⟩
  | 15 => ⟨S_, .f32⟩
  | 16 => ⟨S64x64, .f32⟩
  | 17 => ⟨S64x64, .f32⟩
  | 18 => ⟨S64x64, .f32⟩
  | 19 => ⟨S256x64x3136, .f32⟩
  | 20 => ⟨S64x256x56x56, .f32⟩
  | _ => ⟨S64x256x56x56, .f32⟩

abbrev hbmTy (i : Nat) : BufTy := match i / 128 with
  | 0 => hbmTy0_0 i
  | 1 => hbmTy0_1 i
  | _ => ⟨S64x256x56x56, .f32⟩

abbrev bufTy : (tb : Table) → Fin (tcTables nBuf tb) → BufTy
  | .hbm, ⟨i, _⟩ => hbmTy i
  | .local _ .vmem, ⟨0, _⟩ => ⟨S16x64x3136, .f32⟩
  | .local _ .vmem, ⟨1, _⟩ => ⟨S16x64x3136, .f32⟩
  | .local _ .vmem, ⟨2, _⟩ => ⟨S1x64x1, .f32⟩
  | .local _ .vmem, ⟨3, _⟩ => ⟨S1x64x1, .f32⟩
  | .local _ .vmem, ⟨4, _⟩ => ⟨S1x64x64, .f32⟩
  | .local _ .vmem, ⟨5, _⟩ => ⟨S1x64x64, .f32⟩
  | .local _ .vmem, ⟨6, _⟩ => ⟨S8x64x3136, .f32⟩
  | .local _ .vmem, ⟨7, _⟩ => ⟨S8x64x3136, .f32⟩
  | .local _ .vmem, ⟨8, _⟩ => ⟨S64x64, .f32⟩
  | .local _ .vmem, ⟨9, _⟩ => ⟨S64x1, .f32⟩
  | .local _ .vmem, ⟨10, _⟩ => ⟨S64x1, .f32⟩
  | .local _ .vmem, ⟨11, _⟩ => ⟨S8x64x3136, .f32⟩
  | .local _ .vmem, ⟨12, _⟩ => ⟨S8x64x3136, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_cst : Ref sig .tc := ⟨.hbm, 31, rfl⟩
abbrev main_call0_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_12 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_13 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_14 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_15 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_16 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_17 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_18 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_19 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_20 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_21 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_22 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_23 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_24 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_off1 (k0_t1 : Fin k0_t1_loop.trips) : Fin 3 → Nat :=
  let c0_i32_1 : BitVec 32 := 0#32
  let c1_i32 : BitVec 32 := 1#32
  let arg5 : BitVec 32 := Scf.iv c0_i32_1 c1_i32 k0_t1
  let v4 : Index := Scalar.indexCast arg5
  let c0 : Index := 0#32
  let c0_3 : Index := 0#32
  ![v4.toNat, 0, 0]
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x64x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![32], ![false]⟩

@[reducible] def k1_t1_loop : Scf.Loop 32 :=
  let c0_i32 : BitVec 32 := 0#32
  let c8_i32 : BitVec 32 := 8#32
  let v5 : BitVec 32 := Scalar.addi c0_i32 c8_i32
  let c1_i32 : BitVec 32 := 1#32
  ⟨c0_i32, v5, c1_i32⟩
def k1_off1 (k1_t1 : Fin k1_t1_loop.trips) : Fin 3 → Nat :=
  let c0_i32 : BitVec 32 := 0#32
  let c1_i32 : BitVec 32 := 1#32
  let arg6 : BitVec 32 := Scf.iv c0_i32 c1_i32 k1_t1
  let v6 : Index := Scalar.indexCast arg6
  let c0_6 : Index := 0#32
  let c0_7 : Index := 0#32
  ![v6.toNat, 0, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x64x3136 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8x64x3136 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S64x256x56x56_S256x64x3136 : S64x256x56x56.ShapeCasts S256x64x3136
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  h_S1x64x3136 : 0 < S1x64x3136.numel
  shapeCasts_S1x64x3136_S64x3136 : S1x64x3136.ShapeCasts S64x3136
  reduces_S64x3136_S64 : S64x3136.Reduces [1] S64
  shapeCasts_S64_S64x1 : S64.ShapeCasts S64x1
  reducesTo_S2x64x1_S64x1_d0 : S2x64x1.ReducesTo [0] S64x1
  h_S_ : 0 < S_.numel
  reducesTo_S2x64x64_S64x64_d0 : S2x64x64.ReducesTo [0] S64x64
  bcast_S_S64x1 : S_.BroadcastsInDim S64x1 (![] : Fin 0 → Fin S64x1.rank)
  bcast_S_S64x64 : S_.BroadcastsInDim S64x64 (![] : Fin 0 → Fin S64x64.rank)
  transposes_S64x1_S1x64_1_0 : S64x1.Transposes [1, 0] S1x64
  reducesTo_S64x64_S_d0_1 : S64x64.ReducesTo [0, 1] S_
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x3136 : S64x1.Broadcasts S64x3136
  shapeCasts_S64x3136_S1x64x3136 : S64x3136.ShapeCasts S1x64x3136
  shapeCasts_S256x64x3136_S64x256x56x56 : S256x64x3136.ShapeCasts S64x256x56x56
  dot_S64x3136_S64x3136_S64x64_1_1_0_0_n_n_wf : DotDims.WF S64x3136 S64x3136 S64x64 [1] [1] [0] [0] [] []
  dot_S64x1_S1x64_S64x64_1_0_0_1_n_n_wf : DotDims.WF S64x1 S1x64 S64x64 [1] [0] [0] [1] [] []
  dot_S64x64_S64x64_S64x64_1_0_0_1_n_n_wf : DotDims.WF S64x64 S64x64 S64x64 [1] [0] [0] [1] [] []
  dot_S64x64_S64x3136_S64x3136_1_0_0_1_n_n_wf : DotDims.WF S64x64 S64x3136 S64x3136 [1] [0] [0] [1] [] []
  hrank0 : 0 < grid0.rank
  k0_t1_ok : k0_t1_loop.OK
  k0_off1_inb : ∀ k0_t1 : Fin k0_t1_loop.trips, ∀ a, (k0_off1 k0_t1) a + S1x64x3136.size a ≤ S16x64x3136.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x3136.size a ≤ S256x64x3136.size a
  hwx0_0 : ∀ i : grid0.Coords, EltTy.bits .f32 = 32 ∨ (Rect.block (s := S256x64x3136) S16x64x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1.size a ≤ S2x64x1.size a
  hwx0_1 : ∀ i : grid0.Coords, EltTy.bits .f32 = 32 ∨ (Rect.block (s := S2x64x1) S1x64x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64.size a ≤ S2x64x64.size a
  hwx0_2 : ∀ i : grid0.Coords, EltTy.bits .f32 = 32 ∨ (Rect.block (s := S2x64x64) S1x64x64.size (cc0_transform_2 i) (hinb0_2 i)).WholeWords (EltTy.packing .f32)
  hrank1 : 0 < grid1.rank
  k1_t1_ok : k1_t1_loop.OK
  k1_off1_inb : ∀ k1_t1 : Fin k1_t1_loop.trips, ∀ a, (k1_off1 k1_t1) a + S1x64x3136.size a ≤ S8x64x3136.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x64x3136.size a ≤ S256x64x3136.size a
  hwx1_0 : ∀ i : grid1.Coords, EltTy.bits .f32 = 32 ∨ (Rect.block (s := S256x64x3136) S8x64x3136.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .f32 = 32 ∨ (Rect.block (s := S64x1) S64x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x64x3136.size a ≤ S256x64x3136.size a
  hwx1_4 : ∀ i : grid1.Coords, EltTy.bits .f32 = 32 ∨ (Rect.block (s := S256x64x3136) S8x64x3136.size (cc1_transform_4 i) (hinb1_4 i)).WholeWords (EltTy.packing .f32)

variable [Facts₀]

def dot_S64x3136_S64x3136_S64x64_1_1_0_0_n_n : DotDims S64x3136 S64x3136 S64x64 where
  lhsContracting := [1]
  rhsContracting := [1]
  lhsNonContracting := [0]
  rhsNonContracting := [0]
  lhsBatch := []
  rhsBatch := []
  wf := dot_S64x3136_S64x3136_S64x64_1_1_0_0_n_n_wf
def dot_S64x1_S1x64_S64x64_1_0_0_1_n_n : DotDims S64x1 S1x64 S64x64 where
  lhsContracting := [1]
  rhsContracting := [0]
  lhsNonContracting := [0]
  rhsNonContracting := [1]
  lhsBatch := []
  rhsBatch := []
  wf := dot_S64x1_S1x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x3136_S64x3136_1_0_0_1_n_n : DotDims S64x64 S64x3136 S64x3136 where
  lhsContracting := [1]
  rhsContracting := [0]
  lhsNonContracting := [0]
  rhsNonContracting := [1]
  lhsBatch := []
  rhsBatch := []
  wf := dot_S64x64_S64x3136_S64x3136_1_0_0_1_n_n_wf

abbrev win0_0 : Pipeline.Window sig grid0 :=
  Pipeline.Window.ofSpec (Memref.whole main_v0) S16x64x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x64x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S8x64x3136.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v112) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v113) S8x64x3136.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S64x256x56x56 : Shape := ⟨4, ![64, 256, 56, 56]⟩
abbrev S64x64 : Shape := ⟨2, ![64, 64]⟩
abbrev S64x1 : Shape := ⟨2, ![64, 1]⟩
abbrev S64x4x64x56x56 : Shape := ⟨5, ![64, 4, 64, 56, 56]⟩
abbrev S64x64x4x56x56 : Shape := ⟨5, ![64, 64, 4, 56, 56]⟩
abbrev S64x802816 : Shape := ⟨2, ![64, 802816]⟩
abbrev S_ : Shape := ⟨0, ![]⟩
abbrev S64 : Shape := ⟨1, ![64]⟩
abbrev S802816x64 : Shape := ⟨2, ![802816, 64]⟩

abbrev nBuf : Space → Nat
  | .hbm => 153
  | .vmem => 0
  | .smem => 0
  | _ => 0

abbrev hbmTy0_0 (i : Nat) : BufTy := match i % 128 with
  | 0 => ⟨S64x256x56x56, .f32⟩
  | 1 => ⟨S64x64, .f32⟩
  | 2 => ⟨S64x1, .f32⟩
  | 3 => ⟨S64x4x64x56x56, .f32⟩
  | 4 => ⟨S64x64x4x56x56, .f32⟩
  | 5 => ⟨S64x802816, .f32⟩
  | 6 => ⟨S_, .f32⟩
  | 7 => ⟨S64, .f32⟩
  | 8 => ⟨S64x1, .f32⟩
  | 9 => ⟨S_, .f32⟩
  | 10 => ⟨S64x1, .f32⟩
  | 11 => ⟨S64x1, .f32⟩
  | 12 => ⟨S64x802816, .f32⟩
  | 13 => ⟨S64x802816, .f32⟩
  | 14 => ⟨S802816x64, .f32⟩
  | 15 => ⟨S64x64, .f32⟩
  | 16 => ⟨S_, .f32⟩
  | 17 => ⟨S64x64, .f32⟩
  | 18 => ⟨S64x64, .f32⟩
  | 19 => ⟨S64x64, .i32⟩
  | 20 => ⟨S64x64, .i32⟩
  | 21 => ⟨S_, .i32⟩
  | 22 => ⟨S64x64, .i32⟩
  | 23 => ⟨S64x64, .i32⟩
  | 24 => ⟨S64x64, .i1⟩
  | 25 => ⟨S64x64, .f32⟩
  | 26 => ⟨S_, .f32⟩
  | 27 => ⟨S64x64, .f32⟩
  | 28 => ⟨S64x64, .f32⟩
  | 29 => ⟨S64x64, .f32⟩
  | 30 => ⟨S64x64, .f32⟩
  | 31 => ⟨S_, .f32⟩
  | 32 => ⟨S_, .f32⟩
  | 33 => ⟨S_, .f32⟩
  | 34 => ⟨S64x64, .f32⟩
  | 35 => ⟨S64x64, .f32⟩
  | 36 => ⟨S64x64, .i32⟩
  | 37 => ⟨S64x64, .i32⟩
  | 38 => ⟨S_, .i32⟩
  | 39 => ⟨S64x64, .i32⟩
  | 40 => ⟨S64x64, .i32⟩
  | 41 => ⟨S64x64, .i1⟩
  | 42 => ⟨S64x64, .f32⟩
  | 43 => ⟨S_, .f32⟩
  | 44 => ⟨S64x64, .f32⟩
  | 45 => ⟨S64x64, .f32⟩
  | 46 => ⟨S64x64, .f32⟩
  | 47 => ⟨S64x64, .f32⟩
  | 48 => ⟨S_, .f32⟩
  | 49 => ⟨S64x64, .f32⟩
  | 50 => ⟨S64x64, .f32⟩
  | 51 => ⟨S64x64, .f32⟩
  | 52 => ⟨S64x64, .f32⟩
  | 53 => ⟨S_, .f32⟩
  | 54 => ⟨S64x64, .f32⟩
  | 55 => ⟨S64x64, .f32⟩
  | 56 => ⟨S64x64, .f32⟩
  | 57 => ⟨S64x64, .f32⟩
  | 58 => ⟨S_, .f32⟩
  | 59 => ⟨S64x64, .f32⟩
  | 60 => ⟨S64x64, .f32⟩
  | 61 => ⟨S64x64, .f32⟩
  | 62 => ⟨S64x64, .f32⟩
  | 63 => ⟨S_, .f32⟩
  | 64 => ⟨S64x64, .f32⟩
  | 65 => ⟨S64x64, .f32⟩
  | 66 => ⟨S64x64, .f32⟩
  | 67 => ⟨S64x64, .f32⟩
  | 68 => ⟨S_, .f32⟩
  | 69 => ⟨S64x64, .f32⟩
  | 70 => ⟨S64x64, .f32⟩
  | 71 => ⟨S64x64, .f32⟩
  | 72 => ⟨S64x64, .f32⟩
  | 73 => ⟨S_, .f32⟩
  | 74 => ⟨S64x64, .f32⟩
  | 75 => ⟨S64x64, .f32⟩
  | 76 => ⟨S64x64, .f32⟩
  | 77 => ⟨S64x64, .f32⟩
  | 78 => ⟨S_, .f32⟩
  | 79 => ⟨S64x64, .f32⟩
  | 80 => ⟨S64x64, .f32⟩
  | 81 => ⟨S64x64, .f32⟩
  | 82 => ⟨S64x64, .f32⟩
  | 83 => ⟨S_, .f32⟩
  | 84 => ⟨S64x64, .f32⟩
  | 85 => ⟨S64x64, .f32⟩
  | 86 => ⟨S64x64, .f32⟩
  | 87 => ⟨S64x64, .f32⟩
  | 88 => ⟨S_, .f32⟩
  | 89 => ⟨S64x64, .f32⟩
  | 90 => ⟨S64x64, .f32⟩
  | 91 => ⟨S64x64, .f32⟩
  | 92 => ⟨S64x64, .f32⟩
  | 93 => ⟨S_, .f32⟩
  | 94 => ⟨S64x64, .f32⟩
  | 95 => ⟨S64x64, .f32⟩
  | 96 => ⟨S64x64, .f32⟩
  | 97 => ⟨S64x64, .f32⟩
  | 98 => ⟨S_, .f32⟩
  | 99 => ⟨S64x64, .f32⟩
  | 100 => ⟨S64x64, .f32⟩
  | 101 => ⟨S64x64, .f32⟩
  | 102 => ⟨S64x64, .f32⟩
  | 103 => ⟨S_, .f32⟩
  | 104 => ⟨S64x64, .f32⟩
  | 105 => ⟨S64x64, .f32⟩
  | 106 => ⟨S64x64, .f32⟩
  | 107 => ⟨S64x64, .f32⟩
  | 108 => ⟨S_, .f32⟩
  | 109 => ⟨S64x64, .f32⟩
  | 110 => ⟨S64x64, .f32⟩
  | 111 => ⟨S64x64, .f32⟩
  | 112 => ⟨S64x64, .f32⟩
  | 113 => ⟨S_, .f32⟩
  | 114 => ⟨S64x64, .f32⟩
  | 115 => ⟨S64x64, .f32⟩
  | 116 => ⟨S64x64, .f32⟩
  | 117 => ⟨S64x64, .f32⟩
  | 118 => ⟨S_, .f32⟩
  | 119 => ⟨S64x64, .f32⟩
  | 120 => ⟨S64x64, .f32⟩
  | 121 => ⟨S64x64, .f32⟩
  | 122 => ⟨S64x64, .f32⟩
  | 123 => ⟨S_, .f32⟩
  | 124 => ⟨S64x64, .f32⟩
  | 125 => ⟨S64x64, .f32⟩
  | 126 => ⟨S64x64, .f32⟩
  | 127 => ⟨S64x64, .f32⟩
  | _ => ⟨S64x256x56x56, .f32⟩

abbrev hbmTy0_1 (i : Nat) : BufTy := match i % 128 with
  | 0 => ⟨S_, .f32⟩
  | 1 => ⟨S64x64, .f32⟩
  | 2 => ⟨S64x64, .f32⟩
  | 3 => ⟨S64x64, .f32⟩
  | 4 => ⟨S64x64, .f32⟩
  | 5 => ⟨S_, .f32⟩
  | 6 => ⟨S64x64, .f32⟩
  | 7 => ⟨S64x64, .f32⟩
  | 8 => ⟨S64x64, .f32⟩
  | 9 => ⟨S64x64, .f32⟩
  | 10 => ⟨S_, .f32⟩
  | 11 => ⟨S64x64, .f32⟩
  | 12 => ⟨S64x64, .f32⟩
  | 13 => ⟨S64x64, .f32⟩
  | 14 => ⟨S64x64, .f32⟩
  | 15 => ⟨S_, .f32⟩
  | 16 => ⟨S64x64, .f32⟩
  | 17 => ⟨S64x64, .f32⟩
  | 18 => ⟨S64x64, .f32⟩
  | 19 => ⟨S64x802816, .f32⟩
  | 20 => ⟨S64x802816, .f32⟩
  | 21 => ⟨S64x802816, .f32⟩
  | 22 => ⟨S64x64x4x56x56, .f32⟩
  | 23 => ⟨S64x4x64x56x56, .f32⟩
  | 24 => ⟨S64x256x56x56, .f32⟩
  | _ => ⟨S64x256x56x56, .f32⟩

abbrev hbmTy (i : Nat) : BufTy := match i / 128 with
  | 0 => hbmTy0_0 i
  | 1 => hbmTy0_1 i
  | _ => ⟨S64x256x56x56, .f32⟩

abbrev bufTy : (tb : Table) → Fin (tcTables nBuf tb) → BufTy
  | .hbm, ⟨i, _⟩ => hbmTy i
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_cst : Ref sig .tc := ⟨.hbm, 31, rfl⟩
abbrev main_call0_v1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_13 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_14 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_15 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_16 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_17 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_18 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_19 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_20 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_21 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_22 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_23 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩

abbrev nD : Nat := 1
abbrev τ : Topo := Topo.v7x

variable {F : FTy → Type} [FloatOps F]

class Facts₀ : Prop where
  shapeCasts_S64x256x56x56_S64x4x64x56x56 : S64x256x56x56.ShapeCasts S64x4x64x56x56
  transposes_S64x4x64x56x56_S64x64x4x56x56_2_0_1_3_4 : S64x4x64x56x56.Transposes [2, 0, 1, 3, 4] S64x64x4x56x56
  shapeCasts_S64x64x4x56x56_S64x802816 : S64x64x4x56x56.ShapeCasts S64x802816
  reducesTo_S64x802816_S64_d1 : S64x802816.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x802816_0_1 : S64x1.BroadcastsInDim S64x802816 (![0, 1] : Fin 2 → Fin S64x802816.rank)
  transposes_S64x802816_S802816x64_1_0 : S64x802816.Transposes [1, 0] S802816x64
  bcast_S_S64x64 : S_.BroadcastsInDim S64x64 (![] : Fin 0 → Fin S64x64.rank)
  reducesTo_S64x64_S_d0_1 : S64x64.ReducesTo [0, 1] S_
  shapeCasts_S64x802816_S64x64x4x56x56 : S64x802816.ShapeCasts S64x64x4x56x56
  transposes_S64x64x4x56x56_S64x4x64x56x56_1_2_0_3_4 : S64x64x4x56x56.Transposes [1, 2, 0, 3, 4] S64x4x64x56x56
  shapeCasts_S64x4x64x56x56_S64x256x56x56 : S64x4x64x56x56.ShapeCasts S64x256x56x56
  dot_S64x802816_S802816x64_S64x64_1_0_0_1_n_n_wf : DotDims.WF S64x802816 S802816x64 S64x64 [1] [0] [0] [1] [] []
  dot_S64x64_S64x64_S64x64_1_0_0_1_n_n_wf : DotDims.WF S64x64 S64x64 S64x64 [1] [0] [0] [1] [] []
  dot_S64x64_S64x802816_S64x802816_1_0_0_1_n_n_wf : DotDims.WF S64x64 S64x802816 S64x802816 [1] [0] [0] [1] [] []

variable [Facts₀]

def dot_S64x802816_S802816x64_S64x64_1_0_0_1_n_n : DotDims S64x802816 S802816x64 S64x64 where
  lhsContracting := [1]
  rhsContracting := [0]
  lhsNonContracting := [0]
  rhsNonContracting := [1]
  lhsBatch := []
  rhsBatch := []
  wf := dot_S64x802816_S802816x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x802816_S64x802816_1_0_0_1_n_n : DotDims S64x64 S64x802816 S64x802816 where
  lhsContracting := [1]
  rhsContracting := [0]
  lhsNonContracting := [0]
  rhsNonContracting := [1]
  lhsBatch := []
  rhsBatch := []
  wf := dot_S64x64_S64x802816_S64x802816_1_0_0_1_n_n_wf

class Facts : Prop extends Facts₀ where

variable [Facts]
-- ==== Proof.KI.Stats.lean ====
/-
  The first launch (the statistics): a 2 × 8 grid; at grid point (p, j) the body reads a block of sixteen
  rows of the input and adds, row by row, the row's lane sums into a 64-column and its Gram matrix into a 64×64
  matrix, both kept in the output windows' staging buffers across the eight points of one p and zeroed at j = 0.
  Stated here: what one trip of the body's loop adds as functions of the contents (`acc1`, `acc2`), the loop and the
  whole body at known contents in the two cases (the point resets, or it does not), what the two output blocks hold
  after the body at each point by recursion on the point (`outs0`, with its two equations `outs0_reset` /
  `outs0_step`), the pipeline's proof data, the body obligation, and each output as the fold over its run of eight
  points.
  At a point that resets, the body loads each output buffer once before storing zeros into it; what that load reads
  is never used, so the buffers' contents there are arbitrary and the result does not depend on them.
-/
import proofs.«165382_j37855841747396_2_alg».proof.Proof.Gen.KernelIdeal.Launch
import proofs.«165382_j37855841747396_2_alg».proof.Proof.Gen.KernelIdeal.Skeleton
import proofs.«165382_j37855841747396_2_alg».proof.Proof.Gen.KernelIdeal.Loops
import proofs.«165382_j37855841747396_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.WholeRead

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What one trip adds, as functions of the contents -/

/-- Row `k` of the sixteen-row input block, as the trip's load reads it. -/
def rowOf (x : Vec F S16x64x3136 .f32) (k : Fin k0_t1_loop.trips) : Vec F S1x64x3136 .f32 :=
  View.ld x (Rect.unit (s := S16x64x3136) (k0_off1 k) S1x64x3136.size (k0_off1_inb k))

/-- The 64-column after `k` trips over the block `x`, started from `a`: each trip adds its row's lane sums. -/
def acc1 (x : Vec F S16x64x3136 .f32) : ℕ → Vec F S1x64x1 .f32 → Vec F S1x64x1 .f32
  | 0, a => a
  | k + 1, a => if h : k < k0_t1_loop.trips then k0_pay4 (rowOf x ⟨k, h⟩) (acc1 x k a) else acc1 x k a

/-- The 64×64 matrix after `k` trips over the block `x`, started from `b`: each trip adds its row's Gram matrix. -/
def acc2 (x : Vec F S16x64x3136 .f32) : ℕ → Vec F S1x64x64 .f32 → Vec F S1x64x64 .f32
  | 0, b => b
  | k + 1, b => if h : k < k0_t1_loop.trips then k0_pay5 (rowOf x ⟨k, h⟩) (acc2 x k b) else acc2 x k b

theorem acc1_zero (x : Vec F S16x64x3136 .f32) (a : Vec F S1x64x1 .f32) : acc1 x 0 a = a := rfl
theorem acc2_zero (x : Vec F S16x64x3136 .f32) (b : Vec F S1x64x64 .f32) : acc2 x 0 b = b := rfl

theorem acc1_succ (x : Vec F S16x64x3136 .f32) (a : Vec F S1x64x1 .f32) (k : Fin k0_t1_loop.trips) :
    acc1 x (k.val + 1) a = k0_pay4 (rowOf x k) (acc1 x k.val a) := by
  rw [acc1, dif_pos k.isLt]

theorem acc2_succ (x : Vec F S16x64x3136 .f32) (b : Vec F S1x64x64 .f32) (k : Fin k0_t1_loop.trips) :
    acc2 x (k.val + 1) b = k0_pay5 (rowOf x k) (acc2 x k.val b) := by
  rw [acc2, dif_pos k.isLt]

/-- The loop runs sixteen trips. -/
theorem trips16 : k0_t1_loop.trips = 16 := by decide +kernel

/-! ## Whole-buffer loads and stores through a whole memref held at known contents -/

section Whole

variable {κ : Kind} {sp : Space} {S : Shape} {e : EltTy} {m : Memref sig κ sp S e}

/-- A load through a rectangle of a whole memref held at the contents reading `X` reads `X` on the rectangle. -/
theorem readAt_unread_rect (h : m.IsWhole) (X : S.Idx → Elt F e) (r : Rect S) :
    m.view.readAt (Elt F) r.toLoadRect (h.unread X) = View.ld X r := by
  funext j; exact h.readAt_unread X r.toLoadRect j

/-- A load of the whole of it reads `X`. -/
theorem readAt_unread_whole (h : m.IsWhole) (X : S.Idx → Elt F e) {off : Fin S.rank → ℕ} (h0 : off = fun _ => 0)
    (inb : ∀ a, off a + S.size a ≤ S.size a) :
    m.view.readAt (Elt F) (Rect.unit off S.size inb).toLoadRect (h.unread X) = X := by
  rw [readAt_unread_rect h X, View.ld_unit_zero h0 inb]

/-- One store of the whole of a buffer leaves its payload, whatever the buffer held. -/
theorem read_writes_whole_unit (v : View sig κ sp S e) (f : v.ty.Contents (Elt F)) {off : Fin S.rank → ℕ} (h0 : off = fun _ => 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h0 inb y⟩),
    View.canon_unit_zero h0 inb]

end Whole

theorem zero3 : (![0, 0, 0] : Fin 3 → ℕ) = fun _ => 0 := by funext a; fin_cases a <;> rfl

/-! ## One trip, and the loop -/

/-- ONE TRIP at known contents: the input block at `x`, the column at `a`, the matrix at `b`; the trip leaves the
    column at `a` plus row `k`'s lane sums and the matrix at `b` plus row `k`'s Gram matrix. -/
theorem trip_run (c : Dev nD) (i : grid0.Coords) (arg2 : Memref sig .tc .vmem S16x64x3136 .f32) (harg2 : arg2.IsWhole)
    (arg3 : Memref sig .tc .vmem S1x64x1 .f32) (harg3 : arg3.IsWhole) (arg4 : Memref sig .tc .vmem S1x64x64 .f32) (harg4 : arg4.IsWhole)
    (x : Vec F S16x64x3136 .f32) (a : Vec F S1x64x1 .f32) (b : Vec F S1x64x64 .f32) (k : Fin k0_t1_loop.trips) (E : Set ℕ) :
    (iprop(owns (c : Thread nD τ) arg2 fullShare x ∗ owns (c : Thread nD τ) arg3 fullShare a ∗ owns (c : Thread nD τ) arg4 fullShare b) : sProp 𝕄)
      ⊢ wp frame (wpE (defs₀ (F := F)) Variants.none (c : Thread nD τ) none) E (k0_t1_body (F := F) i arg2 harg2 arg3 harg3 arg4 harg4 k PUnit.unit)
          (fun _ => iprop(owns (c : Thread nD τ) arg2 fullShare x ∗ owns (c : Thread nD τ) arg3 fullShare (k0_pay4 (rowOf x k) a)
            ∗ owns (c : Thread nD τ) arg4 fullShare (k0_pay5 (rowOf x k) b))) := by
  have hk : k.val < 16 := Nat.lt_of_lt_of_le k.isLt k0_t1_abs.2.1
  unfold k0_t1_body owns
  iintro ⟨⟨%f2, %hf2, H2⟩, ⟨%f3, %hf3, H3⟩, ⟨%f4, %hf4, H4⟩⟩
  obtain rfl := harg2.eq_unread hf2; obtain rfl := harg3.eq_unread hf3; obtain rfl := harg4.eq_unread hf4
  sl_exec
  sl_step
  isplitl [H2]
  · iexists _; isplitr; · ipureintro; exact harg2.read_unread _
    iexact H2
  isplitl [H3]
  · iexists _; isplitr
    swap; · iexact H3
    ipureintro
    rw [read_writes_whole_unit _ _ zero3, readAt_unread_rect harg2, readAt_unread_whole harg3 _ zero3]
    rfl
  · iexists _; isplitr
    swap; · iexact H4
    ipureintro
    rw [read_writes_whole_unit _ _ zero3, readAt_unread_rect harg2, readAt_unread_whole harg4 _ zero3]
    rfl

/-- The loop's invariant: before trip `k` the column and the matrix hold the first `k` rows' sums over what they held at entry. -/
def loopI (c : Dev nD) (arg2 : Memref sig .tc .vmem S16x64x3136 .f32) (arg3 : Memref sig .tc .vmem S1x64x1 .f32) (arg4 : Memref sig .tc .vmem S1x64x64 .f32)
    (x : Vec F S16x64x3136 .f32) (a : Vec F S1x64x1 .f32) (b : Vec F S1x64x64 .f32) (k : ℕ) (_ : Unit) : sProp 𝕄 :=
  iprop(owns (c : Thread nD τ) arg2 fullShare x ∗ owns (c : Thread nD τ) arg3 fullShare (acc1 x k a) ∗ owns (c : Thread nD τ) arg4 fullShare (acc2 x k b))

/-- THE LOOP at known contents: sixteen trips take the column from `a` to `acc1 x 16 a` and the matrix from `b` to `acc2 x 16 b`. -/
theorem loop_run (c : Dev nD) (i : grid0.Coords) (arg2 : Memref sig .tc .vmem S16x64x3136 .f32) (harg2 : arg2.IsWhole)
    (arg3 : Memref sig .tc .vmem S1x64x1 .f32) (harg3 : arg3.IsWhole) (arg4 : Memref sig .tc .vmem S1x64x64 .f32) (harg4 : arg4.IsWhole)
    (x : Vec F S16x64x3136 .f32) (a : Vec F S1x64x1 .f32) (b : Vec F S1x64x64 .f32) (E : Set ℕ) :
    (iprop(owns (c : Thread nD τ) arg2 fullShare x ∗ owns (c : Thread nD τ) arg3 fullShare a ∗ owns (c : Thread nD τ) arg4 fullShare b) : sProp 𝕄)
      ⊢ wp frame (wpE (defs₀ (F := F)) Variants.none (c : Thread nD τ) none) E
          (Scf.Loop.for k0_t1_loop k0_t1_ok ⟨⟩ (k0_t1_body (F := F) i arg2 harg2 arg3 harg3 arg4 harg4))
          (fun _ => iprop(owns (c : Thread nD τ) arg2 fullShare x ∗ owns (c : Thread nD τ) arg3 fullShare (acc1 x 16 a)
            ∗ owns (c : Thread nD τ) arg4 fullShare (acc2 x 16 b))) := by
  have hstep : ∀ (k : Fin k0_t1_loop.trips) (u : Unit), loopI c arg2 arg3 arg4 x a b k.val u
      ⊢ wp frame (wpE (defs₀ (F := F)) Variants.none (c : Thread nD τ) none) E (k0_t1_body (F := F) i arg2 harg2 arg3 harg3 arg4 harg4 k u)
          (loopI c arg2 arg3 arg4 x a b (k.val + 1)) := by
    intro k u
    unfold loopI
    rw [acc1_succ, acc2_succ]
    exact trip_run c i arg2 harg2 arg3 harg3 arg4 harg4 x (acc1 x k.val a) (acc2 x k.val b) k E
  iintro H
  iapply (Scf.wp_for frame (wpE (defs₀ (F := F)) Variants.none (c : Thread nD τ) none) E k0_t1_loop.lb k0_t1_loop.ub k0_t1_loop.st k0_t1_ok ⟨⟩
    (k0_t1_body (F := F) i arg2 harg2 arg3 harg3 arg4 harg4) (loopI c arg2 arg3 arg4 x a b) hstep)
  isplitl [H]
  · unfold loopI; iexact H
  · iintro %u H
    unfold loopI
    rw [show Scf.trips k0_t1_loop.lb k0_t1_loop.ub k0_t1_loop.st = 16 from trips16]
    iexact H

/-! ## The body's reset condition, in closed form -/

/-- The condition of the body's `scf.if`, from the grid coordinates (the skeleton's scalar chain substituted). -/
abbrev cond0 (i : grid0.Coords) : Prop :=
  (Scalar.cmpi .ne (Scalar.extui (Scalar.cmpi .eq (BitVec.ofNat 32 (i 1).val) 0#32)) 0#32) = 1#1

/-- It holds at the first of each eight points (j = 0) only — decided over the grid. -/
theorem hcond0 : ∀ t : Fin cfg0.N, cond0 (grid0.coords t) ↔ t.val % 8 = 0 :=
  (by decide +kernel : ∀ t : Fin grid0.N, cond0 (grid0.coords t) ↔ t.val % 8 = 0)

/-- Two programs in a row: the first to `R`, the second from `R`. -/
theorem wp_seq {α β : Type} (c : Dev nD) (E : Set ℕ) {p : Prog (TpuEff nD τ sig (Elt F) Λ₀ .tc) α} {k : α → Prog (TpuEff nD τ sig (Elt F) Λ₀ .tc) β}
    {P : sProp 𝕄} {R : α → sProp 𝕄} {Q : β → sProp 𝕄}
    (h1 : P ⊢ wp frame (wpE (defs₀ (F := F)) Variants.none (c : Thread nD τ) none) E p R)
    (h2 : ∀ a, R a ⊢ wp frame (wpE (defs₀ (F := F)) Variants.none (c : Thread nD τ) none) E (k a) Q) :
    P ⊢ wp frame (wpE (defs₀ (F := F)) Variants.none (c : Thread nD τ) none) E (p >>= k) Q := by
  rw [wp_bind]; exact h1.trans (wp_mono _ _ _ h2)

/-- The loop and the return after it, at known contents. -/
theorem tail_run (c : Dev nD) (i : grid0.Coords) (arg2 : Memref sig .tc .vmem S16x64x3136 .f32) (harg2 : arg2.IsWhole)
    (arg3 : Memref sig .tc .vmem S1x64x1 .f32) (harg3 : arg3.IsWhole) (arg4 : Memref sig .tc .vmem S1x64x64 .f32) (harg4 : arg4.IsWhole)
    (x : Vec F S16x64x3136 .f32) (a : Vec F S1x64x1 .f32) (b : Vec F S1x64x64 .f32) (E : Set ℕ) :
    (iprop(owns (c : Thread nD τ) arg2 fullShare x ∗ owns (c : Thread nD τ) arg3 fullShare a ∗ owns (c : Thread nD τ) arg4 fullShare b) : sProp 𝕄)
      ⊢ wp frame (wpE (defs₀ (F := F)) Variants.none (c : Thread nD τ) none) E
          (Scf.Loop.for k0_t1_loop k0_t1_ok PUnit.unit (k0_t1_body (F := F) i arg2 harg2 arg3 harg3 arg4 harg4) >>= fun _ =>
            (Pure.pure PUnit.unit : Prog (TpuEff nD τ sig (Elt F) Λ₀ .tc) PUnit))
          (fun _ => iprop(owns (c : Thread nD τ) arg2 fullShare x ∗ owns (c : Thread nD τ) arg3 fullShare (acc1 x 16 a)
            ∗ owns (c : Thread nD τ) arg4 fullShare (acc2 x 16 b))) :=
by
  refine wp_seq c E (loop_run c i arg2 harg2 arg3 harg3 arg4 harg4 x a b E) (fun _ => ?_)
  exact le_wp_ret (M := 𝕄) frame (wpE (defs₀ (F := F)) Variants.none (c : Thread nD τ) none) E PUnit.unit
    (fun _ => iprop(owns (c : Thread nD τ) arg2 fullShare x ∗ owns (c : Thread nD τ) arg3 fullShare (acc1 x 16 a)
      ∗ owns (c : Thread nD τ) arg4 fullShare (acc2 x 16 b)))

/-- THE BODY AT A POINT THAT RESETS (j = 0): whatever the two output buffers held — the body's first loads of them are
    dead —, they are zeroed and the sixteen trips accumulate from zeros. -/
theorem body_reset (c : Dev nD) (i : grid0.Coords) (arg2 : Memref sig .tc .vmem S16x64x3136 .f32) (harg2 : arg2.IsWhole)
    (arg3 : Memref sig .tc .vmem S1x64x1 .f32) (harg3 : arg3.IsWhole) (arg4 : Memref sig .tc .vmem S1x64x64 .f32) (harg4 : arg4.IsWhole)
    (hc : cond0 i) (x : Vec F S16x64x3136 .f32) (E : Set ℕ) :
    (iprop(owns (c : Thread nD τ) arg2 fullShare x ∗ (∃ d, owns (c : Thread nD τ) arg3 fullShare d) ∗ (∃ d, owns (c : Thread nD τ) arg4 fullShare d)) : sProp 𝕄)
      ⊢ wp frame (wpE (defs₀ (F := F)) Variants.none (c : Thread nD τ) none) E (cc0__stats_kernel (F := F) i arg2 harg2 arg3 harg3 arg4 harg4)
          (fun _ => iprop(owns (c : Thread nD τ) arg2 fullShare x ∗ owns (c : Thread nD τ) arg3 fullShare (acc1 x 16 (k0_pay1 (F := F)))
            ∗ owns (c : Thread nD τ) arg4 fullShare (acc2 x 16 (k0_pay2 (F := F))))) := by
  simp only [cc0__stats_kernel_eq_skeleton]; unfold cc0__stats_kernel_skel
  dsimp only
  rw [dif_pos hc]
  -- the loop and the return after it, named, so that the run of the zeroing stores stops before them
  generalize hT : (Scf.Loop.for k0_t1_loop k0_t1_ok PUnit.unit (k0_t1_body (F := F) i arg2 harg2 arg3 harg3 arg4 harg4) >>= fun _ =>
            (Pure.pure PUnit.unit : Prog (TpuEff nD τ sig (Elt F) Λ₀ .tc) PUnit)) = T
  unfold owns
  iintro ⟨⟨%f2, %hf2, H2⟩, ⟨%d3, %f3, -, H3⟩, ⟨%d4, %f4, -, H4⟩⟩
  obtain rfl := harg2.eq_unread hf2
  sl_exec
  subst hT
  iapply (tail_run c i arg2 harg2 arg3 harg3 arg4 harg4 x (k0_pay1 (F := F)) (k0_pay2 (F := F)) E)
  unfold owns
  isplitl [H2]
  · iexists _; isplitr; · ipureintro; exact harg2.read_unread _
    iexact H2
  isplitl [H3]
  · iexists _; isplitr
    swap; · iexact H3
    ipureintro; exact read_writes_whole_unit _ _ zero3 _ _
  · iexists _; isplitr
    swap; · iexact H4
    ipureintro; exact read_writes_whole_unit _ _ zero3 _ _

/-- THE BODY AT A POINT THAT DOES NOT RESET (j ≠ 0): the sixteen trips accumulate onto what the buffers hold. -/
theorem body_step (c : Dev nD) (i : grid0.Coords) (arg2 : Memref sig .tc .vmem S16x64x3136 .f32) (harg2 : arg2.IsWhole)
    (arg3 : Memref sig .tc .vmem S1x64x1 .f32) (harg3 : arg3.IsWhole) (arg4 : Memref sig .tc .vmem S1x64x64 .f32) (harg4 : arg4.IsWhole)
    (hc : ¬cond0 i) (x : Vec F S16x64x3136 .f32) (a : Vec F S1x64x1 .f32) (b : Vec F S1x64x64 .f32) (E : Set ℕ) :
    (iprop(owns (c : Thread nD τ) arg2 fullShare x ∗ owns (c : Thread nD τ) arg3 fullShare a ∗ owns (c : Thread nD τ) arg4 fullShare b) : sProp 𝕄)
      ⊢ wp frame (wpE (defs₀ (F := F)) Variants.none (c : Thread nD τ) none) E (cc0__stats_kernel (F := F) i arg2 harg2 arg3 harg3 arg4 harg4)
          (fun _ => iprop(owns (c : Thread nD τ) arg2 fullShare x ∗ owns (c : Thread nD τ) arg3 fullShare (acc1 x 16 a)
            ∗ owns (c : Thread nD τ) arg4 fullShare (acc2 x 16 b))) := by
  simp only [cc0__stats_kernel_eq_skeleton]; unfold cc0__stats_kernel_skel
  dsimp only
  rw [dif_neg hc]
  exact tail_run c i arg2 harg2 arg3 harg3 arg4 harg4 x a b E

/-! ## What the outputs hold after each point -/

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the two output blocks hold after the body at a point that resets: the sixteen rows of the point's input block
    accumulated from zeros. -/
def resetAt (c : Dev nD) (n : ℕ) (hn : n < cfg0.N) : Vec F S1x64x1 .f32 × Vec F S1x64x64 .f32 :=
  (acc1 (iblk0 V c 0 ⟨n, hn⟩) 16 (k0_pay1 (F := F)), acc2 (iblk0 V c 0 ⟨n, hn⟩) 16 (k0_pay2 (F := F)))

/-- What they hold after the body at a point that does not: the sixteen rows accumulated onto what the point before left. -/
def stepAt (c : Dev nD) (n : ℕ) (hn : n < cfg0.N) (prev : Vec F S1x64x1 .f32 × Vec F S1x64x64 .f32) :
    Vec F S1x64x1 .f32 × Vec F S1x64x64 .f32 :=
  (acc1 (iblk0 V c 0 ⟨n, hn⟩) 16 prev.1, acc2 (iblk0 V c 0 ⟨n, hn⟩) 16 prev.2)

/-- What the two output blocks hold after the body at position `n` of the grid: at the first of each eight points the
    accumulation starts from zeros, at the others from what position `n - 1` left (the staging buffers are not written
    back in between). -/
def outs0 (c : Dev nD) : (n : ℕ) → n < cfg0.N → Vec F S1x64x1 .f32 × Vec F S1x64x64 .f32
  | 0, hn => resetAt V c 0 hn
  | n + 1, hn =>
    if (n + 1) % 8 = 0 then resetAt V c (n + 1) hn
    else stepAt V c (n + 1) hn (outs0 c n (Nat.lt_of_succ_lt hn))

/-- `outs0` at a point that resets. -/
theorem outs0_reset (c : Dev nD) (n : ℕ) (hn : n < cfg0.N) (h : n % 8 = 0) : outs0 V c n hn = resetAt V c n hn := by
  cases n with
  | zero => rfl
  | succ n => rw [outs0, if_pos h]

/-- `outs0` at a point that does not: the step from the point before. -/
theorem outs0_step (c : Dev nD) (n : ℕ) (hn : n + 1 < cfg0.N) (h : ¬(n + 1) % 8 = 0) :
    outs0 V c (n + 1) hn = stepAt V c (n + 1) hn (outs0 V c n (Nat.lt_of_succ_lt hn)) := by
  rw [outs0, if_neg h]

/-- The same at a point of the grid named by itself. -/
theorem outs0_step' (c : Dev nD) (t : Fin cfg0.N) (h : ¬t.val % 8 = 0) :
    outs0 V c t.val t.isLt = stepAt V c t.val t.isLt (outs0 V c (t.val - 1) (Nat.lt_of_le_of_lt (Nat.sub_le _ _) t.isLt)) := by
  obtain ⟨n, hn⟩ := t
  cases n with
  | zero => exact absurd (Nat.zero_mod _) h
  | succ n => exact outs0_step V c n hn h

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outs0 V c t.val t.isLt).1
    | ⟨2, _⟩ => (outs0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = (outs0 V c t.val t.isLt).1 := by dsimp only [dat0]
theorem after0_2 (c : Dev nD) (t : Fin cfg0.N) : (dat0 V c).after 2 t = (outs0 V c t.val t.isLt).2 := by dsimp only [dat0]

/-- The input window's current staging buffer holds its block at every point (it is fetched at every point, and the body
    leaves it in place). -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- At a point that does not reset, the column's current staging buffer holds what the body left at the point before: the
    point is not the first, and the buffer was not written back in between (write-backs happen at the points ≡ 7 mod 8). -/
theorem before0_1_kept (c : Dev nD) (t : Fin cfg0.N) (h0 : ¬t.val % 8 = 0) (d) :
    (dat0 V c).before 1 t d = (outs0 V c (t.val - 1) (Nat.lt_of_le_of_lt (Nat.sub_le _ _) t.isLt)).1 := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    (fun _ => rfl) (fun _ _ => rfl)]
  dsimp only [dat0]

/-- The same for the matrix. -/
theorem before0_2_kept (c : Dev nD) (t : Fin cfg0.N) (h0 : ¬t.val % 8 = 0) (d) :
    (dat0 V c).before 2 t d = (outs0 V c (t.val - 1) (Nat.lt_of_le_of_lt (Nat.sub_le _ _) t.isLt)).2 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation, at a generic point -/

/-- Each window's current staging memref at point `t`, spelled as the pipeline passes it, and its wholeness. -/
abbrev ms0_0 (t : Fin cfg0.N) : Memref sig .tc .vmem S16x64x3136 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x64 .f32 := win0_2.stage (cfg0.slots t 2)
abbrev hs0_2 (t : Fin cfg0.N) : (ms0_2 t).IsWhole := hstage0_2 ((cfg0.slots t 2).cast nbuf0_2)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 800000 in
/-- The body at any point: the input's memref holds its block; the closed form says whether the point resets; where it does
    not, the two output buffers hold what the point before left; so the run of that case applies; the invariant and what
    the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  by_cases h0 : t.val % 8 = 0
  · rw [outs0_reset V c t.val t.isLt h0]
    unfold resetAt
    iintro ⟨HΦ, Ho, ⟨%d0, H0⟩, ⟨%d1, H1⟩, ⟨%d2, H2⟩⟩
    iapply (wp_wand_r frame (wpE (defs₀ (F := F)) Variants.none (c : Thread nD τ) none) Set.univ)
    isplitl [H0 H1 H2]
    · iapply (body_reset c (grid0.coords t) (ms0_0 t) (hs0_0 t) (ms0_1 t) (hs0_1 t) (ms0_2 t) (hs0_2 t) ((hcond0 t).mpr h0) (iblk0 V c 0 t) Set.univ)
      isplitl [H0]; · iexact H0
      isplitl [H1]; · iexists _; iexact H1
      iexists _; iexact H2
    · iintro %_ ⟨H0, H1, H2⟩
      isplitl [HΦ]; · iexact HΦ
      isplitl [Ho]; · iexact Ho
      isplitl [H0]; · iexact H0
      isplitl [H1]; · iexact H1
      iexact H2
  · rw [outs0_step' V c t h0]
    simp only [before0_1_kept V c t h0, before0_2_kept V c t h0]
    unfold stepAt
    iintro ⟨HΦ, Ho, ⟨%d0, H0⟩, ⟨%d1, H1⟩, ⟨%d2, H2⟩⟩
    iapply (wp_wand_r frame (wpE (defs₀ (F := F)) Variants.none (c : Thread nD τ) none) Set.univ)
    isplitl [H0 H1 H2]
    · iapply (body_step c (grid0.coords t) (ms0_0 t) (hs0_0 t) (ms0_1 t) (hs0_1 t) (ms0_2 t) (hs0_2 t) (fun h => h0 ((hcond0 t).mp h)) (iblk0 V c 0 t) _ _ Set.univ)
      isplitl [H0]; · iexact H0
      isplitl [H1]; · iexact H1
      iexact H2
    · iintro %_ ⟨H0, H1, H2⟩
      isplitl [HΦ]; · iexact HΦ
      isplitl [Ho]; · iexact Ho
      isplitl [H0]; · iexact H0
      isplitl [H1]; · iexact H1
      iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The value half: the two outputs one by one, and each as the fold over its run of eight points

Each output, as a point-indexed quantity, resets at the multiples of eight and steps from the point before elsewhere:
so at any point it is the fold (`Pipeline.accAt`) over the run of points from the last multiple of eight. -/

/-- The column after the body at a point that resets; -/
def reset1 (c : Dev nD) (n : ℕ) (hn : n < cfg0.N) : Vec F S1x64x1 .f32 := acc1 (iblk0 V c 0 ⟨n, hn⟩) 16 (k0_pay1 (F := F))
/-- at a point that does not, over what the point before left. -/
def step1 (c : Dev nD) (n : ℕ) (hn : n < cfg0.N) (prev : Vec F S1x64x1 .f32) : Vec F S1x64x1 .f32 := acc1 (iblk0 V c 0 ⟨n, hn⟩) 16 prev
/-- The matrix after the body at a point that resets; -/
def reset2 (c : Dev nD) (n : ℕ) (hn : n < cfg0.N) : Vec F S1x64x64 .f32 := acc2 (iblk0 V c 0 ⟨n, hn⟩) 16 (k0_pay2 (F := F))
/-- at a point that does not, over what the point before left. -/
def step2 (c : Dev nD) (n : ℕ) (hn : n < cfg0.N) (prev : Vec F S1x64x64 .f32) : Vec F S1x64x64 .f32 := acc2 (iblk0 V c 0 ⟨n, hn⟩) 16 prev

theorem outs0_reset_fst (c : Dev nD) (n : ℕ) (hn : n < cfg0.N) (h : n % 8 = 0) : (outs0 V c n hn).1 = reset1 V c n hn := by
  rw [outs0_reset V c n hn h]; rfl
theorem outs0_reset_snd (c : Dev nD) (n : ℕ) (hn : n < cfg0.N) (h : n % 8 = 0) : (outs0 V c n hn).2 = reset2 V c n hn := by
  rw [outs0_reset V c n hn h]; rfl
theorem outs0_step_fst (c : Dev nD) (n : ℕ) (hn : n + 1 < cfg0.N) (h : ¬(n + 1) % 8 = 0) :
    (outs0 V c (n + 1) hn).1 = step1 V c (n + 1) hn (outs0 V c n (Nat.lt_of_succ_lt hn)).1 := by
  rw [outs0_step V c n hn h]; rfl
theorem outs0_step_snd (c : Dev nD) (n : ℕ) (hn : n + 1 < cfg0.N) (h : ¬(n + 1) % 8 = 0) :
    (outs0 V c (n + 1) hn).2 = step2 V c (n + 1) hn (outs0 V c n (Nat.lt_of_succ_lt hn)).2 := by
  rw [outs0_step V c n hn h]; rfl

/-- The column after the body at point `t` is the fold over the points `8·(t/8) … t`: zeros, then each point's sixteen rows. -/
theorem outs0_fst_eq_accAt (c : Dev nD) (t : ℕ) (ht : t < cfg0.N) (h' : 8 * (t / 8) + t % 8 < cfg0.N) :
    (outs0 V c t ht).1 = Pipeline.accAt (reset1 V c) (step1 V c) (8 * (t / 8)) (t % 8) h' :=
  Pipeline.eq_accAt_of_mod (fun n h => (outs0 V c n h).1) 8 (reset1 V c) (step1 V c)
    (outs0_reset_fst V c) (outs0_step_fst V c) (by decide) t ht h'

/-- The matrix likewise. -/
theorem outs0_snd_eq_accAt (c : Dev nD) (t : ℕ) (ht : t < cfg0.N) (h' : 8 * (t / 8) + t % 8 < cfg0.N) :
    (outs0 V c t ht).2 = Pipeline.accAt (reset2 V c) (step2 V c) (8 * (t / 8)) (t % 8) h' :=
  Pipeline.eq_accAt_of_mod (fun n h => (outs0 V c n h).2) 8 (reset2 V c) (step2 V c)
    (outs0_reset_snd V c) (outs0_step_snd V c) (by decide) t ht h'

end Cert.KernelIdeal.Hand

end
-- ==== Proof.KI.Affine.lean ====
/-
  The second launch (the affine map): on each of the 32 grid points the body reads its block of eight
  rows of the input, and for each row r stores  a · (x_r − μ) + β  into row r of the output block, where a is the
  64×64 matrix, μ the column of means and β the bias column, each staged whole. Stated here: what the output block
  holds after the body as a function of the four input blocks, the pipeline's proof data, and the body obligation.
-/
import proofs.«165382_j37855841747396_2_alg».proof.Proof.Gen.KernelIdeal.Launch
import proofs.«165382_j37855841747396_2_alg».proof.Proof.Gen.KernelIdeal.Skeleton
import proofs.«165382_j37855841747396_2_alg».proof.Proof.Gen.KernelIdeal.Loops
import proofs.«165382_j37855841747396_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ (UR sig nD τ) ℕ

/-- The loop makes eight trips. -/
theorem trips1 : k1_t1_loop.trips = 8 := by decide +kernel

theorem lt8 (k : Fin k1_t1_loop.trips) : k.val < 8 := Nat.lt_of_lt_of_le k.isLt k1_t1_abs.2.1

/-- Row `k` of a block of eight rows: the unit-stride rectangle the body loads and stores through at trip `k`. -/
abbrev row1 (k : Fin k1_t1_loop.trips) : Rect S8x64x3136 := Rect.unit (s := S8x64x3136) (k1_off1 k) S1x64x3136.size (k1_off1_inb k)

/-- The whole 64×64 matrix and the whole 64×1 column, as the body loads them. -/
abbrev rMat : Rect S64x64 := Rect.unit (s := S64x64) ![0, 0] S64x64.size inb_S64x64_S64x64_0_0
abbrev rCol : Rect S64x1 := Rect.unit (s := S64x1) ![0, 0] S64x1.size inb_S64x1_S64x1_0_0

/-- What the body leaves in the output block: row by row the payload of that row of the input block. -/
def out1_4 (x0 : Vec F S8x64x3136 .f32) (a : Vec F S64x64 .f32) (mu : Vec F S64x1 .f32) (be : Vec F S64x1 .f32) : Vec F S8x64x3136 .f32 :=
  fun y => k1_pay1 a mu be (fun j => x0 (ix3 (y 0 : Fin 8) (j 1 : Fin 64) (j 2 : Fin 3136))) (ix3 (0 : Fin 1) (y 1 : Fin 64) (y 2 : Fin 3136))

/-! ## Coordinates -/

theorem k1_off1_0 (k : Fin k1_t1_loop.trips) : k1_off1 k 0 = k.val := by rw [k1_off1_eq]; rfl
theorem k1_off1_1 (k : Fin k1_t1_loop.trips) : k1_off1 k 1 = 0 := by rw [k1_off1_eq]; rfl
theorem k1_off1_2 (k : Fin k1_t1_loop.trips) : k1_off1 k 2 = 0 := by rw [k1_off1_eq]; rfl

/-- The `j`-th element of row `k` sits at `(k, j₁, j₂)` of the block. -/
theorem row1_idx (k : Fin k1_t1_loop.trips) (j : (row1 k).shape.Idx) :
    (row1 k).idx j = ix3 (⟨k.val, lt8 k⟩ : Fin 8) (j 1 : Fin 64) (j 2 : Fin 3136) := by
  funext a; apply Fin.ext
  match a with
  | ⟨0, _⟩ =>
    show k1_off1 k 0 + 1 * (j 0).val = k.val
    have h : (j 0).val < 1 := (j 0).isLt
    rw [k1_off1_0]; omega
  | ⟨1, _⟩ => show k1_off1 k 1 + 1 * (j 1).val = (j 1).val; rw [k1_off1_1]; omega
  | ⟨2, _⟩ => show k1_off1 k 2 + 1 * (j 2).val = (j 2).val; rw [k1_off1_2]; omega

/-- A load of the whole matrix reads the matrix; -/
theorem ld_rMat (a : Vec F S64x64 .f32) : View.ld a rMat = a := by
  funext x
  show a (rMat.idx x) = a x
  refine congrArg a (funext fun d => Fin.ext ?_)
  match d with
  | ⟨0, _⟩ => show 0 + 1 * (x 0).val = (x 0).val; omega
  | ⟨1, _⟩ => show 0 + 1 * (x 1).val = (x 1).val; omega

/-- a load of the whole column reads the column. -/
theorem ld_rCol (v : Vec F S64x1 .f32) : View.ld v rCol = v := by
  funext x
  show v (rCol.idx x) = v x
  refine congrArg v (funext fun d => Fin.ext ?_)
  match d with
  | ⟨0, _⟩ => show 0 + 1 * (x 0).val = (x 0).val; omega
  | ⟨1, _⟩ => show 0 + 1 * (x 1).val = (x 1).val; omega

/-- Trip `k`'s payload, at its own index `x`, is the output block's contents where the store puts it. -/
theorem pay_row1 (x0 : Vec F S8x64x3136 .f32) (a : Vec F S64x64 .f32) (mu : Vec F S64x1 .f32) (be : Vec F S64x1 .f32)
    (k : Fin k1_t1_loop.trips) (x : (row1 k).shape.Idx) :
    k1_pay1 (View.ld a rMat) (View.ld mu rCol) (View.ld be rCol) (View.ld x0 (row1 k)) x = out1_4 x0 a mu be ((row1 k).emb x) := by
  rw [ld_rMat, ld_rCol, ld_rCol]
  have e1 : View.ld x0 (row1 k) = fun j => x0 (ix3 (⟨k.val, lt8 k⟩ : Fin 8) (j 1 : Fin 64) (j 2 : Fin 3136)) :=
    funext fun j => congrArg x0 (row1_idx k j)
  have e2 : x = ix3 (0 : Fin 1) (x 1 : Fin 64) (x 2 : Fin 3136) := by
    funext d
    match d with
    | ⟨0, _⟩ => exact Fin.ext (by have h : (x 0).val < 1 := (x 0).isLt; show (x 0).val = 0; omega)
    | ⟨1, _⟩ => rfl
    | ⟨2, _⟩ => rfl
  have e3 : (row1 k).emb x = ix3 (⟨k.val, lt8 k⟩ : Fin 8) (x 1 : Fin 64) (x 2 : Fin 3136) := row1_idx k x
  unfold out1_4
  rw [e3, e1]
  exact congrArg (k1_pay1 a mu be _) e2

/-! ## The trips' pieces -/

/-- Trip `k`'s one piece: a store through row `k` of the payload of the load through row `k` (the generated
    trip's definition opened, here only). -/
theorem tripL1 (𝒱 : Variants) (c : Dev nD) (bd : Option 𝒱.V) (i : grid1.Coords) (arg1 : Memref sig .tc .vmem S8x64x3136 .f32) (harg1 : arg1.IsWhole) (arg2 : Memref sig .tc .vmem S64x64 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S8x64x3136 .f32) (harg5 : arg5.IsWhole) (v0 : Vec F S64x64 .f32) (v2 : Vec F S64x1 .f32) (v4 : Vec F S64x1 .f32) (X : BufTy.Contents (Elt F) arg1.view.ty) (k : Fin k1_t1_loop.trips) :
    tripL_k1_t1 (F := F) 𝒱 c bd i arg1 harg1 arg2 harg2 arg3 harg3 arg4 harg4 arg5 harg5 v0 v2 v4 X k
      = [⟨row1 k, k1_pay1 v0 v2 v4 (arg1.view.readAt (Elt F) (row1 k).toLoadRect X)⟩] := by
  unfold tripL_k1_t1 trip_k1_t1; rfl

/-- After the eight trips the output buffer reads as any function `Gf` that every trip's payload agrees with,
    whatever it held before: each piece agrees with `Gf` and the rows cover the block. -/
theorem read_pb1 (𝒱 : Variants) (c : Dev nD) (bd : Option 𝒱.V) (i : grid1.Coords) (arg1 : Memref sig .tc .vmem S8x64x3136 .f32) (harg1 : arg1.IsWhole) (arg2 : Memref sig .tc .vmem S64x64 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S8x64x3136 .f32) (harg5 : arg5.IsWhole) (v0 : Vec F S64x64 .f32) (v2 : Vec F S64x1 .f32) (v4 : Vec F S64x1 .f32) (X : BufTy.Contents (Elt F) arg1.view.ty)
    (G0 : BufTy.Contents (Elt F) arg5.view.ty) (Gf : S8x64x3136.Idx → Elt F .f32)
    (hG : ∀ (k : Fin k1_t1_loop.trips) (x : (row1 k).shape.Idx),
      k1_pay1 v0 v2 v4 (arg1.view.readAt (Elt F) (row1 k).toLoadRect X) x = Gf ((row1 k).emb x)) :
    arg5.view.read (Elt F) (arg5.view.writes (Elt F) G0 (pb_k1_t1 (F := F) 𝒱 c bd i arg1 harg1 arg2 harg2 arg3 harg3 arg4 harg4 arg5 harg5 v0 v2 v4 X k1_t1_loop.trips)) = Gf := by
  have key : ∀ n (hn : n ≤ k1_t1_loop.trips),
      (∀ p ∈ pb_k1_t1 (F := F) 𝒱 c bd i arg1 harg1 arg2 harg2 arg3 harg3 arg4 harg4 arg5 harg5 v0 v2 v4 X n, ∀ x, p.2 x = Gf (p.1.emb x))
      ∧ (∀ y : S8x64x3136.Idx, (y 0).val < n → ∃ p ∈ pb_k1_t1 (F := F) 𝒱 c bd i arg1 harg1 arg2 harg2 arg3 harg3 arg4 harg4 arg5 harg5 v0 v2 v4 X n, y ∈ p.1.set) := by
    intro n
    induction n with
    | zero =>
      intro _
      exact ⟨fun p hp => absurd hp (by rw [pb_k1_t1]; exact List.not_mem_nil), fun y hy => absurd hy (Nat.not_lt_zero _)⟩
    | succ n ih =>
      intro hn
      obtain ⟨ih1, ih2⟩ := ih (Nat.le_of_succ_le hn)
      have hs : pb_k1_t1 (F := F) 𝒱 c bd i arg1 harg1 arg2 harg2 arg3 harg3 arg4 harg4 arg5 harg5 v0 v2 v4 X (n + 1)
          = [⟨row1 ⟨n, hn⟩, k1_pay1 v0 v2 v4 (arg1.view.readAt (Elt F) (row1 ⟨n, hn⟩).toLoadRect X)⟩]
            ++ pb_k1_t1 (F := F) 𝒱 c bd i arg1 harg1 arg2 harg2 arg3 harg3 arg4 harg4 arg5 harg5 v0 v2 v4 X n :=
        (pb_k1_t1_succ (F := F) 𝒱 c bd i arg1 harg1 arg2 harg2 arg3 harg3 arg4 harg4 arg5 harg5 v0 v2 v4 X ⟨n, hn⟩).trans (by rw [tripL1])
      rw [hs]
      refine ⟨fun p hp => ?_, fun y hy => ?_⟩
      · rcases List.mem_append.mp hp with h | h
        · obtain rfl := List.mem_singleton.mp h
          exact hG ⟨n, hn⟩
        · exact ih1 p h
      · by_cases hyn : (y 0).val < n
        · obtain ⟨p, hp, hy'⟩ := ih2 y hyn
          exact ⟨p, List.mem_append_right _ hp, hy'⟩
        · refine ⟨_, List.mem_append_left _ (List.mem_singleton.mpr rfl), ?_⟩
          show y ∈ (row1 ⟨n, hn⟩).set
          refine (Rect.mem_set_unit (inb := k1_off1_inb ⟨n, hn⟩)).mpr fun a => ?_
          match a with
          | ⟨0, _⟩ =>
            show k1_off1 ⟨n, hn⟩ 0 ≤ (y 0).val ∧ (y 0).val < k1_off1 ⟨n, hn⟩ 0 + 1
            rw [k1_off1_0]; show n ≤ (y 0).val ∧ (y 0).val < n + 1; omega
          | ⟨1, _⟩ =>
            show k1_off1 ⟨n, hn⟩ 1 ≤ (y 1).val ∧ (y 1).val < k1_off1 ⟨n, hn⟩ 1 + 64
            have h : (y 1).val < 64 := (y 1).isLt
            rw [k1_off1_1]; omega
          | ⟨2, _⟩ =>
            show k1_off1 ⟨n, hn⟩ 2 ≤ (y 2).val ∧ (y 2).val < k1_off1 ⟨n, hn⟩ 2 + 3136
            have h : (y 2).val < 3136 := (y 2).isLt
            rw [k1_off1_2]; omega
  funext y
  have hy : (y 0).val < k1_t1_loop.trips := by rw [trips1]; exact (y 0).isLt
  exact View.read_writes_apply_of_pieces arg5.view G0 Gf _ (key _ le_rfl).1 y ((key _ le_rfl).2 y hy)

/-! ## The body's triple -/

set_option maxHeartbeats 1000000 in
/-- The kernel body on whole staging memrefs, the four inputs' at read contents and the output's at anything, runs to
    the continuation holding the inputs' as they were and the output's at `out1_4` of the inputs': the three small
    inputs are loaded whole, the loop goes by its generated invariant, and what its eight stores leave reads as
    `out1_4` (`read_pb1`, `pay_row1`). -/
theorem sound_kernel1 (c : Dev nD) (E : Set ℕ) (i : grid1.Coords) (arg1 : Memref sig .tc .vmem S8x64x3136 .f32) (harg1 : arg1.IsWhole) (arg2 : Memref sig .tc .vmem S64x64 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S8x64x3136 .f32) (harg5 : arg5.IsWhole)
    (x0 : Vec F S8x64x3136 .f32) (a : Vec F S64x64 .f32) (mu : Vec F S64x1 .f32) (be : Vec F S64x1 .f32) (K : PUnit → sProp 𝕄) :
    iprop(owns (c : Thread nD τ) arg1 fullShare x0 ∗ owns (c : Thread nD τ) arg2 fullShare a ∗ owns (c : Thread nD τ) arg3 fullShare mu
        ∗ owns (c : Thread nD τ) arg4 fullShare be ∗ (∃ d, owns (c : Thread nD τ) arg5 fullShare d)
        ∗ (iprop(owns (c : Thread nD τ) arg1 fullShare x0 ∗ owns (c : Thread nD τ) arg2 fullShare a ∗ owns (c : Thread nD τ) arg3 fullShare mu
            ∗ owns (c : Thread nD τ) arg4 fullShare be ∗ owns (c : Thread nD τ) arg5 fullShare (out1_4 x0 a mu be)) -∗ K ⟨⟩))
      ⊢ wp frame (wpE (defs₀ (F := F)) Variants.none c none) E (cc1__affine_kernel i arg1 harg1 arg2 harg2 arg3 harg3 arg4 harg4 arg5 harg5) K := by
  simp only [cc1__affine_kernel_eq_skeleton]; unfold cc1__affine_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine read_pb1 Variants.none c none i arg1 harg1 arg2 harg2 arg3 harg3 arg4 harg4 arg5 harg5 _ _ _ f1 f5 _ (fun k x => ?_)
  exact pay_row1 (arg1.view.read (Elt F) f1) (arg2.view.read (Elt F) f2) (arg3.view.read (Elt F) f3) (arg4.view.read (Elt F) f4) k x

/-! ## The pipeline's proof data -/

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not: window 0 is fetched at
    every point; windows 1, 2, 3 only at the first, after which their block index never moves and the body leaves
    the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The value half: the output block index by index, and the output array after the run -/

/-- Row `r` of the output block is the payload of row `r` of the input block (by definition of `out1_4`). -/
theorem out1_4_apply (x0 : Vec F S8x64x3136 .f32) (a : Vec F S64x64 .f32) (mu : Vec F S64x1 .f32) (be : Vec F S64x1 .f32)
    (r : Fin 8) (g : Fin 64) (l : Fin 3136) :
    out1_4 x0 a mu be (ix3 r g l)
      = k1_pay1 a mu be (fun j => x0 (ix3 r (j 1 : Fin 64) (j 2 : Fin 3136))) (ix3 (0 : Fin 1) g l) := rfl

/-- The whole output array as one function of the four input arrays: at `(b, g, l)` the payload of row `b` of the
    [256,64,3136] input, the matrix and the two columns whole. -/
def G1_4 (X : S256x64x3136.Idx → Elt F .f32) (A : S64x64.Idx → Elt F .f32) (MU : S64x1.Idx → Elt F .f32) (BE : S64x1.Idx → Elt F .f32) :
    S256x64x3136.Idx → Elt F .f32 :=
  fun i => k1_pay1 A MU BE (fun j => X (ix3 (i 0 : Fin 256) (j 1 : Fin 64) (j 2 : Fin 3136))) (ix3 (0 : Fin 1) (i 1 : Fin 64) (i 2 : Fin 3136))

theorem G1_4_apply (X : S256x64x3136.Idx → Elt F .f32) (A : S64x64.Idx → Elt F .f32) (MU : S64x1.Idx → Elt F .f32) (BE : S64x1.Idx → Elt F .f32)
    (b : Fin 256) (g : Fin 64) (l : Fin 3136) :
    G1_4 X A MU BE (ix3 b g l) = k1_pay1 A MU BE (fun j => X (ix3 b (j 1 : Fin 64) (j 2 : Fin 3136))) (ix3 (0 : Fin 1) g l) := rfl

/-- The printed index maps, decided over the grid: windows 0 and 4 are at block `t` of the leading axis, the three
    small windows at their one block. -/
theorem idx_facts1 : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-- Window 0's block at point `t` is rows `8t … 8t + 7` of its array. -/
theorem iblk1_0_apply (c : Dev nD) (t : Fin cfg1.N) (y : S8x64x3136.Idx) (k : S256x64x3136.Idx)
    (hk0 : (k 0).val = 8 * t.val + (y 0).val) (hk1 : (k 1).val = (y 1).val) (hk2 : (k 2).val = (y 2).val) :
    (iblk1 V c 0 t : Vec F S8x64x3136 .f32) y = (V c (Pipeline.arrRef spec1 0) : S256x64x3136.Idx → Elt F .f32) k := by
  obtain ⟨e0, e1, e2, -⟩ := idx_facts1 t
  unfold iblk1
  rw [View.read_apply]
  show (V c (Pipeline.arrRef spec1 0) : S256x64x3136.Idx → Elt F .f32) _ = _
  refine congrArg _ (funext fun a => Fin.ext ?_)
  match a with
  | ⟨0, _⟩ => show win1_0.index t (0 : Fin 3) * 8 + 1 * (y 0).val = (k 0).val; rw [e0, hk0]; omega
  | ⟨1, _⟩ => show win1_0.index t (1 : Fin 3) * 64 + 1 * (y 1).val = (k 1).val; rw [e1, hk1]; omega
  | ⟨2, _⟩ => show win1_0.index t (2 : Fin 3) * 3136 + 1 * (y 2).val = (k 2).val; rw [e2, hk2]; omega

/-- Windows 1, 2, 3 have one block: their arrays whole, at every point. -/
theorem iblk1_1_eq (c : Dev nD) (t : Fin cfg1.N) :
    (iblk1 V c 1 t : Vec F S64x64 .f32) = (V c (Pipeline.arrRef spec1 1) : S64x64.Idx → Elt F .f32) := by
  obtain ⟨-, -, -, e0, e1, -⟩ := idx_facts1 t
  funext y
  unfold iblk1
  rw [View.read_apply]
  show (V c (Pipeline.arrRef spec1 1) : S64x64.Idx → Elt F .f32) _ = _
  refine congrArg _ (funext fun a => Fin.ext ?_)
  match a with
  | ⟨0, _⟩ => show win1_1.index t (0 : Fin 2) * 64 + 1 * (y 0).val = (y 0).val; rw [e0]; omega
  | ⟨1, _⟩ => show win1_1.index t (1 : Fin 2) * 64 + 1 * (y 1).val = (y 1).val; rw [e1]; omega

theorem iblk1_2_eq (c : Dev nD) (t : Fin cfg1.N) :
    (iblk1 V c 2 t : Vec F S64x1 .f32) = (V c (Pipeline.arrRef spec1 2) : S64x1.Idx → Elt F .f32) := by
  obtain ⟨-, -, -, -, -, e0, e1, -⟩ := idx_facts1 t
  funext y
  unfold iblk1
  rw [View.read_apply]
  show (V c (Pipeline.arrRef spec1 2) : S64x1.Idx → Elt F .f32) _ = _
  refine congrArg _ (funext fun a => Fin.ext ?_)
  match a with
  | ⟨0, _⟩ => show win1_2.index t (0 : Fin 2) * 64 + 1 * (y 0).val = (y 0).val; rw [e0]; omega
  | ⟨1, _⟩ => show win1_2.index t (1 : Fin 2) * 1 + 1 * (y 1).val = (y 1).val; rw [e1]; omega

theorem iblk1_3_eq (c : Dev nD) (t : Fin cfg1.N) :
    (iblk1 V c 3 t : Vec F S64x1 .f32) = (V c (Pipeline.arrRef spec1 3) : S64x1.Idx → Elt F .f32) := by
  obtain ⟨-, -, -, -, -, -, -, e0, e1, -⟩ := idx_facts1 t
  funext y
  unfold iblk1
  rw [View.read_apply]
  show (V c (Pipeline.arrRef spec1 3) : S64x1.Idx → Elt F .f32) _ = _
  refine congrArg _ (funext fun a => Fin.ext ?_)
  match a with
  | ⟨0, _⟩ => show win1_3.index t (0 : Fin 2) * 64 + 1 * (y 0).val = (y 0).val; rw [e0]; omega
  | ⟨1, _⟩ => show win1_3.index t (1 : Fin 2) * 1 + 1 * (y 1).val = (y 1).val; rw [e1]; omega

/-- The whole output array, of the four input arrays as the region finds them. -/
abbrev arr1_4 (c : Dev nD) : S256x64x3136.Idx → Elt F .f32 :=
  G1_4 (V c (Pipeline.arrRef spec1 0)) (V c (Pipeline.arrRef spec1 1)) (V c (Pipeline.arrRef spec1 2)) (V c (Pipeline.arrRef spec1 3))

/-- WHAT POINT `t` WRITES BACK is block `t` of `arr1_4`: rows `8t … 8t + 7`. -/
theorem flushed1_4 (c : Dev nD) (t : Fin cfg1.N) :
    (dat1 V c).flushed 4 t = ((cfg1.win 4).blk t).view.read (Elt F) (arr1_4 V c) := by
  obtain ⟨-, -, -, -, -, -, -, -, -, e0, e1, e2⟩ := idx_facts1 t
  show (cfg1.win 4).cut (grid1.coords t) ((dat1 V c).after 4 t) = _
  rw [after1_4]
  funext y
  rw [View.read_apply]
  show out1_4 (iblk1 V c 0 t) (iblk1 V c 1 t) (iblk1 V c 2 t) (iblk1 V c 3 t) y = arr1_4 V c (((cfg1.win 4).blk t).view.emb y)
  rw [iblk1_1_eq, iblk1_2_eq, iblk1_3_eq]
  -- where the block's index `y` sits in the array
  have h0 : ((((cfg1.win 4).blk t).view.emb y) 0).val = 8 * t.val + (y 0).val := by
    show win1_4.index t (0 : Fin 3) * 8 + 1 * (y 0).val = _; rw [e0]; omega
  have h1 : ((((cfg1.win 4).blk t).view.emb y) 1).val = (y 1).val := by
    show win1_4.index t (1 : Fin 3) * 64 + 1 * (y 1).val = _; rw [e1]; omega
  have h2 : ((((cfg1.win 4).blk t).view.emb y) 2).val = (y 2).val := by
    show win1_4.index t (2 : Fin 3) * 3136 + 1 * (y 2).val = _; rw [e2]; omega
  generalize ((cfg1.win 4).blk t).view.emb y = E at h0 h1 h2 ⊢
  have hrow : (fun j : S1x64x3136.Idx => iblk1 V c 0 t (ix3 (y 0 : Fin 8) (j 1 : Fin 64) (j 2 : Fin 3136)))
      = fun j : S1x64x3136.Idx => (V c (Pipeline.arrRef spec1 0) : S256x64x3136.Idx → Elt F .f32) (ix3 (E 0 : Fin 256) (j 1 : Fin 64) (j 2 : Fin 3136)) :=
    funext fun j => iblk1_0_apply V c t _ _ h0 rfl rfl
  have q1 : (y 1 : Fin 64) = (E 1 : Fin 64) := Fin.ext h1.symm
  have q2 : (y 2 : Fin 3136) = (E 2 : Fin 3136) := Fin.ext h2.symm
  have hidx : ix3 (0 : Fin 1) (y 1 : Fin 64) (y 2 : Fin 3136) = ix3 (0 : Fin 1) (E 1 : Fin 64) (E 2 : Fin 3136) :=
    congrArg₂ (fun (p : Fin 64) (q : Fin 3136) => ix3 (0 : Fin 1) p q) q1 q2
  exact congr (congrArg (k1_pay1 _ _ _) hrow) hidx

/-- An index of the output array is in point `t`'s block iff each coordinate is in the block's range on its axis. -/
theorem mem_blk1_4 (t : Fin cfg1.N) (i : S256x64x3136.Idx) :
    i ∈ ((cfg1.win 4).blk t).view.set ↔ ∀ a : Fin 3, win1_4.index t a * S8x64x3136.size a ≤ (i a).val ∧ (i a).val < win1_4.index t a * S8x64x3136.size a + S8x64x3136.size a := by
  show i ∈ ((View.whole main_v113).slice (win1_4.rect t)).set ↔ _
  rw [View.set_slice_whole, Rect.mem_set_unit]
  exact Iff.rfl

/-- THE OUTPUT ARRAY AFTER THE RUN: every point writes back its block of `arr1_4`, and the 32 blocks of eight rows
    cover the 256 rows (index `(b, g, l)` is in block `b / 8`). -/
theorem arrAt1_4 (c : Dev nD) : (dat1 V c).arrAt 4 cfg1.N = arr1_4 V c :=
  (dat1 V c).arrAt_eq_of_cover 4 (arr1_4 V c) (fun t _ => flushed1_4 V c t) fun i => by
    have hi0 : (i 0).val < 256 := (i 0).isLt
    have hi1 : (i 1).val < 64 := (i 1).isLt
    have hi2 : (i 2).val < 3136 := (i 2).isLt
    have hN : cfg1.N = 32 := N_1
    obtain ⟨t, ht⟩ : ∃ t : Fin cfg1.N, t.val = (i 0).val / 8 := ⟨⟨(i 0).val / 8, by rw [hN]; omega⟩, rfl⟩
    obtain ⟨-, -, -, -, -, -, -, -, -, e0, e1, e2⟩ := idx_facts1 t
    refine ⟨t, flush1_4 t, (mem_blk1_4 t i).mpr fun a => ?_⟩
    match a with
    | ⟨0, _⟩ =>
      show win1_4.index t (0 : Fin 3) * 8 ≤ (i 0).val ∧ (i 0).val < win1_4.index t (0 : Fin 3) * 8 + 8
      rw [e0, ht]; omega
    | ⟨1, _⟩ =>
      show win1_4.index t (1 : Fin 3) * 64 ≤ (i 1).val ∧ (i 1).val < win1_4.index t (1 : Fin 3) * 64 + 64
      rw [e1]; omega
    | ⟨2, _⟩ =>
      show win1_4.index t (2 : Fin 3) * 3136 ≤ (i 2).val ∧ (i 2).val < win1_4.index t (2 : Fin 3) * 3136 + 3136
      rw [e2]; omega

end Cert.KernelIdeal.Hand

end
-- ==== Proof.KI.Run.lean ====
/-
  The run of the kernel program's @main, at any float model: seven segments in order — the reshape of the input, the
  statistics launch, three stretches of host arithmetic (the moments and the regularized covariance; its Frobenius
  norm; a matrix iteration on the normalized covariance and the product with the weight), the affine launch, the
  reshape of the result. Stated here: the TensorCore's buffer contents at each of the eight boundaries as a fold from the launch
  memory (a stretch rewrites what its operations write, a launch leaves its arrays at what its write-backs fold to and
  every other buffer alone), the two launches as regions over the thread state "every unscoped buffer at the
  boundary's contents, the generator register at some state, nothing owed", the whole run — every weakly fair
  execution terminates and ends with every unscoped buffer at the last boundary's contents —, that the three
  arguments end as launched (no host operation writes one; a launch reads the bias through an input window and
  bypasses the other two), and what the result buffer holds in terms of the second launch's output array.
-/
import proofs.«165382_j37855841747396_2_alg».proof.Proof.KI.Stats
import proofs.«165382_j37855841747396_2_alg».proof.Proof.KI.Affine
import proofs.«165382_j37855841747396_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each of the eight boundaries: a fold through @main -/

/-- Core `c`'s buffers at launch. -/
abbrev W0 : Dev nD → Valuation τ sig (Elt F) := fun c b => (s₀ m ρ).mem ((c : Dev nD), b)
/-- After the reshape of the input (the statistics launch's entry). -/
abbrev W1 : Dev nD → Valuation τ sig (Elt F) := fun c => StableHlo.after hostOps0 (W0 m ρ c)
/-- The same read at the TensorCore's references (what the statistics launch's proof data take). -/
abbrev V1 : (c : Dev nD) → (b : Ref sig .tc) → Buf (Elt F) ((c : Thread nD τ).loc b) := fun c b => W1 m ρ c b
/-- At the statistics launch's exit: the input array as entered, the two partial-sum arrays at what the write-backs
    fold to, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
/-- At the statistics launch's exit each of its arrays holds what the pipeline leaves and every other buffer what it
    held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the moments and the regularized covariance. -/
abbrev W3 : Dev nD → Valuation τ sig (Elt F) := fun c => StableHlo.after hostOps1 (W2 m ρ c)
/-- After the covariance's Frobenius norm. -/
abbrev W4 : Dev nD → Valuation τ sig (Elt F) := fun c => StableHlo.after hostOps1_1 (W3 m ρ c)
/-- After the iteration and the product with the weight (the affine launch's entry). -/
abbrev W5 : Dev nD → Valuation τ sig (Elt F) := fun c => StableHlo.after hostOps1_2 (W4 m ρ c)
/-- The same read at the TensorCore's references (what the affine launch's proof data take). -/
abbrev V5 : (c : Dev nD) → (b : Ref sig .tc) → Buf (Elt F) ((c : Thread nD τ).loc b) := fun c b => W5 m ρ c b
/-- At the affine launch's exit: its four input arrays as entered, the output array at what the write-backs fold to,
    every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references. -/
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the reshape of the result (the return). -/
abbrev W7 : Dev nD → Valuation τ sig (Elt F) := fun c => StableHlo.after hostOps2 (W6 m ρ c)

/-- The affine launch's entry contents spelt as the three host stretches over the statistics launch's exit. -/
theorem V5_eq (c : Dev nD) (b : Ref sig .tc) :
    V5 m ρ c b = StableHlo.after hostOps1_2 (StableHlo.after hostOps1_1 (StableHlo.after hostOps1 (W2 m ρ c))) (Proc.devRef .tc b) := rfl

/-! ## No host operation writes an argument -/

/-- A line of operations none of which writes one of the three argument buffers. -/
def KeepsArgs (ops : List (HloOp τ sig (Elt F))) : Prop :=
  ops.Forall fun op => Proc.devRef (τ := τ) .tc main_arg0 ∉ op.writes ∧ Proc.devRef (τ := τ) .tc main_arg1 ∉ op.writes
    ∧ Proc.devRef (τ := τ) .tc main_arg2 ∉ op.writes

theorem KeepsArgs.arg0 {ops : List (HloOp τ sig (Elt F))} (h : KeepsArgs ops) (V : Valuation τ sig (Elt F)) :
    StableHlo.after ops V (Proc.devRef .tc main_arg0) = V (Proc.devRef .tc main_arg0) :=
  StableHlo.after_of_forall_not_mem _ _ fun op hop => ((List.forall_iff_forall_mem.mp h) op hop).1
theorem KeepsArgs.arg1 {ops : List (HloOp τ sig (Elt F))} (h : KeepsArgs ops) (V : Valuation τ sig (Elt F)) :
    StableHlo.after ops V (Proc.devRef .tc main_arg1) = V (Proc.devRef .tc main_arg1) :=
  StableHlo.after_of_forall_not_mem _ _ fun op hop => ((List.forall_iff_forall_mem.mp h) op hop).2.1
theorem KeepsArgs.arg2 {ops : List (HloOp τ sig (Elt F))} (h : KeepsArgs ops) (V : Valuation τ sig (Elt F)) :
    StableHlo.after ops V (Proc.devRef .tc main_arg2) = V (Proc.devRef .tc main_arg2) :=
  StableHlo.after_of_forall_not_mem _ _ fun op hop => ((List.forall_iff_forall_mem.mp h) op hop).2.2

theorem hostOps0_keeps : KeepsArgs (hostOps0 : List (HloOp τ sig (Elt F))) := by
  unfold KeepsArgs
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_keeps : KeepsArgs (hostOps1 : List (HloOp τ sig (Elt F))) := by
  unfold KeepsArgs
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_keeps : KeepsArgs (hostOps1_1 : List (HloOp τ sig (Elt F))) := by
  unfold KeepsArgs
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 4000000 in
theorem hostOps1_2_keeps : KeepsArgs (hostOps1_2 : List (HloOp τ sig (Elt F))) := by
  unfold KeepsArgs
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps2_keeps : KeepsArgs (hostOps2 : List (HloOp τ sig (Elt F))) := by
  unfold KeepsArgs
  simp only [hostOps2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-! ## The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := hostOps2_keeps.arg0 _
    _ = W5 m ρ c (Proc.devRef .tc main_arg0) := W6_of_ne m ρ c main_arg0 (by decide)
    _ = W4 m ρ c (Proc.devRef .tc main_arg0) := hostOps1_2_keeps.arg0 _
    _ = W3 m ρ c (Proc.devRef .tc main_arg0) := hostOps1_1_keeps.arg0 _
    _ = W2 m ρ c (Proc.devRef .tc main_arg0) := hostOps1_keeps.arg0 _
    _ = W1 m ρ c (Proc.devRef .tc main_arg0) := W2_of_ne m ρ c main_arg0 (by decide)
    _ = W0 m ρ c (Proc.devRef .tc main_arg0) := hostOps0_keeps.arg0 _
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := hostOps2_keeps.arg1 _
    _ = W5 m ρ c (Proc.devRef .tc main_arg1) := W6_of_ne m ρ c main_arg1 (by decide)
    _ = W4 m ρ c (Proc.devRef .tc main_arg1) := hostOps1_2_keeps.arg1 _
    _ = W3 m ρ c (Proc.devRef .tc main_arg1) := hostOps1_1_keeps.arg1 _
    _ = W2 m ρ c (Proc.devRef .tc main_arg1) := hostOps1_keeps.arg1 _
    _ = W1 m ρ c (Proc.devRef .tc main_arg1) := W2_of_ne m ρ c main_arg1 (by decide)
    _ = W0 m ρ c (Proc.devRef .tc main_arg1) := hostOps0_keeps.arg1 _
    _ = m ((c : Thread nD τ).loc main_arg1) := rfl

/-- The bias is the affine launch's window 3, an input: the launch leaves it as entered. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := hostOps2_keeps.arg2 _
    _ = W5 m ρ c (Proc.devRef .tc main_arg2) := (W6_arr m ρ c 3).trans (((dat1 (V5 m ρ) c).arrAt_in 3 rfl _).trans (A_eq1 (V5 m ρ) c 3))
    _ = W4 m ρ c (Proc.devRef .tc main_arg2) := hostOps1_2_keeps.arg2 _
    _ = W3 m ρ c (Proc.devRef .tc main_arg2) := hostOps1_1_keeps.arg2 _
    _ = W2 m ρ c (Proc.devRef .tc main_arg2) := hostOps1_keeps.arg2 _
    _ = W1 m ρ c (Proc.devRef .tc main_arg2) := W2_of_ne m ρ c main_arg2 (by decide)
    _ = W0 m ρ c (Proc.devRef .tc main_arg2) := hostOps0_keeps.arg2 _
    _ = m ((c : Thread nD τ).loc main_arg2) := rfl

/-! ## The result buffer -/

/-- The result is the reshape of the affine launch's output array as the launch leaves it. -/
theorem W7_result (c : Dev nD) :
    W7 m ρ c (Proc.devRef .tc main_v114)
      = fun i => (rfl : main_v113.ty.elt = main_v114.ty.elt) ▸ shapeCast main_v114.ty.shape (W6 m ρ c (Proc.devRef .tc main_v113)) shapeCasts_S256x64x3136_S64x256x56x56 i := by
  show StableHlo.after hostOps2 (W6 m ρ c) (Proc.devRef .tc main_v114) = _
  after_results
theorem W6_main_v113 (c : Dev nD) : W6 m ρ c (Proc.devRef .tc main_v113) = (dat1 (V5 m ρ) c).arrAt 4 cfg1.N :=
  W6_arr m ρ c 4

/-! ## The proof data family and the thread state -/

/-- The prefetched tables' admissible contents: no pipeline has a table. -/
abbrev adm : (p : Fin 2) → (pcfgs (F := F) p).Adm := fun p => (cfgs p).toPCfg_adm
/-- Both pipelines' proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of a stretch allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 4000000 in
theorem hostOps1_2_fresh : (hostOps1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The launches as segments -/

set_option backward.isDefEq.respectTransparency.types false in
/-- The statistics launch over the thread state: entered from every unscoped buffer at `W1`, left at `W2`. Its arrays
    split out of the unscoped buffers and put back at the exit contents; the generator register into the invariant
    and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The affine launch over the thread state: entered from every unscoped buffer at `W5`, left at `W6`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)) ]
set_option maxHeartbeats 4000000 in
/-- @main is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and in every final state each unscoped buffer of each core holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c)
            ∗ ((∃ r, prngReg c r) ∗ ∃ W, owes (c : Thread nD τ) (0 : CellTallies nD τ sig Unit) W))
        ⊢ iprop((StableHlo.held (c : Thread nD τ) (Pipeline.ucRefs τ sig) (W7 m ρ c) ∗ ∃ r, prngReg c r)
            ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: @main runs to its end, nothing faulting, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r hr c =>
    ⟨(hr c _ (mem_uc main_arg0 (by decide))).trans (W7_main_arg0 m ρ c),
     (hr c _ (mem_uc main_arg1 (by decide))).trans (W7_main_arg1 m ρ c),
     (hr c _ (mem_uc main_arg2 (by decide))).trans (W7_main_arg2 m ρ c)⟩) (run_main m ρ)

end Cert.KernelIdeal.Hand

end
-- ==== Proof.RI.Defs.lean ====
/- The reference's mathematics as functions of its three arguments, each operation spelt as the program prints it:
   the input regrouped by channel group to 64 rows, the rows' means, the centred rows, their covariance with the
   ridge 1e-5 · I, the whitening matrix (the covariance scaled by its Frobenius norm, ten Newton–Schulz steps
   from the identity, the result divided by the root of the norm, times the weight), and the output: the
   whitening matrix applied to the centred rows plus the bias, regrouped back to the input's layout. -/
import proofs.«165382_j37855841747396_2_alg».proof.Proof.Gen.ReferenceIdeal

noncomputable section

namespace Cert.ReferenceIdeal.Hand

open Idealize.ShloMosaic
open Cert.ReferenceIdeal Cert.ReferenceIdeal.Gen

variable {F : FTy → Type} [FloatOps F]

/-! ## The whitening tail -/

/-- The identity matrix, as the program builds it: row index (plus a zero) compared with column index, converted to a float. -/
def eyeM : FVec F S64x64 .f32 :=
  uitofp .f32 (cmpi .eq (addi (iotaInDim S64x64 32 0) (broadcastInDim S64x64 ![] bcast_S_S64x64 (constantI S_ 32 0#32))) (iotaInDim S64x64 32 1))

/-- A scalar spread over the 64×64 matrix. -/
def bcastM (x : FVec F S_ .f32) : FVec F S64x64 .f32 := broadcastInDim S64x64 ![] bcast_S_S64x64 x

/-- The 64×64 matrix product. -/
def dotM (l r : FVec F S64x64 .f32) : FVec F S64x64 .f32 :=
  Host.dotGeneral dot_S64x64_S64x64_S64x64_1_0_0_1_n_n none l r

/-- The Frobenius norm: the entries squared, summed over both axes from zero, the square root. -/
def frob (c : FVec F S64x64 .f32) : FVec F S_ .f32 :=
  Host.sqrt (Host.reduceAdd (mulf c c) (constant S_ .f32 0x00000000#32) reducesTo_S64x64_S_d0_1 h_S_)

/-- One Newton–Schulz step: T = 0.5·(3·I − Z·Y); the pair (Y·T, T·Z). -/
def nsStep (Y Z : FVec F S64x64 .f32) : FVec F S64x64 .f32 × FVec F S64x64 .f32 :=
  (dotM Y (mulf (bcastM (constant S_ .f32 0x3F000000#32)) (subf (mulf (bcastM (constant S_ .f32 0x40400000#32)) eyeM) (dotM Z Y))),
   dotM (mulf (bcastM (constant S_ .f32 0x3F000000#32)) (subf (mulf (bcastM (constant S_ .f32 0x40400000#32)) eyeM) (dotM Z Y))) Z)

/-- Ten Newton–Schulz steps from (Y₀, I). -/
def nsTen (Y0 : FVec F S64x64 .f32) : FVec F S64x64 .f32 × FVec F S64x64 .f32 :=
  let p1 := nsStep Y0 eyeM
  let p2 := nsStep p1.1 p1.2
  let p3 := nsStep p2.1 p2.2
  let p4 := nsStep p3.1 p3.2
  let p5 := nsStep p4.1 p4.2
  let p6 := nsStep p5.1 p5.2
  let p7 := nsStep p6.1 p6.2
  let p8 := nsStep p7.1 p7.2
  let p9 := nsStep p8.1 p8.2
  nsStep p9.1 p9.2

/-- The whitened weights: w · (Z₁₀ / sqrt(norm)), with Y₀ = cov / norm and Z₀ = I. -/
def whiten (cov w : FVec F S64x64 .f32) : FVec F S64x64 .f32 :=
  dotM w (Host.divf (nsTen (Host.divf cov (bcastM (frob cov)))).2 (bcastM (Host.sqrt (frob cov))))

/-! ## The statistics and the output -/

/-- The input [64, 256, 56, 56] as 64 rows of 802816: the 256 channels are 4 groups of 64, the group index moves
    in front, and everything else is one row (reshape, transpose (2, 0, 1, 3, 4), reshape). -/
def regroup (x : FVec F S64x256x56x56 .f32) : FVec F S64x802816 .f32 :=
  shapeCast S64x802816
    (transpose S64x64x4x56x56 [2, 0, 1, 3, 4]
      (shapeCast S64x4x64x56x56 x shapeCasts_S64x256x56x56_S64x4x64x56x56)
      transposes_S64x4x64x56x56_S64x64x4x56x56_2_0_1_3_4)
    shapeCasts_S64x64x4x56x56_S64x802816

/-- The inverse regrouping: 64 rows of 802816 back to [64, 256, 56, 56] (reshape, transpose (1, 2, 0, 3, 4), reshape). -/
def regroupBack (y : FVec F S64x802816 .f32) : FVec F S64x256x56x56 .f32 :=
  shapeCast S64x256x56x56
    (transpose S64x4x64x56x56 [1, 2, 0, 3, 4]
      (shapeCast S64x64x4x56x56 y shapeCasts_S64x802816_S64x64x4x56x56)
      transposes_S64x64x4x56x56_S64x4x64x56x56_1_2_0_3_4)
    shapeCasts_S64x4x64x56x56_S64x256x56x56

/-- Each row's mean, as a column: the row's sum over its 802816 entries divided by 802816. -/
def meanR (x : FVec F S64x256x56x56 .f32) : FVec F S64x1 .f32 :=
  Host.divf
    (broadcastInDim S64x1 ![0] bcast_S64_S64x1_0
      (Host.reduceAdd (regroup x) (constant S_ .f32 0x00000000#32) reducesTo_S64x802816_S64_d1 h_S_))
    (broadcastInDim S64x1 ![] bcast_S_S64x1 (constant S_ .f32 0x49440000#32))

/-- The rows with their means subtracted. -/
def centered (x : FVec F S64x256x56x56 .f32) : FVec F S64x802816 .f32 :=
  subf (regroup x) (broadcastInDim S64x802816 ![0, 1] bcast_S64x1_S64x802816_0_1 (meanR x))

/-- The covariance of the rows: the centred rows times their transpose over 802816, plus 1e-5 on the diagonal. -/
def covR (x : FVec F S64x256x56x56 .f32) : FVec F S64x64 .f32 :=
  addf
    (Host.divf
      (Host.dotGeneral dot_S64x802816_S802816x64_S64x64_1_0_0_1_n_n none (centered x)
        (transpose S802816x64 [1, 0] (centered x) transposes_S64x802816_S802816x64_1_0))
      (broadcastInDim S64x64 ![] bcast_S_S64x64 (constant S_ .f32 0x49440000#32)))
    (mulf (broadcastInDim S64x64 ![] bcast_S_S64x64 (constant S_ .f32 0x3727C5AC#32)) eyeM)

/-- The reference's output: the whitening matrix of the covariance applied to the centred rows, the bias added to
    each row, regrouped back to the input's layout. -/
def outR (x : FVec F S64x256x56x56 .f32) (w : FVec F S64x64 .f32) (b : FVec F S64x1 .f32) : FVec F S64x256x56x56 .f32 :=
  regroupBack
    (addf
      (Host.dotGeneral dot_S64x64_S64x802816_S64x802816_1_0_0_1_n_n none (whiten (covR x) w) (centered x))
      (broadcastInDim S64x802816 ![0, 1] bcast_S64x1_S64x802816_0_1 b))

end Cert.ReferenceIdeal.Hand

end
-- ==== Proof.RI.Run.lean ====
/- The run of the reference program, read back: @main is a straight line of 150 host operations (the outlined
   Frobenius norm's four among them, over the buffers of its one call). The line is cut into seventeen pieces: the
   regrouping, mean, centring and covariance (27 operations), the norm (4), the scaled covariance and the identity
   matrix (9), ten Newton–Schulz steps of ten operations each (the third and the ninth cut where a window of @main
   ends), the division by the root of the norm and the product with the weight (4), the affine map back to the input's
   layout (6). Each window of @main is the chain of its pieces, so @main is the whole line, and every weakly fair
   execution terminates with each buffer at the fold of the operations over the launch contents. -/
import proofs.«165382_j37855841747396_2_alg».proof.Proof.Gen.ReferenceIdeal
import proofs.«165382_j37855841747396_2_alg».proof.Proof.RI.Defs
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operations, piece by piece -/

/-- The input regrouped by channel group, its row means, the centred rows, and their covariance with the ridge
    1e-5 · I added: the first 27 operations. -/
abbrev opsA : List (HloOp τ sig (Elt F)) :=
  [ reshape main_arg0 main_v0 rfl shapeCasts_S64x256x56x56_S64x4x64x56x56,
    unary main_v0 main_v1 (transpose S64x64x4x56x56 [2, 0, 1, 3, 4] · transposes_S64x4x64x56x56_S64x64x4x56x56_2_0_1_3_4),
    reshape main_v1 main_v2 rfl shapeCasts_S64x64x4x56x56_S64x802816,
    nullary main_cst (constant S_ .f32 0x00000000#32),
    binary main_v2 main_cst main_v3 (fun x v => Host.reduceAdd x v reducesTo_S64x802816_S64_d1 h_S_),
    unary main_v3 main_v4 (broadcastInDim S64x1 ![0] bcast_S64_S64x1_0),
    nullary main_cst_0 (constant S_ .f32 0x49440000#32),
    unary main_cst_0 main_v5 (broadcastInDim S64x1 ![] bcast_S_S64x1),
    binary main_v4 main_v5 main_v6 Host.divf,
    unary main_v6 main_v7 (broadcastInDim S64x802816 ![0, 1] bcast_S64x1_S64x802816_0_1),
    binary main_v2 main_v7 main_v8 subf,
    unary main_v8 main_v9 (transpose S802816x64 [1, 0] · transposes_S64x802816_S802816x64_1_0),
    binary main_v8 main_v9 main_v10 (fun l r => Host.dotGeneral dot_S64x802816_S802816x64_S64x64_1_0_0_1_n_n none l r),
    nullary main_cst_1 (constant S_ .f32 0x49440000#32),
    unary main_cst_1 main_v11 (broadcastInDim S64x64 ![] bcast_S_S64x64),
    binary main_v10 main_v11 main_v12 Host.divf,
    nullary main_v13 (iotaInDim S64x64 32 0),
    nullary main_v14 (iotaInDim S64x64 32 1),
    nullary main_c (constantI S_ 32 0#32),
    unary main_c main_v15 (broadcastInDim S64x64 ![] bcast_S_S64x64),
    binary main_v13 main_v15 main_v16 addi,
    binary main_v16 main_v14 main_v17 (cmpi .eq),
    unary main_v17 main_v18 (uitofp .f32),
    nullary main_cst_2 (constant S_ .f32 0x3727C5AC#32),
    unary main_cst_2 main_v19 (broadcastInDim S64x64 ![] bcast_S_S64x64),
    binary main_v19 main_v18 main_v20 mulf,
    binary main_v12 main_v20 main_v21 addf ]

/-- The Frobenius norm of the covariance: the outlined function's four operations over its call's buffers. -/
abbrev opsN : List (HloOp τ sig (Elt F)) :=
  [ TRef.binary (.of main_v21 : TRef sig ⟨S64x64, .f32⟩) (.of main_v21 : TRef sig ⟨S64x64, .f32⟩) main_call0.v0 mulf,
    TRef.nullary main_call0.cst (constant S_ .f32 0x00000000#32),
    TRef.binary main_call0.v0 main_call0.cst main_call0.v1 (fun x v => Host.reduceAdd x v reducesTo_S64x64_S_d0_1 h_S_),
    TRef.unary main_call0.v1 main_call0.v2 Host.sqrt ]

/-- The covariance divided by its norm, and the identity matrix rebuilt from the two iotas. -/
abbrev opsP : List (HloOp τ sig (Elt F)) :=
  [ unary main_v22 main_v23 (broadcastInDim S64x64 ![] bcast_S_S64x64),
    binary main_v21 main_v23 main_v24 Host.divf,
    nullary main_v25 (iotaInDim S64x64 32 0),
    nullary main_v26 (iotaInDim S64x64 32 1),
    nullary main_c_3 (constantI S_ 32 0#32),
    unary main_c_3 main_v27 (broadcastInDim S64x64 ![] bcast_S_S64x64),
    binary main_v25 main_v27 main_v28 addi,
    binary main_v28 main_v26 main_v29 (cmpi .eq),
    unary main_v29 main_v30 (uitofp .f32) ]

/-- Newton–Schulz step 1, from Y = main_v24 and Z = the identity main_v30: T = 0.5 · (3 · I − Z · Y) at main_v36,
    then Y · T at main_v37 and T · Z at main_v38. -/
abbrev S1 : List (HloOp τ sig (Elt F)) :=
  [ nullary main_cst_4 (constant S_ .f32 0x40400000#32),
    unary main_cst_4 main_v31 (broadcastInDim S64x64 ![] bcast_S_S64x64),
    binary main_v31 main_v30 main_v32 mulf,
    binary main_v30 main_v24 main_v33 (fun l r => Host.dotGeneral dot_S64x64_S64x64_S64x64_1_0_0_1_n_n none l r),
    binary main_v32 main_v33 main_v34 subf,
    nullary main_cst_5 (constant S_ .f32 0x3F000000#32),
    unary main_cst_5 main_v35 (broadcastInDim S64x64 ![] bcast_S_S64x64),
    binary main_v35 main_v34 main_v36 mulf,
    binary main_v24 main_v36 main_v37 (fun l r => Host.dotGeneral dot_S64x64_S64x64_S64x64_1_0_0_1_n_n none l r),
    binary main_v36 main_v30 main_v38 (fun l r => Host.dotGeneral dot_S64x64_S64x64_S64x64_1_0_0_1_n_n none l r) ]

/-- Step 2, from Y = main_v37, Z = main_v38: T at main_v44, Y · T at main_v45, T · Z at main_v46. -/
abbrev S2 : List (HloOp τ sig (Elt F)) :=
  [ nullary main_cst_6 (constant S_ .f32 0x40400000#32),
    unary main_cst_6 main_v39 (broadcastInDim S64x64 ![] bcast_S_S64x64),
    binary main_v39 main_v30 main_v40 mulf,
    binary main_v38 main_v37 main_v41 (fun l r => Host.dotGeneral dot_S64x64_S64x64_S64x64_1_0_0_1_n_n none l r),
    binary main_v40 main_v41 main_v42 subf,
    nullary main_cst_7 (constant S_ .f32 0x3F000000#32),
    unary main_cst_7 main_v43 (broadcastInDim S64x64 ![] bcast_S_S64x64),
    binary main_v43 main_v42 main_v44 mulf,
    binary main_v37 main_v44 main_v45 (fun l r => Host.dotGeneral dot_S64x64_S64x64_S64x64_1_0_0_1_n_n none l r),
    binary main_v44 main_v38 main_v46 (fun l r => Host.dotGeneral dot_S64x64_S64x64_S64x64_1_0_0_1_n_n none l r) ]

/-- Step 3, from Y = main_v45, Z = main_v46, first part (3 · I at main_v48): the first window of @main ends here. -/
abbrev S3a : List (HloOp τ sig (Elt F)) :=
  [ nullary main_cst_8 (constant S_ .f32 0x40400000#32),
    unary main_cst_8 main_v47 (broadcastInDim S64x64 ![] bcast_S_S64x64),
    binary main_v47 main_v30 main_v48 mulf ]

/-- Step 3, the rest: T at main_v52, Y · T at main_v53, T · Z at main_v54. -/
abbrev S3b : List (HloOp τ sig (Elt F)) :=
  [ binary main_v46 main_v45 main_v49 (fun l r => Host.dotGeneral dot_S64x64_S64x64_S64x64_1_0_0_1_n_n none l r),
    binary main_v48 main_v49 main_v50 subf,
    nullary main_cst_9 (constant S_ .f32 0x3F000000#32),
    unary main_cst_9 main_v51 (broadcastInDim S64x64 ![] bcast_S_S64x64),
    binary main_v51 main_v50 main_v52 mulf,
    binary main_v45 main_v52 main_v53 (fun l r => Host.dotGeneral dot_S64x64_S64x64_S64x64_1_0_0_1_n_n none l r),
    binary main_v52 main_v46 main_v54 (fun l r => Host.dotGeneral dot_S64x64_S64x64_S64x64_1_0_0_1_n_n none l r) ]

/-- Step 4, from Y = main_v53, Z = main_v54: T at main_v60, Y · T at main_v61, T · Z at main_v62. -/
abbrev S4 : List (HloOp τ sig (Elt F)) :=
  [ nullary main_cst_10 (constant S_ .f32 0x40400000#32),
    unary main_cst_10 main_v55 (broadcastInDim S64x64 ![] bcast_S_S64x64),
    binary main_v55 main_v30 main_v56 mulf,
    binary main_v54 main_v53 main_v57 (fun l r => Host.dotGeneral dot_S64x64_S64x64_S64x64_1_0_0_1_n_n none l r),
    binary main_v56 main_v57 main_v58 subf,
    nullary main_cst_11 (constant S_ .f32 0x3F000000#32),
    unary main_cst_11 main_v59 (broadcastInDim S64x64 ![] bcast_S_S64x64),
    binary main_v59 main_v58 main_v60 mulf,
    binary main_v53 main_v60 main_v61 (fun l r => Host.dotGeneral dot_S64x64_S64x64_S64x64_1_0_0_1_n_n none l r),
    binary main_v60 main_v54 main_v62 (fun l r => Host.dotGeneral dot_S64x64_S64x64_S64x64_1_0_0_1_n_n none l r) ]

/-- Step 5, from Y = main_v61, Z = main_v62: T at main_v68, Y · T at main_v69, T · Z at main_v70. -/
abbrev S5 : List (HloOp τ sig (Elt F)) :=
  [ nullary main_cst_12 (constant S_ .f32 0x40400000#32),
    unary main_cst_12 main_v63 (broadcastInDim S64x64 ![] bcast_S_S64x64),
    binary main_v63 main_v30 main_v64 mulf,
    binary main_v62 main_v61 main_v65 (fun l r => Host.dotGeneral dot_S64x64_S64x64_S64x64_1_0_0_1_n_n none l r),
    binary main_v64 main_v65 main_v66 subf,
    nullary main_cst_13 (constant S_ .f32 0x3F000000#32),
    unary main_cst_13 main_v67 (broadcastInDim S64x64 ![] bcast_S_S64x64),
    binary main_v67 main_v66 main_v68 mulf,
    binary main_v61 main_v68 main_v69 (fun l r => Host.dotGeneral dot_S64x64_S64x64_S64x64_1_0_0_1_n_n none l r),
    binary main_v68 main_v62 main_v70 (fun l r => Host.dotGeneral dot_S64x64_S64x64_S64x64_1_0_0_1_n_n none l r) ]

/-- Step 6, from Y = main_v69, Z = main_v70: T at main_v76, Y · T at main_v77, T · Z at main_v78. -/
abbrev S6 : List (HloOp τ sig (Elt F)) :=
  [ nullary main_cst_14 (constant S_ .f32 0x40400000#32),
    unary main_cst_14 main_v71 (broadcastInDim S64x64 ![] bcast_S_S64x64),
    binary main_v71 main_v30 main_v72 mulf,
    binary main_v70 main_v69 main_v73 (fun l r => Host.dotGeneral dot_S64x64_S64x64_S64x64_1_0_0_1_n_n none l r),
    binary main_v72 main_v73 main_v74 subf,
    nullary main_cst_15 (constant S_ .f32 0x3F000000#32),
    unary main_cst_15 main_v75 (broadcastInDim S64x64 ![] bcast_S_S64x64),
    binary main_v75 main_v74 main_v76 mulf,
    binary main_v69 main_v76 main_v77 (fun l r => Host.dotGeneral dot_S64x64_S64x64_S64x64_1_0_0_1_n_n none l r),
    binary main_v76 main_v70 main_v78 (fun l r => Host.dotGeneral dot_S64x64_S64x64_S64x64_1_0_0_1_n_n none l r) ]

/-- Step 7, from Y = main_v77, Z = main_v78: T at main_v84, Y · T at main_v85, T · Z at main_v86. -/
abbrev S7 : List (HloOp τ sig (Elt F)) :=
  [ nullary main_cst_16 (constant S_ .f32 0x40400000#32),
    unary main_cst_16 main_v79 (broadcastInDim S64x64 ![] bcast_S_S64x64),
    binary main_v79 main_v30 main_v80 mulf,
    binary main_v78 main_v77 main_v81 (fun l r => Host.dotGeneral dot_S64x64_S64x64_S64x64_1_0_0_1_n_n none l r),
    binary main_v80 main_v81 main_v82 subf,
    nullary main_cst_17 (constant S_ .f32 0x3F000000#32),
    unary main_cst_17 main_v83 (broadcastInDim S64x64 ![] bcast_S_S64x64),
    binary main_v83 main_v82 main_v84 mulf,
    binary main_v77 main_v84 main_v85 (fun l r => Host.dotGeneral dot_S64x64_S64x64_S64x64_1_0_0_1_n_n none l r),
    binary main_v84 main_v78 main_v86 (fun l r => Host.dotGeneral dot_S64x64_S64x64_S64x64_1_0_0_1_n_n none l r) ]

/-- Step 8, from Y = main_v85, Z = main_v86: T at main_v92, Y · T at main_v93, T · Z at main_v94. -/
abbrev S8 : List (HloOp τ sig (Elt F)) :=
  [ nullary main_cst_18 (constant S_ .f32 0x40400000#32),
    unary main_cst_18 main_v87 (broadcastInDim S64x64 ![] bcast_S_S64x64),
    binary main_v87 main_v30 main_v88 mulf,
    binary main_v86 main_v85 main_v89 (fun l r => Host.dotGeneral dot_S64x64_S64x64_S64x64_1_0_0_1_n_n none l r),
    binary main_v88 main_v89 main_v90 subf,
    nullary main_cst_19 (constant S_ .f32 0x3F000000#32),
    unary main_cst_19 main_v91 (broadcastInDim S64x64 ![] bcast_S_S64x64),
    binary main_v91 main_v90 main_v92 mulf,
    binary main_v85 main_v92 main_v93 (fun l r => Host.dotGeneral dot_S64x64_S64x64_S64x64_1_0_0_1_n_n none l r),
    binary main_v92 main_v86 main_v94 (fun l r => Host.dotGeneral dot_S64x64_S64x64_S64x64_1_0_0_1_n_n none l r) ]

/-- Step 9, from Y = main_v93, Z = main_v94, first part (3 · I at main_v96): the second window of @main ends here. -/
abbrev S9a : List (HloOp τ sig (Elt F)) :=
  [ nullary main_cst_20 (constant S_ .f32 0x40400000#32),
    unary main_cst_20 main_v95 (broadcastInDim S64x64 ![] bcast_S_S64x64),
    binary main_v95 main_v30 main_v96 mulf ]

/-- Step 9, the rest: T at main_v100, Y · T at main_v101, T · Z at main_v102. -/
abbrev S9b : List (HloOp τ sig (Elt F)) :=
  [ binary main_v94 main_v93 main_v97 (fun l r => Host.dotGeneral dot_S64x64_S64x64_S64x64_1_0_0_1_n_n none l r),
    binary main_v96 main_v97 main_v98 subf,
    nullary main_cst_21 (constant S_ .f32 0x3F000000#32),
    unary main_cst_21 main_v99 (broadcastInDim S64x64 ![] bcast_S_S64x64),
    binary main_v99 main_v98 main_v100 mulf,
    binary main_v93 main_v100 main_v101 (fun l r => Host.dotGeneral dot_S64x64_S64x64_S64x64_1_0_0_1_n_n none l r),
    binary main_v100 main_v94 main_v102 (fun l r => Host.dotGeneral dot_S64x64_S64x64_S64x64_1_0_0_1_n_n none l r) ]

/-- Step 10, from Y = main_v101, Z = main_v102: T at main_v108, Y · T at main_v109, T · Z at main_v110. -/
abbrev S10 : List (HloOp τ sig (Elt F)) :=
  [ nullary main_cst_22 (constant S_ .f32 0x40400000#32),
    unary main_cst_22 main_v103 (broadcastInDim S64x64 ![] bcast_S_S64x64),
    binary main_v103 main_v30 main_v104 mulf,
    binary main_v102 main_v101 main_v105 (fun l r => Host.dotGeneral dot_S64x64_S64x64_S64x64_1_0_0_1_n_n none l r),
    binary main_v104 main_v105 main_v106 subf,
    nullary main_cst_23 (constant S_ .f32 0x3F000000#32),
    unary main_cst_23 main_v107 (broadcastInDim S64x64 ![] bcast_S_S64x64),
    binary main_v107 main_v106 main_v108 mulf,
    binary main_v101 main_v108 main_v109 (fun l r => Host.dotGeneral dot_S64x64_S64x64_S64x64_1_0_0_1_n_n none l r),
    binary main_v108 main_v102 main_v110 (fun l r => Host.dotGeneral dot_S64x64_S64x64_S64x64_1_0_0_1_n_n none l r) ]

/-- The last Z divided by the root of the norm, and the weight times that. -/
abbrev opsQ : List (HloOp τ sig (Elt F)) :=
  [ unary main_v22 main_v111 Host.sqrt,
    unary main_v111 main_v112 (broadcastInDim S64x64 ![] bcast_S_S64x64),
    binary main_v110 main_v112 main_v113 Host.divf,
    binary main_arg1 main_v113 main_v114 (fun l r => Host.dotGeneral dot_S64x64_S64x64_S64x64_1_0_0_1_n_n none l r) ]

/-- The whitening matrix applied to the centred rows, the bias added, and the result regrouped to the input's layout. -/
abbrev opsR : List (HloOp τ sig (Elt F)) :=
  [ binary main_v114 main_v8 main_v115 (fun l r => Host.dotGeneral dot_S64x64_S64x802816_S64x802816_1_0_0_1_n_n none l r),
    unary main_arg2 main_v116 (broadcastInDim S64x802816 ![0, 1] bcast_S64x1_S64x802816_0_1),
    binary main_v115 main_v116 main_v117 addf,
    reshape main_v117 main_v118 rfl shapeCasts_S64x802816_S64x64x4x56x56,
    unary main_v118 main_v119 (transpose S64x4x64x56x56 [1, 2, 0, 3, 4] · transposes_S64x64x4x56x56_S64x4x64x56x56_1_2_0_3_4),
    reshape main_v119 main_v120 rfl shapeCasts_S64x4x64x56x56_S64x256x56x56 ]

/-- The seventeen pieces in order, and the whole line. -/
abbrev pieces : List (List (HloOp τ sig (Elt F))) :=
  [opsA, opsN, opsP, S1, S2, S3a, S3b, S4, S5, S6, S7, S8, S9a, S9b, S10, opsQ, opsR]

abbrev ops : List (HloOp τ sig (Elt F)) := (pieces (F := F)).flatten

/-! ## General facts about a line cut into pieces -/

section General

variable {nD' : Nat} {τ' : Topo} {sig' : RefSig} {Val : EltTy → Type} {Λ : Labels}

/-- The chain of the pieces' lines is the line of the pieces laid end to end. -/
theorem chain_map_seq : ∀ ls : List (List (HloOp τ' sig' Val)),
    Pipeline.chain (ls.map fun l => (seq l : Prog (TpuEff nD' τ' sig' Val Λ .tc) PUnit)) = seq ls.flatten
  | [] => rfl
  | l :: ls => by rw [List.map_cons, Pipeline.chain_cons, List.flatten_cons, seq_append, chain_map_seq ls]

/-- The fold over two lines laid end to end is the second's fold after the first's. -/
theorem after_app : ∀ (l₁ l₂ : List (HloOp τ' sig' Val)) (V : Valuation τ' sig' Val),
    after (l₁ ++ l₂) V = after l₂ (after l₁ V)
  | [], _, _ => rfl
  | op :: l₁, l₂, V => by rw [List.cons_append, after_cons, after_cons, after_app l₁ l₂]

/-- The fold over the pieces laid end to end is the pieces' folds one after the other. -/
theorem after_flatten : ∀ (ls : List (List (HloOp τ' sig' Val))) (V : Valuation τ' sig' Val),
    after ls.flatten V = ls.foldl (fun W l => after l W) V
  | [], _ => rfl
  | l :: ls, V => by rw [List.flatten_cons, after_app, after_flatten ls, List.foldl_cons]

/-- What holds of every operation of every piece holds of every operation of the whole line. -/
theorem forall_flatten {α : Type} {p : α → Prop} (ls : List (List α)) (h : ls.Forall fun l => l.Forall p) :
    ls.flatten.Forall p := by
  rw [List.forall_iff_forall_mem] at h ⊢
  intro x hx
  obtain ⟨l, hl, hxl⟩ := List.mem_flatten.mp hx
  exact List.forall_iff_forall_mem.mp (h l hl) x hxl

end General

/-! ## The pieces touch TensorCore references only, and each operation determines its results -/

theorem opsA_sub : (opsA : List (HloOp τ sig (Elt F))).Forall fun op => op.bufs ⊆ tcRefs τ sig :=
  ⟨reshape_bufs_sub .., unary_bufs_sub .., reshape_bufs_sub .., nullary_bufs_sub .., binary_bufs_sub .., unary_bufs_sub ..,
    nullary_bufs_sub .., unary_bufs_sub .., binary_bufs_sub .., unary_bufs_sub .., binary_bufs_sub .., unary_bufs_sub ..,
    binary_bufs_sub .., nullary_bufs_sub .., unary_bufs_sub .., binary_bufs_sub .., nullary_bufs_sub .., nullary_bufs_sub ..,
    nullary_bufs_sub .., unary_bufs_sub .., binary_bufs_sub .., binary_bufs_sub .., unary_bufs_sub .., nullary_bufs_sub ..,
    unary_bufs_sub .., binary_bufs_sub .., binary_bufs_sub ..⟩
theorem opsN_sub : (opsN : List (HloOp τ sig (Elt F))).Forall fun op => op.bufs ⊆ tcRefs τ sig :=
  ⟨binary_bufs_sub .., nullary_bufs_sub .., binary_bufs_sub .., unary_bufs_sub ..⟩
theorem opsP_sub : (opsP : List (HloOp τ sig (Elt F))).Forall fun op => op.bufs ⊆ tcRefs τ sig :=
  ⟨unary_bufs_sub .., binary_bufs_sub .., nullary_bufs_sub .., nullary_bufs_sub .., nullary_bufs_sub .., unary_bufs_sub ..,
    binary_bufs_sub .., binary_bufs_sub .., unary_bufs_sub ..⟩
theorem S1_sub : (S1 : List (HloOp τ sig (Elt F))).Forall fun op => op.bufs ⊆ tcRefs τ sig :=
  ⟨nullary_bufs_sub .., unary_bufs_sub .., binary_bufs_sub .., binary_bufs_sub .., binary_bufs_sub .., nullary_bufs_sub ..,
    unary_bufs_sub .., binary_bufs_sub .., binary_bufs_sub .., binary_bufs_sub ..⟩
theorem S2_sub : (S2 : List (HloOp τ sig (Elt F))).Forall fun op => op.bufs ⊆ tcRefs τ sig :=
  ⟨nullary_bufs_sub .., unary_bufs_sub .., binary_bufs_sub .., binary_bufs_sub .., binary_bufs_sub .., nullary_bufs_sub ..,
    unary_bufs_sub .., binary_bufs_sub .., binary_bufs_sub .., binary_bufs_sub ..⟩
theorem S3a_sub : (S3a : List (HloOp τ sig (Elt F))).Forall fun op => op.bufs ⊆ tcRefs τ sig :=
  ⟨nullary_bufs_sub .., unary_bufs_sub .., binary_bufs_sub ..⟩
theorem S3b_sub : (S3b : List (HloOp τ sig (Elt F))).Forall fun op => op.bufs ⊆ tcRefs τ sig :=
  ⟨binary_bufs_sub .., binary_bufs_sub .., nullary_bufs_sub .., unary_bufs_sub .., binary_bufs_sub .., binary_bufs_sub ..,
    binary_bufs_sub ..⟩
theorem S4_sub : (S4 : List (HloOp τ sig (Elt F))).Forall fun op => op.bufs ⊆ tcRefs τ sig :=
  ⟨nullary_bufs_sub .., unary_bufs_sub .., binary_bufs_sub .., binary_bufs_sub .., binary_bufs_sub .., nullary_bufs_sub ..,
    unary_bufs_sub .., binary_bufs_sub .., binary_bufs_sub .., binary_bufs_sub ..⟩
theorem S5_sub : (S5 : List (HloOp τ sig (Elt F))).Forall fun op => op.bufs ⊆ tcRefs τ sig :=
  ⟨nullary_bufs_sub .., unary_bufs_sub .., binary_bufs_sub .., binary_bufs_sub .., binary_bufs_sub .., nullary_bufs_sub ..,
    unary_bufs_sub .., binary_bufs_sub .., binary_bufs_sub .., binary_bufs_sub ..⟩
theorem S6_sub : (S6 : List (HloOp τ sig (Elt F))).Forall fun op => op.bufs ⊆ tcRefs τ sig :=
  ⟨nullary_bufs_sub .., unary_bufs_sub .., binary_bufs_sub .., binary_bufs_sub .., binary_bufs_sub .., nullary_bufs_sub ..,
    unary_bufs_sub .., binary_bufs_sub .., binary_bufs_sub .., binary_bufs_sub ..⟩
theorem S7_sub : (S7 : List (HloOp τ sig (Elt F))).Forall fun op => op.bufs ⊆ tcRefs τ sig :=
  ⟨nullary_bufs_sub .., unary_bufs_sub .., binary_bufs_sub .., binary_bufs_sub .., binary_bufs_sub .., nullary_bufs_sub ..,
    unary_bufs_sub .., binary_bufs_sub .., binary_bufs_sub .., binary_bufs_sub ..⟩
theorem S8_sub : (S8 : List (HloOp τ sig (Elt F))).Forall fun op => op.bufs ⊆ tcRefs τ sig :=
  ⟨nullary_bufs_sub .., unary_bufs_sub .., binary_bufs_sub .., binary_bufs_sub .., binary_bufs_sub .., nullary_bufs_sub ..,
    unary_bufs_sub .., binary_bufs_sub .., binary_bufs_sub .., binary_bufs_sub ..⟩
theorem S9a_sub : (S9a : List (HloOp τ sig (Elt F))).Forall fun op => op.bufs ⊆ tcRefs τ sig :=
  ⟨nullary_bufs_sub .., unary_bufs_sub .., binary_bufs_sub ..⟩
theorem S9b_sub : (S9b : List (HloOp τ sig (Elt F))).Forall fun op => op.bufs ⊆ tcRefs τ sig :=
  ⟨binary_bufs_sub .., binary_bufs_sub .., nullary_bufs_sub .., unary_bufs_sub .., binary_bufs_sub .., binary_bufs_sub ..,
    binary_bufs_sub ..⟩
theorem S10_sub : (S10 : List (HloOp τ sig (Elt F))).Forall fun op => op.bufs ⊆ tcRefs τ sig :=
  ⟨nullary_bufs_sub .., unary_bufs_sub .., binary_bufs_sub .., binary_bufs_sub .., binary_bufs_sub .., nullary_bufs_sub ..,
    unary_bufs_sub .., binary_bufs_sub .., binary_bufs_sub .., binary_bufs_sub ..⟩
theorem opsQ_sub : (opsQ : List (HloOp τ sig (Elt F))).Forall fun op => op.bufs ⊆ tcRefs τ sig :=
  ⟨unary_bufs_sub .., unary_bufs_sub .., binary_bufs_sub .., binary_bufs_sub ..⟩
theorem opsR_sub : (opsR : List (HloOp τ sig (Elt F))).Forall fun op => op.bufs ⊆ tcRefs τ sig :=
  ⟨binary_bufs_sub .., unary_bufs_sub .., binary_bufs_sub .., reshape_bufs_sub .., unary_bufs_sub .., reshape_bufs_sub ..⟩

theorem ops_sub : (ops : List (HloOp τ sig (Elt F))).Forall fun op => op.bufs ⊆ tcRefs τ sig :=
  forall_flatten pieces ⟨opsA_sub, opsN_sub, opsP_sub, S1_sub, S2_sub, S3a_sub, S3b_sub, S4_sub, S5_sub, S6_sub, S7_sub, S8_sub,
    S9a_sub, S9b_sub, S10_sub, opsQ_sub, opsR_sub⟩

/-- No operation of the line leaves a result undetermined (none is a buffer allocation): by computation, piece by piece. -/
theorem ops_fresh : ∀ op ∈ (ops : List (HloOp τ sig (Elt F))), op.fresh = ∅ :=
  List.forall_iff_forall_mem.mp <| forall_flatten (p := fun op : HloOp τ sig (Elt F) => op.fresh = ∅) pieces
    ⟨⟨rfl, rfl, rfl, rfl, rfl, rfl, rfl, rfl, rfl, rfl, rfl, rfl, rfl, rfl, rfl, rfl, rfl, rfl, rfl, rfl, rfl, rfl, rfl, rfl, rfl, rfl, rfl⟩,
     ⟨rfl, rfl, rfl, rfl⟩, ⟨rfl, rfl, rfl, rfl, rfl, rfl, rfl, rfl, rfl⟩,
     ⟨rfl, rfl, rfl, rfl, rfl, rfl, rfl, rfl, rfl, rfl⟩, ⟨rfl, rfl, rfl, rfl, rfl, rfl, rfl, rfl, rfl, rfl⟩,
     ⟨rfl, rfl, rfl⟩, ⟨rfl, rfl, rfl, rfl, rfl, rfl, rfl⟩,
     ⟨rfl, rfl, rfl, rfl, rfl, rfl, rfl, rfl, rfl, rfl⟩, ⟨rfl, rfl, rfl, rfl, rfl, rfl, rfl, rfl, rfl, rfl⟩,
     ⟨rfl, rfl, rfl, rfl, rfl, rfl, rfl, rfl, rfl, rfl⟩, ⟨rfl, rfl, rfl, rfl, rfl, rfl, rfl, rfl, rfl, rfl⟩,
     ⟨rfl, rfl, rfl, rfl, rfl, rfl, rfl, rfl, rfl, rfl⟩,
     ⟨rfl, rfl, rfl⟩, ⟨rfl, rfl, rfl, rfl, rfl, rfl, rfl⟩,
     ⟨rfl, rfl, rfl, rfl, rfl, rfl, rfl, rfl, rfl, rfl⟩, ⟨rfl, rfl, rfl, rfl⟩, ⟨rfl, rfl, rfl, rfl, rfl, rfl⟩⟩

/-! ## @main is the line -/

/-- The first window of @main (60 statements, the call among them) is the chain of its pieces, ending in the first
    three operations of step 3; the outlined function's body a piece of its own. -/
theorem main_part0_eq (c : Dev nD) : main_part0 (F := F) c = (Pipeline.chainK
    [ seq opsA, seq opsN, seq opsP, seq S1, seq S2 ] (seq S3a)
    : Prog (TpuEff nD τ sig (Elt F) (Pipeline.Sig Λ₀ (Fin 0) fun p => (pcfgs (F := F) p).Adm) .tc) PUnit) := by
  chain_rfl

/-- The second window: the rest of step 3, steps 4 to 8, the first three operations of step 9. -/
theorem main_part1_eq (c : Dev nD) : main_part1 (F := F) c = (Pipeline.chainK
    [ seq S3b, seq S4, seq S5, seq S6, seq S7, seq S8 ] (seq S9a)
    : Prog (TpuEff nD τ sig (Elt F) (Pipeline.Sig Λ₀ (Fin 0) fun p => (pcfgs (F := F) p).Adm) .tc) PUnit) := by
  chain_rfl

/-- The last window: the rest of step 9, step 10, and the last ten operations. -/
theorem main_part2_eq (c : Dev nD) : main_part2 (F := F) c = (Pipeline.chain
    [ seq S9b, seq S10, seq opsQ, seq opsR ]
    : Prog (TpuEff nD τ sig (Elt F) (Pipeline.Sig Λ₀ (Fin 0) fun p => (pcfgs (F := F) p).Adm) .tc) PUnit) := by
  chain_rfl

/-- @main is the whole line: its three windows one after the other, each the chain of its pieces. -/
theorem main_eq (c : Dev nD) : main (F := F) c = seq ops := by
  show (main_part0 (F := F) c >>= fun _ => main_part1 (F := F) c >>= fun _ => main_part2 (F := F) c) = _
  rw [main_part2_eq, main_part1_eq, Pipeline.chainK_bind_chain, main_part0_eq, Pipeline.chainK_bind_chain]
  exact chain_map_seq pieces

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates with each TensorCore buffer at the fold of the line over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## What each piece leaves alone

A piece writes only its own results, so the arguments, and the earlier results a later piece still reads (the centred
rows main_v8, the covariance main_v21, the norm main_v22, the identity main_v30), pass through it unchanged. -/

/-- The fold over the whole line is the pieces' folds, one after the other. -/
theorem after_ops (V : Valuation τ sig (Elt F)) :
    after ops V = after opsR (after opsQ (after S10 (after S9b (after S9a (after S8 (after S7 (after S6 (after S5 (after S4
      (after S3b (after S3a (after S2 (after S1 (after opsP (after opsN (after opsA V)))))))))))))))) :=
  after_flatten pieces V

theorem opsA_keep (V : Valuation τ sig (Elt F)) :
    after opsA V (main_arg0 : DevRef τ sig) = V (main_arg0 : DevRef τ sig)
    ∧ after opsA V (main_arg1 : DevRef τ sig) = V (main_arg1 : DevRef τ sig)
    ∧ after opsA V (main_arg2 : DevRef τ sig) = V (main_arg2 : DevRef τ sig) := by
  refine ⟨?_, ?_, ?_⟩ <;> after_results_simp

theorem opsN_keep (V : Valuation τ sig (Elt F)) :
    after opsN V (main_arg0 : DevRef τ sig) = V (main_arg0 : DevRef τ sig)
    ∧ after opsN V (main_arg1 : DevRef τ sig) = V (main_arg1 : DevRef τ sig)
    ∧ after opsN V (main_arg2 : DevRef τ sig) = V (main_arg2 : DevRef τ sig)
    ∧ after opsN V (main_v8 : DevRef τ sig) = V (main_v8 : DevRef τ sig)
    ∧ after opsN V (main_v21 : DevRef τ sig) = V (main_v21 : DevRef τ sig) := by
  refine ⟨?_, ?_, ?_, ?_, ?_⟩ <;> after_results_simp

theorem opsP_keep (V : Valuation τ sig (Elt F)) :
    after opsP V (main_arg0 : DevRef τ sig) = V (main_arg0 : DevRef τ sig)
    ∧ after opsP V (main_arg1 : DevRef τ sig) = V (main_arg1 : DevRef τ sig)
    ∧ after opsP V (main_arg2 : DevRef τ sig) = V (main_arg2 : DevRef τ sig)
    ∧ after opsP V (main_v8 : DevRef τ sig) = V (main_v8 : DevRef τ sig)
    ∧ after opsP V (main_v22 : DevRef τ sig) = V (main_v22 : DevRef τ sig) := by
  refine ⟨?_, ?_, ?_, ?_, ?_⟩ <;> after_results_simp

/-- What a piece of the Newton–Schulz iteration leaves alone: the arguments, the centred rows, the norm, the identity. -/
def KeepsNS (L : List (HloOp τ sig (Elt F))) (V : Valuation τ sig (Elt F)) : Prop :=
  after L V (main_arg0 : DevRef τ sig) = V (main_arg0 : DevRef τ sig)
  ∧ after L V (main_arg1 : DevRef τ sig) = V (main_arg1 : DevRef τ sig)
  ∧ after L V (main_arg2 : DevRef τ sig) = V (main_arg2 : DevRef τ sig)
  ∧ after L V (main_v8 : DevRef τ sig) = V (main_v8 : DevRef τ sig)
  ∧ after L V (main_v22 : DevRef τ sig) = V (main_v22 : DevRef τ sig)
  ∧ after L V (main_v30 : DevRef τ sig) = V (main_v30 : DevRef τ sig)

theorem S1_keep (V : Valuation τ sig (Elt F)) : KeepsNS S1 V := by
  unfold KeepsNS; refine ⟨?_, ?_, ?_, ?_, ?_, ?_⟩ <;> after_results_simp
theorem S2_keep (V : Valuation τ sig (Elt F)) : KeepsNS S2 V := by
  unfold KeepsNS; refine ⟨?_, ?_, ?_, ?_, ?_, ?_⟩ <;> after_results_simp
theorem S3a_keep (V : Valuation τ sig (Elt F)) : KeepsNS S3a V := by
  unfold KeepsNS; refine ⟨?_, ?_, ?_, ?_, ?_, ?_⟩ <;> after_results_simp
theorem S3b_keep (V : Valuation τ sig (Elt F)) : KeepsNS S3b V := by
  unfold KeepsNS; refine ⟨?_, ?_, ?_, ?_, ?_, ?_⟩ <;> after_results_simp
theorem S4_keep (V : Valuation τ sig (Elt F)) : KeepsNS S4 V := by
  unfold KeepsNS; refine ⟨?_, ?_, ?_, ?_, ?_, ?_⟩ <;> after_results_simp
theorem S5_keep (V : Valuation τ sig (Elt F)) : KeepsNS S5 V := by
  unfold KeepsNS; refine ⟨?_, ?_, ?_, ?_, ?_, ?_⟩ <;> after_results_simp
theorem S6_keep (V : Valuation τ sig (Elt F)) : KeepsNS S6 V := by
  unfold KeepsNS; refine ⟨?_, ?_, ?_, ?_, ?_, ?_⟩ <;> after_results_simp
theorem S7_keep (V : Valuation τ sig (Elt F)) : KeepsNS S7 V := by
  unfold KeepsNS; refine ⟨?_, ?_, ?_, ?_, ?_, ?_⟩ <;> after_results_simp
theorem S8_keep (V : Valuation τ sig (Elt F)) : KeepsNS S8 V := by
  unfold KeepsNS; refine ⟨?_, ?_, ?_, ?_, ?_, ?_⟩ <;> after_results_simp
theorem S9a_keep (V : Valuation τ sig (Elt F)) : KeepsNS S9a V := by
  unfold KeepsNS; refine ⟨?_, ?_, ?_, ?_, ?_, ?_⟩ <;> after_results_simp
theorem S9b_keep (V : Valuation τ sig (Elt F)) : KeepsNS S9b V := by
  unfold KeepsNS; refine ⟨?_, ?_, ?_, ?_, ?_, ?_⟩ <;> after_results_simp
theorem S10_keep (V : Valuation τ sig (Elt F)) : KeepsNS S10 V := by
  unfold KeepsNS; refine ⟨?_, ?_, ?_, ?_, ?_, ?_⟩ <;> after_results_simp

theorem opsQ_keep (V : Valuation τ sig (Elt F)) :
    after opsQ V (main_arg0 : DevRef τ sig) = V (main_arg0 : DevRef τ sig)
    ∧ after opsQ V (main_arg1 : DevRef τ sig) = V (main_arg1 : DevRef τ sig)
    ∧ after opsQ V (main_arg2 : DevRef τ sig) = V (main_arg2 : DevRef τ sig)
    ∧ after opsQ V (main_v8 : DevRef τ sig) = V (main_v8 : DevRef τ sig) := by
  refine ⟨?_, ?_, ?_, ?_⟩ <;> after_results_simp

theorem opsR_keep (V : Valuation τ sig (Elt F)) :
    after opsR V (main_arg0 : DevRef τ sig) = V (main_arg0 : DevRef τ sig)
    ∧ after opsR V (main_arg1 : DevRef τ sig) = V (main_arg1 : DevRef τ sig)
    ∧ after opsR V (main_arg2 : DevRef τ sig) = V (main_arg2 : DevRef τ sig) := by
  refine ⟨?_, ?_, ?_⟩ <;> after_results_simp

/-- The three arguments pass through the whole line unchanged. -/
theorem arg0_eq (V : Valuation τ sig (Elt F)) : after ops V (main_arg0 : DevRef τ sig) = V (main_arg0 : DevRef τ sig) := by
  rw [after_ops, (opsR_keep _).1, (opsQ_keep _).1, (S10_keep _).1, (S9b_keep _).1, (S9a_keep _).1, (S8_keep _).1, (S7_keep _).1,
    (S6_keep _).1, (S5_keep _).1, (S4_keep _).1, (S3b_keep _).1, (S3a_keep _).1, (S2_keep _).1, (S1_keep _).1, (opsP_keep _).1,
    (opsN_keep _).1, (opsA_keep _).1]
theorem arg1_eq (V : Valuation τ sig (Elt F)) : after ops V (main_arg1 : DevRef τ sig) = V (main_arg1 : DevRef τ sig) := by
  rw [after_ops, (opsR_keep _).2.1, (opsQ_keep _).2.1, (S10_keep _).2.1, (S9b_keep _).2.1, (S9a_keep _).2.1, (S8_keep _).2.1,
    (S7_keep _).2.1, (S6_keep _).2.1, (S5_keep _).2.1, (S4_keep _).2.1, (S3b_keep _).2.1, (S3a_keep _).2.1, (S2_keep _).2.1,
    (S1_keep _).2.1, (opsP_keep _).2.1, (opsN_keep _).2.1, (opsA_keep _).2.1]
theorem arg2_eq (V : Valuation τ sig (Elt F)) : after ops V (main_arg2 : DevRef τ sig) = V (main_arg2 : DevRef τ sig) := by
  rw [after_ops, (opsR_keep _).2.2, (opsQ_keep _).2.2.1, (S10_keep _).2.2.1, (S9b_keep _).2.2.1, (S9a_keep _).2.2.1, (S8_keep _).2.2.1,
    (S7_keep _).2.2.1, (S6_keep _).2.2.1, (S5_keep _).2.2.1, (S4_keep _).2.2.1, (S3b_keep _).2.2.1, (S3a_keep _).2.2.1, (S2_keep _).2.2.1,
    (S1_keep _).2.2.1, (opsP_keep _).2.2.1, (opsN_keep _).2.2.1, (opsA_keep _).2.2]

/-- Termination, and the arguments unchanged: from any memory with zero counters every weakly fair execution of @main
    terminates, and in every final state the three arguments hold what they held at launch. -/
theorem run_frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_arg0).trans (arg0_eq _), (h c main_arg1).trans (arg1_eq _),
      (h c main_arg2).trans (arg2_eq _)⟩)
    (run_after m ρ)

/-! ## What each piece computes -/

/-- The first 27 operations leave the covariance at main_v21 and the centred rows at main_v8. -/
theorem opsA_val (V : Valuation τ sig (Elt F)) :
    after opsA V (main_v21 : DevRef τ sig) = covR (V (main_arg0 : DevRef τ sig))
    ∧ after opsA V (main_v8 : DevRef τ sig) = centered (V (main_arg0 : DevRef τ sig)) := by
  refine ⟨?_, ?_⟩ <;> after_results_simp <;> rfl

/-- The outlined function leaves the Frobenius norm of main_v21 at main_v22. -/
theorem opsN_val (V : Valuation τ sig (Elt F)) :
    after opsN V (main_v22 : DevRef τ sig) = frob (V (main_v21 : DevRef τ sig)) := by
  after_results_simp <;> (try simp only [TRef.ofBuf, TRef.toBuf, cast_eq]) <;> rfl

/-- The next nine leave the scaled covariance at main_v24 and the identity at main_v30. -/
theorem opsP_val (V : Valuation τ sig (Elt F)) :
    after opsP V (main_v24 : DevRef τ sig) = Host.divf (V (main_v21 : DevRef τ sig)) (bcastM (V (main_v22 : DevRef τ sig)))
    ∧ after opsP V (main_v30 : DevRef τ sig) = eyeM := by
  refine ⟨?_, ?_⟩ <;> after_results_simp <;> rfl

/-- The four after the iteration leave the weight times (Z over the root of the norm) at main_v114. -/
theorem opsQ_val (V : Valuation τ sig (Elt F)) :
    after opsQ V (main_v114 : DevRef τ sig)
      = dotM (V (main_arg1 : DevRef τ sig))
          (Host.divf (V (main_v110 : DevRef τ sig)) (bcastM (Host.sqrt (V (main_v22 : DevRef τ sig))))) := by
  after_results_simp <;> rfl

/-- The last six leave main_v114 applied to the centred rows, plus the bias, regrouped back, at main_v120. -/
theorem opsR_val (V : Valuation τ sig (Elt F)) :
    after opsR V (main_v120 : DevRef τ sig)
      = regroupBack (addf
          (Host.dotGeneral dot_S64x64_S64x802816_S64x802816_1_0_0_1_n_n none (V (main_v114 : DevRef τ sig)) (V (main_v8 : DevRef τ sig)))
          (broadcastInDim S64x802816 ![0, 1] bcast_S64x1_S64x802816_0_1 (V (main_arg2 : DevRef τ sig)))) := by
  after_results_simp <;> rfl

/-! ## The Newton–Schulz iteration, step by step

Between two steps the buffers stand as follows: the current Y and Z are the components of a pair p, the identity is
still at main_v30, and the norm, the centred rows and the two small arguments are where the later operations will read
them. A step's ten operations take that to the same with the next pair: the step applied to p. -/

/-- The state between two steps, the current Y and Z given by their values. -/
def NS (W : Valuation τ sig (Elt F)) (Yv Zv : FVec F S64x64 .f32) (p : FVec F S64x64 .f32 × FVec F S64x64 .f32)
    (n : FVec F S_ .f32) (xc : FVec F S64x802816 .f32) (w : FVec F S64x64 .f32) (b : FVec F S64x1 .f32) : Prop :=
  Yv = p.1 ∧ Zv = p.2 ∧ W (main_v30 : DevRef τ sig) = eyeM ∧ W (main_v22 : DevRef τ sig) = n
  ∧ W (main_v8 : DevRef τ sig) = xc ∧ W (main_arg1 : DevRef τ sig) = w ∧ W (main_arg2 : DevRef τ sig) = b

/-- One step's proof: the two products are the step's components once the identity's buffer is read as the identity
    (the rest of the term is the step's, operation for operation), and the five buffers kept are not written. -/
macro "ns_step" : tactic =>
  `(tactic| (
    intro h
    obtain ⟨hY, hZ, h30, h22, h8, h1, h2⟩ := h
    refine ⟨?_, ?_, ?_, ?_, ?_, ?_, ?_⟩
    · rw [← hY, ← hZ]; after_results_simp; rw [h30]; rfl
    · rw [← hY, ← hZ]; after_results_simp; rw [h30]; rfl
    · after_results_simp; exact h30
    · after_results_simp; exact h22
    · after_results_simp; exact h8
    · after_results_simp; exact h1
    · after_results_simp; exact h2))

variable {W : Valuation τ sig (Elt F)} {p : FVec F S64x64 .f32 × FVec F S64x64 .f32}
  {n : FVec F S_ .f32} {xc : FVec F S64x802816 .f32} {w : FVec F S64x64 .f32} {b : FVec F S64x1 .f32}

theorem S1_step : NS W (W (main_v24 : DevRef τ sig)) (W (main_v30 : DevRef τ sig)) p n xc w b →
    NS (after S1 W) (after S1 W (main_v37 : DevRef τ sig)) (after S1 W (main_v38 : DevRef τ sig)) (nsStep p.1 p.2) n xc w b := by
  ns_step
theorem S2_step : NS W (W (main_v37 : DevRef τ sig)) (W (main_v38 : DevRef τ sig)) p n xc w b →
    NS (after S2 W) (after S2 W (main_v45 : DevRef τ sig)) (after S2 W (main_v46 : DevRef τ sig)) (nsStep p.1 p.2) n xc w b := by
  ns_step
theorem S3_step : NS W (W (main_v45 : DevRef τ sig)) (W (main_v46 : DevRef τ sig)) p n xc w b →
    NS (after S3b (after S3a W)) (after S3b (after S3a W) (main_v53 : DevRef τ sig)) (after S3b (after S3a W) (main_v54 : DevRef τ sig))
      (nsStep p.1 p.2) n xc w b := by
  ns_step
theorem S4_step : NS W (W (main_v53 : DevRef τ sig)) (W (main_v54 : DevRef τ sig)) p n xc w b →
    NS (after S4 W) (after S4 W (main_v61 : DevRef τ sig)) (after S4 W (main_v62 : DevRef τ sig)) (nsStep p.1 p.2) n xc w b := by
  ns_step
theorem S5_step : NS W (W (main_v61 : DevRef τ sig)) (W (main_v62 : DevRef τ sig)) p n xc w b →
    NS (after S5 W) (after S5 W (main_v69 : DevRef τ sig)) (after S5 W (main_v70 : DevRef τ sig)) (nsStep p.1 p.2) n xc w b := by
  ns_step
theorem S6_step : NS W (W (main_v69 : DevRef τ sig)) (W (main_v70 : DevRef τ sig)) p n xc w b →
    NS (after S6 W) (after S6 W (main_v77 : DevRef τ sig)) (after S6 W (main_v78 : DevRef τ sig)) (nsStep p.1 p.2) n xc w b := by
  ns_step
theorem S7_step : NS W (W (main_v77 : DevRef τ sig)) (W (main_v78 : DevRef τ sig)) p n xc w b →
    NS (after S7 W) (after S7 W (main_v85 : DevRef τ sig)) (after S7 W (main_v86 : DevRef τ sig)) (nsStep p.1 p.2) n xc w b := by
  ns_step
theorem S8_step : NS W (W (main_v85 : DevRef τ sig)) (W (main_v86 : DevRef τ sig)) p n xc w b →
    NS (after S8 W) (after S8 W (main_v93 : DevRef τ sig)) (after S8 W (main_v94 : DevRef τ sig)) (nsStep p.1 p.2) n xc w b := by
  ns_step
theorem S9_step : NS W (W (main_v93 : DevRef τ sig)) (W (main_v94 : DevRef τ sig)) p n xc w b →
    NS (after S9b (after S9a W)) (after S9b (after S9a W) (main_v101 : DevRef τ sig)) (after S9b (after S9a W) (main_v102 : DevRef τ sig))
      (nsStep p.1 p.2) n xc w b := by
  ns_step
theorem S10_step : NS W (W (main_v101 : DevRef τ sig)) (W (main_v102 : DevRef τ sig)) p n xc w b →
    NS (after S10 W) (after S10 W (main_v109 : DevRef τ sig)) (after S10 W (main_v110 : DevRef τ sig)) (nsStep p.1 p.2) n xc w b := by
  ns_step

/-- Ten pairs, each the step applied to the one before, the first to (Y₀, I): the last is the ten steps from Y₀. -/
theorem nsTen_eq (Y0 : FVec F S64x64 .f32) (p1 p2 p3 p4 p5 p6 p7 p8 p9 p10 : FVec F S64x64 .f32 × FVec F S64x64 .f32)
    (h1 : nsStep Y0 eyeM = p1) (h2 : nsStep p1.1 p1.2 = p2) (h3 : nsStep p2.1 p2.2 = p3) (h4 : nsStep p3.1 p3.2 = p4)
    (h5 : nsStep p4.1 p4.2 = p5) (h6 : nsStep p5.1 p5.2 = p6) (h7 : nsStep p6.1 p6.2 = p7) (h8 : nsStep p7.1 p7.2 = p8)
    (h9 : nsStep p8.1 p8.2 = p9) (h10 : nsStep p9.1 p9.2 = p10) : nsTen Y0 = p10 := by
  subst h1 h2 h3 h4 h5 h6 h7 h8 h9 h10
  rfl

/-! ## The result -/

/-- The fold of the whole line at the result buffer is the output function of the three arguments. -/
theorem out_eq (V : Valuation τ sig (Elt F)) :
    after ops V (main_v120 : DevRef τ sig)
      = outR (V (main_arg0 : DevRef τ sig)) (V (main_arg1 : DevRef τ sig)) (V (main_arg2 : DevRef τ sig)) := by
  rw [after_ops]
  -- the statistics
  obtain ⟨hA21, hA8⟩ := opsA_val V
  obtain ⟨-, hA1, hA2⟩ := opsA_keep V
  generalize after opsA V = W0 at hA21 hA8 hA1 hA2 ⊢
  -- the norm
  have hN22 := opsN_val W0
  obtain ⟨-, hN1, hN2, hN8, hN21⟩ := opsN_keep W0
  rw [hA21] at hN22 hN21
  rw [hA1] at hN1
  rw [hA2] at hN2
  rw [hA8] at hN8
  generalize after opsN W0 = W1 at hN22 hN1 hN2 hN8 hN21 ⊢
  -- the scaled covariance and the identity
  obtain ⟨hP24, hP30⟩ := opsP_val W1
  obtain ⟨-, hP1, hP2, hP8, hP22⟩ := opsP_keep W1
  rw [hN21, hN22] at hP24
  rw [hN1] at hP1
  rw [hN2] at hP2
  rw [hN8] at hP8
  rw [hN22] at hP22
  have s0 : NS (after opsP W1) (after opsP W1 (main_v24 : DevRef τ sig)) (after opsP W1 (main_v30 : DevRef τ sig))
      (Host.divf (covR (V (main_arg0 : DevRef τ sig))) (bcastM (frob (covR (V (main_arg0 : DevRef τ sig))))), eyeM)
      (frob (covR (V (main_arg0 : DevRef τ sig)))) (centered (V (main_arg0 : DevRef τ sig)))
      (V (main_arg1 : DevRef τ sig)) (V (main_arg2 : DevRef τ sig)) :=
    ⟨hP24, hP30, hP30, hP22, hP8, hP1, hP2⟩
  -- the ten steps, each pair named
  have s1 := S1_step s0
  generalize e1 : nsStep (F := F) _ _ = p1 at s1
  have s2 := S2_step s1
  generalize e2 : nsStep (F := F) _ _ = p2 at s2
  have s3 := S3_step s2
  generalize e3 : nsStep (F := F) _ _ = p3 at s3
  have s4 := S4_step s3
  generalize e4 : nsStep (F := F) _ _ = p4 at s4
  have s5 := S5_step s4
  generalize e5 : nsStep (F := F) _ _ = p5 at s5
  have s6 := S6_step s5
  generalize e6 : nsStep (F := F) _ _ = p6 at s6
  have s7 := S7_step s6
  generalize e7 : nsStep (F := F) _ _ = p7 at s7
  have s8 := S8_step s7
  generalize e8 : nsStep (F := F) _ _ = p8 at s8
  have s9 := S9_step s8
  generalize e9 : nsStep (F := F) _ _ = p9 at s9
  have s10 := S10_step s9
  generalize e10 : nsStep (F := F) _ _ = p10 at s10
  obtain ⟨-, hZ, -, h22, h8, h1, h2⟩ := s10
  -- the last ten operations
  rw [opsR_val, opsQ_val, (opsQ_keep _).2.2.2, (opsQ_keep _).2.2.1, hZ, h22, h8, h1, h2,
    ← nsTen_eq _ p1 p2 p3 p4 p5 p6 p7 p8 p9 p10 e1 e2 e3 e4 e5 e6 e7 e8 e9 e10]
  rfl

/-- On every device, for any float values, from any memory with zero counters: every weakly fair execution of @main
    terminates with the result buffer at the output function of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v120)
        = outR (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v120).trans (out_eq _), (h c main_arg0).trans (arg0_eq _),
      (h c main_arg1).trans (arg1_eq _), (h c main_arg2).trans (arg2_eq _)⟩)
    (run_after m ρ)

end Cert.ReferenceIdeal.Hand

end
-- ==== Proof.KI.Boundary.lean ====
/-
  What the boundary after the statistics launch holds at the buffers the host arithmetic and the affine launch read:
  the two partial-sum arrays at what the launch's write-backs fold to, the reshaped input as the launch found it (the
  launch only reads it), the weight and the bias as launched; and which buffer each window's array of either launch is.
-/
import proofs.«165382_j37855841747396_2_alg».proof.Proof.KI.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-! ## Which buffer each window's array is -/

/-- The statistics launch's arrays: the reshaped input, the column sums' array, the Gram sums' array. -/
theorem V1_arr0 : Pipeline.arrRef spec0 0 = main_v0 := rfl
theorem V1_arr1 : Pipeline.arrRef spec0 1 = main_v1_0 := rfl
theorem V1_arr2 : Pipeline.arrRef spec0 2 = main_v1_1 := rfl
/-- The affine launch's arrays: the reshaped input, the matrix, the column of means, the bias, the output. -/
theorem spec1_arr0 : Pipeline.arrRef spec1 0 = main_v0 := rfl
theorem spec1_arr1 : Pipeline.arrRef spec1 1 = main_v112 := rfl
theorem spec1_arr2 : Pipeline.arrRef spec1 2 = main_v5 := rfl
theorem spec1_arr3 : Pipeline.arrRef spec1 3 = main_arg2 := rfl
theorem spec1_arr4 : Pipeline.arrRef spec1 4 = main_v113 := rfl
/-- The affine launch's entry contents at its four input arrays, by the buffer's name. -/
theorem V5_arr0 (c : Dev nD) : V5 m ρ c (Pipeline.arrRef spec1 0) = V5 m ρ c main_v0 := rfl
theorem V5_arr1 (c : Dev nD) : V5 m ρ c (Pipeline.arrRef spec1 1) = V5 m ρ c main_v112 := rfl
theorem V5_arr2 (c : Dev nD) : V5 m ρ c (Pipeline.arrRef spec1 2) = V5 m ρ c main_v5 := rfl
theorem V5_arr3 (c : Dev nD) : V5 m ρ c (Pipeline.arrRef spec1 3) = V5 m ρ c main_arg2 := rfl

/-! ## The boundary after the statistics launch -/

/-- The column sums' array and the Gram sums' array at what the launch's write-backs fold to. -/
theorem W2_v1_0 (c : Dev nD) : W2 m ρ c (Proc.devRef .tc main_v1_0) = (dat0 (V1 m ρ) c).arrAt 1 cfg0.N :=
  W2_arr m ρ c 1
theorem W2_v1_1 (c : Dev nD) : W2 m ρ c (Proc.devRef .tc main_v1_1) = (dat0 (V1 m ρ) c).arrAt 2 cfg0.N :=
  W2_arr m ρ c 2

/-- The launch's input is the reshape of the first argument as launched. -/
theorem V1_v0 (c : Dev nD) :
    V1 m ρ c main_v0
      = fun i => (rfl : main_arg0.ty.elt = main_v0.ty.elt) ▸ shapeCast main_v0.ty.shape (m ((c : Thread nD τ).loc main_arg0)) shapeCasts_S64x256x56x56_S256x64x3136 i := by
  show StableHlo.after hostOps0 (W0 m ρ c) (Proc.devRef .tc main_v0) = _
  after_results
  <;> rfl
/-- The launch reads its input through an input window: it leaves it as entered. -/
theorem W2_v0 (c : Dev nD) : W2 m ρ c (Proc.devRef .tc main_v0) = V1 m ρ c main_v0 :=
  (W2_arr m ρ c 0).trans (((dat0 (V1 m ρ) c).arrAt_in 0 rfl _).trans (A_eq0 (V1 m ρ) c 0))

/-- The weight and the bias are as launched: the reshape does not write them and the launch bypasses them. -/
theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := hostOps0_keeps.arg1 _
    _ = m ((c : Thread nD τ).loc main_arg1) := rfl
theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := hostOps0_keeps.arg2 _
    _ = m ((c : Thread nD τ).loc main_arg2) := rfl

end Cert.KernelIdeal.Hand

end
-- ==== Proof.KI.HostDefs.lean ====
/-
  The host arithmetic between the two launches, as functions of the values it starts from: the mean column and the
  covariance matrix from the two partial sums the statistics launch leaves, and the whitening tail — the Frobenius norm,
  ten Newton–Schulz steps towards the inverse square root of the covariance, and the product with the weights. Each is the
  composed term of the program's operations, constants included.
-/
import proofs.«165382_j37855841747396_2_alg».proof.Proof.Gen.KernelIdeal

noncomputable section

namespace Cert.KernelIdeal.Hand

open Idealize.ShloMosaic
open Cert.KernelIdeal.Gen

variable {F : FTy → Type} [FloatOps F]

/-! ## The statistics: mean and covariance from the two partial sums -/

/-- The mean column: the two partial column sums added (a sum over axis 0 from zero), divided by the sample count 802816. -/
def meanOf (s1p : FVec F S2x64x1 .f32) : FVec F S64x1 .f32 :=
  Host.divf (Host.reduceAdd s1p (constant S_ .f32 0x00000000#32) reducesTo_S2x64x1_S64x1_d0 h_S_)
    (broadcastInDim S64x1 ![] bcast_S_S64x1 (constant S_ .f32 0x49440000#32))

/-- The identity matrix, as the program builds it: row index (plus a zero) compared with column index, converted to a float. -/
def eyeM : FVec F S64x64 .f32 :=
  uitofp .f32 (cmpi .eq (addi (iotaInDim S64x64 32 0) (broadcastInDim S64x64 ![] bcast_S_S64x64 (constantI S_ 32 0#32))) (iotaInDim S64x64 32 1))

/-- A scalar spread over the 64×64 matrix. -/
def bcastM (x : FVec F S_ .f32) : FVec F S64x64 .f32 := broadcastInDim S64x64 ![] bcast_S_S64x64 x

/-- The 64×64 matrix product. -/
def dotM (l r : FVec F S64x64 .f32) : FVec F S64x64 .f32 :=
  Host.dotGeneral dot_S64x64_S64x64_S64x64_1_0_0_1_n_n none l r

/-- The covariance: second moments over the count, minus mean·meanᵀ, plus 1e-5 on the diagonal. -/
def covOf (s1p : FVec F S2x64x1 .f32) (s2p : FVec F S2x64x64 .f32) : FVec F S64x64 .f32 :=
  addf
    (subf
      (Host.divf (Host.reduceAdd s2p (constant S_ .f32 0x00000000#32) reducesTo_S2x64x64_S64x64_d0 h_S_)
        (bcastM (constant S_ .f32 0x49440000#32)))
      (Host.dotGeneral dot_S64x1_S1x64_S64x64_1_0_0_1_n_n none (meanOf s1p)
        (transpose S1x64 [1, 0] (meanOf s1p) transposes_S64x1_S1x64_1_0)))
    (mulf (bcastM (constant S_ .f32 0x3727C5AC#32)) eyeM)

/-! ## The whitening tail -/

/-- The Frobenius norm: the entries squared, summed over both axes from zero, the square root. -/
def frob (c : FVec F S64x64 .f32) : FVec F S_ .f32 :=
  Host.sqrt (Host.reduceAdd (mulf c c) (constant S_ .f32 0x00000000#32) reducesTo_S64x64_S_d0_1 h_S_)

/-- One Newton–Schulz step: T = 0.5·(3·I − Z·Y); the pair (Y·T, T·Z). -/
def nsStep (Y Z : FVec F S64x64 .f32) : FVec F S64x64 .f32 × FVec F S64x64 .f32 :=
  (dotM Y (mulf (bcastM (constant S_ .f32 0x3F000000#32)) (subf (mulf (bcastM (constant S_ .f32 0x40400000#32)) eyeM) (dotM Z Y))),
   dotM (mulf (bcastM (constant S_ .f32 0x3F000000#32)) (subf (mulf (bcastM (constant S_ .f32 0x40400000#32)) eyeM) (dotM Z Y))) Z)

/-- Ten Newton–Schulz steps from (Y₀, I). -/
def nsTen (Y0 : FVec F S64x64 .f32) : FVec F S64x64 .f32 × FVec F S64x64 .f32 :=
  let p1 := nsStep Y0 eyeM
  let p2 := nsStep p1.1 p1.2
  let p3 := nsStep p2.1 p2.2
  let p4 := nsStep p3.1 p3.2
  let p5 := nsStep p4.1 p4.2
  let p6 := nsStep p5.1 p5.2
  let p7 := nsStep p6.1 p6.2
  let p8 := nsStep p7.1 p7.2
  let p9 := nsStep p8.1 p8.2
  nsStep p9.1 p9.2

/-- The whitened weights: w · (Z₁₀ / sqrt(norm)), with Y₀ = cov / norm and Z₀ = I. -/
def whiten (cov w : FVec F S64x64 .f32) : FVec F S64x64 .f32 :=
  dotM w (Host.divf (nsTen (Host.divf cov (bcastM (frob cov)))).2 (bcastM (Host.sqrt (frob cov))))

end Cert.KernelIdeal.Hand

end
-- ==== Proof.KI.HostMid.lean ====
/-
  The host stretch between the two launches, run: what the fold of its operations leaves at the mean (main_v5) and at
  the whitened weights (main_v112), as the functions of HostDefs.lean applied to what the first launch left, and that
  the stretch writes neither the reshaped input nor the bias.

  The stretch is 24 + 4 + 113 operations. The first two pieces are read off whole. The third is cut where the
  arithmetic cuts it: nine operations that normalise the covariance and build the identity, ten Newton–Schulz steps
  of ten operations each, and four closing operations; each piece is read off for an ARBITRARY valuation, and the pieces
  are chained through the pair (Y, Z) the iteration carries.
-/
import proofs.«165382_j37855841747396_2_alg».proof.Proof.KI.HostDefs
import proofs.«165382_j37855841747396_2_alg».proof.Proof.Gen.KernelIdeal.Launch
import Idealize.ShloMosaic.Lib.StableHlo.Run
import Idealize.ShloMosaic.Lib.Pipeline.Frame

set_option maxRecDepth 16384

noncomputable section

namespace Cert.KernelIdeal.Hand

open Idealize.ShloMosaic Idealize.ShloMosaic.TcCoe
open Cert.KernelIdeal.Gen

variable {F : FTy → Type} [FloatOps F]

/-- A TensorCore reference as the device buffer a valuation is read at. -/
local notation "⟪" r "⟫" => Proc.devRef (τ := τ) Proc.tc r

/-- The buffers after the whole stretch, from contents `W`. -/
abbrev mid (W : Valuation τ sig (Elt F)) : Valuation τ sig (Elt F) :=
  StableHlo.after hostOps1_2 (StableHlo.after hostOps1_1 (StableHlo.after hostOps1 W))

/-- No operation of a literal list writes a given reference: each operation's one result buffer is another reference. -/
macro "not_written" : tactic =>
  `(tactic| (refine List.forall_iff_forall_mem.mp ?_
             simp only [hostOps1, hostOps1_1, hostOps1_2, List.Forall, StableHlo.nullary_writes, StableHlo.unary_writes,
               StableHlo.binary_writes, Finset.mem_singleton]
             repeat' apply And.intro
             all_goals exact StableHlo.devRef_ne_of_ne (by decide)))

section Pieces

variable (X : Valuation τ sig (Elt F))

/-! ## The first 24 operations: the mean and the covariance -/

theorem ops1_v5 : StableHlo.after hostOps1 X ⟪main_v5⟫ = meanOf (X ⟪main_v1_0⟫) := by
  after_results; rfl

theorem ops1_v19 : StableHlo.after hostOps1 X ⟪main_v19⟫ = covOf (X ⟪main_v1_0⟫) (X ⟪main_v1_1⟫) := by
  after_results; rfl

theorem ops1_arg1 : StableHlo.after hostOps1 X ⟪main_arg1⟫ = X ⟪main_arg1⟫ := by
  after_results

/-! ## The inlined norm: four operations -/

theorem norm_v20 : StableHlo.after hostOps1_1 X ⟪main_v20⟫ = frob (X ⟪main_v19⟫) := by
  after_results <;> (try simp only [StableHlo.TRef.ofBuf, StableHlo.TRef.toBuf, cast_eq]) <;> rfl

theorem norm_v19 : StableHlo.after hostOps1_1 X ⟪main_v19⟫ = X ⟪main_v19⟫ := by
  after_results

theorem norm_arg1 : StableHlo.after hostOps1_1 X ⟪main_arg1⟫ = X ⟪main_arg1⟫ := by
  after_results

/-! ## The last 113 operations, cut into pieces -/

/-- `n` operations of the last piece from position `a` on. -/
abbrev seg (a n : Nat) : List (HloOp τ sig (Elt F)) := (hostOps1_2.drop a).take n

/-- A piece, computed to its literal operations. -/
macro "slice_norm" : tactic =>
  `(tactic| simp only [seg, hostOps1_2, List.drop_succ_cons, List.drop_zero, List.take_succ_cons, List.take_zero])

/-- The 113 operations are the normalisation, the ten steps and the close, in order. -/
theorem ops12_eq : (hostOps1_2 : List (HloOp τ sig (Elt F)))
    = seg 0 9 ++ (seg 9 10 ++ (seg 19 10 ++ (seg 29 10 ++ (seg 39 10 ++ (seg 49 10 ++ (seg 59 10 ++ (seg 69 10
        ++ (seg 79 10 ++ (seg 89 10 ++ (seg 99 10 ++ seg 109 4)))))))))) := rfl

theorem ops12_after : StableHlo.after hostOps1_2 X
    = StableHlo.after (seg 109 4) (StableHlo.after (seg 99 10) (StableHlo.after (seg 89 10) (StableHlo.after (seg 79 10)
        (StableHlo.after (seg 69 10) (StableHlo.after (seg 59 10) (StableHlo.after (seg 49 10) (StableHlo.after (seg 39 10)
          (StableHlo.after (seg 29 10) (StableHlo.after (seg 19 10) (StableHlo.after (seg 9 10) (StableHlo.after (seg 0 9) X))))))))))) :=
  (congrArg (fun l => StableHlo.after l X) ops12_eq).trans (by simp only [StableHlo.after_append])

/-- No operation of the last piece writes the norm, the weights, the mean, the reshaped input or the bias. -/
theorem ops12_not_v20 : ∀ op ∈ (hostOps1_2 : List (HloOp τ sig (Elt F))), ⟪main_v20⟫ ∉ op.writes := by not_written
theorem ops12_not_arg1 : ∀ op ∈ (hostOps1_2 : List (HloOp τ sig (Elt F))), ⟪main_arg1⟫ ∉ op.writes := by not_written

/-- A buffer the 113 operations do not write is kept by every piece of them. -/
theorem seg_keep {b : DevRef τ sig} (h : ∀ op ∈ (hostOps1_2 : List (HloOp τ sig (Elt F))), b ∉ op.writes) (a n : Nat)
    (X : Valuation τ sig (Elt F)) : StableHlo.after (seg a n) X b = X b :=
  StableHlo.after_of_forall_not_mem _ X fun op hop => h op (List.mem_of_mem_drop (List.mem_of_mem_take hop))

/-- The normalisation: Y₀ = cov / norm, and the identity. -/
theorem head_v22 : StableHlo.after (seg 0 9) X ⟪main_v22⟫ = Host.divf (X ⟪main_v19⟫) (bcastM (X ⟪main_v20⟫)) := by
  slice_norm; after_results; rfl
theorem head_v28 : StableHlo.after (seg 0 9) X ⟪main_v28⟫ = eyeM := by
  slice_norm; after_results; rfl

/-- The close: the weights times Z₁₀ over the square root of the norm. -/
theorem tail_v112 : StableHlo.after (seg 109 4) X ⟪main_v112⟫
    = dotM (X ⟪main_arg1⟫) (Host.divf (X ⟪main_v108⟫) (bcastM (Host.sqrt (X ⟪main_v20⟫)))) := by
  slice_norm; after_results; rfl

/-- The iteration's state as three buffers hold it: Y, Z (the pair `p`) and the identity. -/
structure NS (y z i : FVec F S64x64 .f32) (p : FVec F S64x64 .f32 × FVec F S64x64 .f32) : Prop where
  y_eq : y = p.1
  z_eq : z = p.2
  i_eq : i = eyeM

/-- One step's ten operations read off: the two products at the new pair, the identity kept. -/
macro "ns_step" : tactic =>
  `(tactic| (rintro ⟨hy, hz, hi⟩
             refine ⟨?_, ?_, ?_⟩
             · slice_norm; after_results_simp; rw [hy, hz, hi]; rfl
             · slice_norm; after_results_simp; rw [hy, hz, hi]; rfl
             · slice_norm; after_results_simp; exact hi))

/-- The first step starts from Z = I: the identity's buffer is read in both roles. -/
theorem ns0 (Y0 : FVec F S64x64 .f32) (hy : X ⟪main_v22⟫ = Y0) (hi : X ⟪main_v28⟫ = eyeM) :
    NS (StableHlo.after (seg 9 10) X ⟪main_v35⟫) (StableHlo.after (seg 9 10) X ⟪main_v36⟫) (StableHlo.after (seg 9 10) X ⟪main_v28⟫)
      (nsStep Y0 eyeM) := by
  refine ⟨?_, ?_, ?_⟩
  · slice_norm; after_results_simp; rw [hy, hi]; rfl
  · slice_norm; after_results_simp; rw [hy, hi]; rfl
  · slice_norm; after_results_simp; exact hi

theorem ns1 (p : FVec F S64x64 .f32 × FVec F S64x64 .f32) : NS (X ⟪main_v35⟫) (X ⟪main_v36⟫) (X ⟪main_v28⟫) p →
    NS (StableHlo.after (seg 19 10) X ⟪main_v43⟫) (StableHlo.after (seg 19 10) X ⟪main_v44⟫) (StableHlo.after (seg 19 10) X ⟪main_v28⟫)
      (nsStep p.1 p.2) := by ns_step
theorem ns2 (p : FVec F S64x64 .f32 × FVec F S64x64 .f32) : NS (X ⟪main_v43⟫) (X ⟪main_v44⟫) (X ⟪main_v28⟫) p →
    NS (StableHlo.after (seg 29 10) X ⟪main_v51⟫) (StableHlo.after (seg 29 10) X ⟪main_v52⟫) (StableHlo.after (seg 29 10) X ⟪main_v28⟫)
      (nsStep p.1 p.2) := by ns_step
theorem ns3 (p : FVec F S64x64 .f32 × FVec F S64x64 .f32) : NS (X ⟪main_v51⟫) (X ⟪main_v52⟫) (X ⟪main_v28⟫) p →
    NS (StableHlo.after (seg 39 10) X ⟪main_v59⟫) (StableHlo.after (seg 39 10) X ⟪main_v60⟫) (StableHlo.after (seg 39 10) X ⟪main_v28⟫)
      (nsStep p.1 p.2) := by ns_step
theorem ns4 (p : FVec F S64x64 .f32 × FVec F S64x64 .f32) : NS (X ⟪main_v59⟫) (X ⟪main_v60⟫) (X ⟪main_v28⟫) p →
    NS (StableHlo.after (seg 49 10) X ⟪main_v67⟫) (StableHlo.after (seg 49 10) X ⟪main_v68⟫) (StableHlo.after (seg 49 10) X ⟪main_v28⟫)
      (nsStep p.1 p.2) := by ns_step
theorem ns5 (p : FVec F S64x64 .f32 × FVec F S64x64 .f32) : NS (X ⟪main_v67⟫) (X ⟪main_v68⟫) (X ⟪main_v28⟫) p →
    NS (StableHlo.after (seg 59 10) X ⟪main_v75⟫) (StableHlo.after (seg 59 10) X ⟪main_v76⟫) (StableHlo.after (seg 59 10) X ⟪main_v28⟫)
      (nsStep p.1 p.2) := by ns_step
theorem ns6 (p : FVec F S64x64 .f32 × FVec F S64x64 .f32) : NS (X ⟪main_v75⟫) (X ⟪main_v76⟫) (X ⟪main_v28⟫) p →
    NS (StableHlo.after (seg 69 10) X ⟪main_v83⟫) (StableHlo.after (seg 69 10) X ⟪main_v84⟫) (StableHlo.after (seg 69 10) X ⟪main_v28⟫)
      (nsStep p.1 p.2) := by ns_step
theorem ns7 (p : FVec F S64x64 .f32 × FVec F S64x64 .f32) : NS (X ⟪main_v83⟫) (X ⟪main_v84⟫) (X ⟪main_v28⟫) p →
    NS (StableHlo.after (seg 79 10) X ⟪main_v91⟫) (StableHlo.after (seg 79 10) X ⟪main_v92⟫) (StableHlo.after (seg 79 10) X ⟪main_v28⟫)
      (nsStep p.1 p.2) := by ns_step
theorem ns8 (p : FVec F S64x64 .f32 × FVec F S64x64 .f32) : NS (X ⟪main_v91⟫) (X ⟪main_v92⟫) (X ⟪main_v28⟫) p →
    NS (StableHlo.after (seg 89 10) X ⟪main_v99⟫) (StableHlo.after (seg 89 10) X ⟪main_v100⟫) (StableHlo.after (seg 89 10) X ⟪main_v28⟫)
      (nsStep p.1 p.2) := by ns_step
theorem ns9 (p : FVec F S64x64 .f32 × FVec F S64x64 .f32) : NS (X ⟪main_v99⟫) (X ⟪main_v100⟫) (X ⟪main_v28⟫) p →
    NS (StableHlo.after (seg 99 10) X ⟪main_v107⟫) (StableHlo.after (seg 99 10) X ⟪main_v108⟫) (StableHlo.after (seg 99 10) X ⟪main_v28⟫)
      (nsStep p.1 p.2) := by ns_step

/-- The 113 operations from a valuation whose norm buffer holds the covariance buffer's norm: the whitened weights. -/
theorem ops12_v112 (h20 : X ⟪main_v20⟫ = frob (X ⟪main_v19⟫)) :
    StableHlo.after hostOps1_2 X ⟪main_v112⟫ = whiten (X ⟪main_v19⟫) (X ⟪main_arg1⟫) := by
  have h := ns9 _ _ (ns8 _ _ (ns7 _ _ (ns6 _ _ (ns5 _ _ (ns4 _ _ (ns3 _ _ (ns2 _ _ (ns1 _ _
    (ns0 _ _ (head_v22 X) (head_v28 X))))))))))
  rw [ops12_after, tail_v112, h.z_eq]
  simp only [seg_keep ops12_not_arg1, seg_keep ops12_not_v20]
  rw [h20]
  rfl

end Pieces

/-! ## The stretch -/

variable (W : Valuation τ sig (Elt F))

theorem mid_v112 : mid W ⟪main_v112⟫ = whiten (covOf (W ⟪main_v1_0⟫) (W ⟪main_v1_1⟫)) (W ⟪main_arg1⟫) := by
  show StableHlo.after hostOps1_2 _ _ = _
  rw [ops12_v112 _ (by rw [norm_v20, norm_v19]), norm_v19, norm_arg1, ops1_v19, ops1_arg1]

theorem mid_v5 : mid W ⟪main_v5⟫ = meanOf (W ⟪main_v1_0⟫) :=
  (StableHlo.after_of_forall_not_mem (b := ⟪main_v5⟫) hostOps1_2 _ (by not_written)).trans
    ((StableHlo.after_of_forall_not_mem (b := ⟪main_v5⟫) hostOps1_1 _ (by not_written)).trans (ops1_v5 W))

theorem mid_keep_v0 : mid W ⟪main_v0⟫ = W ⟪main_v0⟫ :=
  (StableHlo.after_of_forall_not_mem (b := ⟪main_v0⟫) hostOps1_2 _ (by not_written)).trans
    ((StableHlo.after_of_forall_not_mem (b := ⟪main_v0⟫) hostOps1_1 _ (by not_written)).trans
      (StableHlo.after_of_forall_not_mem (b := ⟪main_v0⟫) hostOps1 _ (by not_written)))

theorem mid_keep_arg2 : mid W ⟪main_arg2⟫ = W ⟪main_arg2⟫ :=
  (StableHlo.after_of_forall_not_mem (b := ⟪main_arg2⟫) hostOps1_2 _ (by not_written)).trans
    ((StableHlo.after_of_forall_not_mem (b := ⟪main_arg2⟫) hostOps1_1 _ (by not_written)).trans
      (StableHlo.after_of_forall_not_mem (b := ⟪main_arg2⟫) hostOps1 _ (by not_written)))

end Cert.KernelIdeal.Hand

end
-- ==== Proof.LibColumn.lean ====
/-
  Column vectors and one-axis reductions of a matrix, read at an index given by coordinates.

  A reduction of an `[a, b]` matrix with `keepdims` goes through three layout steps the library reads only in their
  row forms: the reduced `[a]` vector is cast to the column `[a, 1]`, and the column is broadcast back over
  `[a, b]`. Here those two are read at `(r, c)`, together with the reductions themselves at the ideal instance:
  the sum of a matrix along its columns or its rows as a `Fin`-indexed sum over `ix2`, and the maximum along the
  columns as the fold of `max` over the row — for the vector unit's reduction and for the host's alike.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

/-! ## The layout steps of a keepdims reduction -/

section Layout
variable {α : Type}

/-- An `[a]` vector cast to the column `[a, 1]` reads, at `(r, u)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

/-! ## Which source index a reduced index and a coordinate name -/

/-- Reducing `[a, b]` along axis 1: over row `r`, coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing `[a, b]` along axis 0: over column `t`, coordinate `k` put back is `(k, t)`. -/
theorem lift_axis0 {a b : ℕ} (h : (⟨2, ![a, b]⟩ : Shape).Reduces [0] (⟨1, ![b]⟩ : Shape)) (t : Fin b)
    (k : Fin ((⟨2, ![a, b]⟩ : Shape).size 0)) : h.lift (ix1 t) k = ix2 (⟨k.val, k.isLt⟩ : Fin a) t := by
  funext c; apply Fin.ext
  fin_cases c <;> rfl

/-! ## The reductions at the ideal instance -/

section Reductions
variable {φ : FTy}

/-- The vector unit's sum of a matrix along its columns is, at row `r`, the sum of that row. -/
theorem sumAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ v acc h hφ hacc (ix1 r) = ∑ k : Fin b, v (ix2 r k) :=
  (Ideal.multiReduction_add_single v acc h hφ hacc (ix1 r)).trans
    (Finset.sum_congr rfl fun k _ => congrArg v (lift_axis1 h r k))

/-- The vector unit's sum of a matrix along its rows is, at column `t`, the sum of that column. -/
theorem sumAxis0_apply {a b : ℕ} (v : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (t : Fin b) :
    multiReduction .add [0] ⟨1, ![b]⟩ v acc h hφ hacc (ix1 t) = ∑ k : Fin a, v (ix2 k t) :=
  (Ideal.multiReduction_add_single v acc h hφ hacc (ix1 t)).trans
    (Finset.sum_congr rfl fun k _ => congrArg v (lift_axis0 h t k))

/-- The vector unit's maximum of a matrix along its columns is, at row `r`, the fold of `max` over that row from
    the accumulator's value. -/
theorem maxAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ v acc h hφ hacc (ix1 r)
      = (Finset.univ : Finset (Fin b)).fold max (Ideal.ofBits φ acc) (fun k => v (ix2 r k)) :=
  (Ideal.multiReduction_maximumf_single v acc h hφ hacc (ix1 r)).trans
    (congrArg (fun f => (Finset.univ : Finset (Fin b)).fold max (Ideal.ofBits φ acc) f)
      (funext fun k => congrArg v (lift_axis1 h r k)))

/-- The host's reduce with a maximum body along the columns is, at row `r`, the same fold from the initial value. -/
theorem hostMaxAxis1_apply {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun k => x (ix2 r k)) :=
  (Host.reduce_eq_fold_single FloatOps.maximumf x init h' h hu (ix1 r)).trans
    (congrArg (fun f => (Finset.univ : Finset (Fin b)).fold max (init (Shape.Idx.first hu)) f)
      (funext fun k => congrArg x (lift_axis1 h r k)))

end Reductions

end Cert.LibColumn

end
-- ==== Proof.KI.Payloads.lean ====
/-
  The kernels' stored values read at an index, at the ideal (extended-real) instance.

  The statistics kernel stores, per channel group, the running sum of each row of a 64 × 3136 block and the running
  64 × 64 matrix of the rows' pairwise inner products; the affine kernel stores a 64 × 64 matrix applied to the
  block's columns after a per-row shift, plus a per-row offset. Each stored value is a short chain of vector
  operations; here each chain is read at one index given by its coordinates.
-/
import proofs.«165382_j37855841747396_2_alg».proof.Proof.Gen.KernelIdeal.Skeleton
import proofs.«165382_j37855841747396_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand.Payloads

open Idealize.ShloMosaic Idealize.ShloMosaic.ValueIdx Cert.KernelIdeal Cert.KernelIdeal.Gen

/-! ## The zero blocks the statistics kernel starts from -/

/-- The initial row-sum block is zero at every index. -/
theorem pay1_apply (j : S1x64x1.Idx) : k0_pay1 (F := Ideal) j = 0 := Ideal.ofBits_zero_f32

/-- The initial inner-product block is zero at every index. -/
theorem pay2_apply (j : S1x64x64.Idx) : k0_pay2 (F := Ideal) j = 0 := Ideal.ofBits_zero_f32

/-! ## The block with its leading unit axis dropped -/

/-- The loaded `[1, 64, 3136]` block viewed as a matrix reads, at `(g, l)`, the block at `(0, g, l)`. -/
theorem pay3_apply (v5 : Vec Ideal S1x64x3136 .f32) (g : Fin 64) (l : Fin 3136) :
    k0_pay3 v5 (ix2 g l) = v5 (ix3 (0 : Fin 1) g l) :=
  shapeCast_1ab_ab_apply v5 _ g l

/-! ## The running row sums -/

/-- The stored row-sum block at row `g` is the previous value plus the sum of the block's row `g`. -/
theorem pay4_apply (v5 : Vec Ideal S1x64x3136 .f32) (v7 : Vec Ideal S1x64x1 .f32) (g : Fin 64) :
    k0_pay4 v5 v7 (ix3 (0 : Fin 1) g (0 : Fin 1)) = v7 (ix3 0 g 0) + ∑ l : Fin 3136, v5 (ix3 0 g l) := by
  unfold k0_pay4
  refine (shapeCast_ab_1ab_apply _ _ (0 : Fin 1) g (0 : Fin 1)).trans ?_
  rw [addf_apply]
  refine congrArg₂ (· + ·) (shapeCast_1ab_ab_apply v7 _ g (0 : Fin 1)) ?_
  refine (Cert.LibColumn.shapeCast_a_a1_apply _ _ g (0 : Fin 1)).trans ?_
  refine (Cert.LibColumn.sumAxis1_apply (k0_pay3 v5) _ _ _ _ g).trans ?_
  exact Finset.sum_congr rfl fun l _ => pay3_apply v5 g l

/-! ## The running matrix of inner products

The matrix unit multiplies the block, viewed as a 64 × 3136 matrix, by itself with BOTH operands contracted along
their second axis: entry `(g, g')` is the inner product of rows `g` and `g'`. The four lemmas below say which
operand coordinate each axis reads: a free axis reads an output coordinate, the contracted axis the summation index. -/

theorem lhs_rowsInner_0 (i : S64x64.Idx) (q : dot_S64x3136_S64x3136_S64x64_1_1_0_0_n_n.contr.Idx) :
    (dot_S64x3136_S64x3136_S64x64_1_1_0_0_n_n.lhsIdx i q 0).val = (i 0).val := by
  unfold DotDims.lhsIdx
  rw [dif_neg (show ¬(0 : Fin S64x3136.rank) ∈ dot_S64x3136_S64x3136_S64x64_1_1_0_0_n_n.lhsBatch by decide),
    dif_pos (show (0 : Fin S64x3136.rank) ∈ dot_S64x3136_S64x3136_S64x64_1_1_0_0_n_n.lhsNonContracting by decide)]
  rfl

theorem lhs_rowsInner_1 (i : S64x64.Idx) (q : dot_S64x3136_S64x3136_S64x64_1_1_0_0_n_n.contr.Idx) :
    (dot_S64x3136_S64x3136_S64x64_1_1_0_0_n_n.lhsIdx i q 1).val = (q ⟨0, by decide⟩).val :=
  dot_S64x3136_S64x3136_S64x64_1_1_0_0_n_n.lhsIdx_val_of_single rfl i q

theorem rhs_rowsInner_0 (i : S64x64.Idx) (q : dot_S64x3136_S64x3136_S64x64_1_1_0_0_n_n.contr.Idx) :
    (dot_S64x3136_S64x3136_S64x64_1_1_0_0_n_n.rhsIdx i q 0).val = (i 1).val := by
  unfold DotDims.rhsIdx
  rw [dif_neg (show ¬(0 : Fin S64x3136.rank) ∈ dot_S64x3136_S64x3136_S64x64_1_1_0_0_n_n.rhsBatch by decide),
    dif_pos (show (0 : Fin S64x3136.rank) ∈ dot_S64x3136_S64x3136_S64x64_1_1_0_0_n_n.rhsNonContracting by decide)]
  rfl

theorem rhs_rowsInner_1 (i : S64x64.Idx) (q : dot_S64x3136_S64x3136_S64x64_1_1_0_0_n_n.contr.Idx) :
    (dot_S64x3136_S64x3136_S64x64_1_1_0_0_n_n.rhsIdx i q 1).val = (q ⟨0, by decide⟩).val :=
  dot_S64x3136_S64x3136_S64x64_1_1_0_0_n_n.rhsIdx_val_of_single rfl i q

/-- A 64 × 3136 matrix times its own transpose, into a zero accumulator, is at `(g, g')` the inner product of rows
    `g` and `g'`. -/
theorem rowsInner_apply (x : FVec Ideal S64x3136 .f32) (g g' : Fin 64) :
    matmul dot_S64x3136_S64x3136_S64x64_1_1_0_0_n_n (some .fp32) x x (constant (F := Ideal) S64x64 .f32 0x00000000#32) (ix2 g g')
      = ∑ l : Fin 3136, x (ix2 g l) * x (ix2 g' l) := by
  simp only [matmul]
  rw [Ideal.matmul_constant_zero_apply,
    ← Equiv.sum_comp (contrEquiv1 dot_S64x3136_S64x3136_S64x64_1_1_0_0_n_n 3136 rfl rfl).symm]
  refine Finset.sum_congr rfl fun k _ => ?_
  have hk := contrEquiv1_symm_val dot_S64x3136_S64x3136_S64x64_1_1_0_0_n_n 3136 rfl rfl k
  have el : dot_S64x3136_S64x3136_S64x64_1_1_0_0_n_n.lhsIdx (ix2 g g')
      ((contrEquiv1 dot_S64x3136_S64x3136_S64x64_1_1_0_0_n_n 3136 rfl rfl).symm k) = ix2 g k :=
    funext fun a => Fin.ext (by
      match a with
      | ⟨0, _⟩ => exact lhs_rowsInner_0 _ _
      | ⟨1, _⟩ => exact (lhs_rowsInner_1 _ _).trans hk)
  have er : dot_S64x3136_S64x3136_S64x64_1_1_0_0_n_n.rhsIdx (ix2 g g')
      ((contrEquiv1 dot_S64x3136_S64x3136_S64x64_1_1_0_0_n_n 3136 rfl rfl).symm k) = ix2 g' k :=
    funext fun a => Fin.ext (by
      match a with
      | ⟨0, _⟩ => exact rhs_rowsInner_0 _ _
      | ⟨1, _⟩ => exact (rhs_rowsInner_1 _ _).trans hk)
  rw [el, er]

/-- The stored inner-product block at `(g, g')` is the previous value plus the inner product of the block's rows
    `g` and `g'`. -/
theorem pay5_apply (v5 : Vec Ideal S1x64x3136 .f32) (v15 : Vec Ideal S1x64x64 .f32) (g g' : Fin 64) :
    k0_pay5 v5 v15 (ix3 (0 : Fin 1) g g')
      = v15 (ix3 0 g g') + ∑ l : Fin 3136, v5 (ix3 0 g l) * v5 (ix3 0 g' l) := by
  unfold k0_pay5
  refine (shapeCast_ab_1ab_apply _ _ (0 : Fin 1) g g').trans ?_
  rw [addf_apply]
  refine congrArg₂ (· + ·) (shapeCast_1ab_ab_apply v15 _ g g') ?_
  refine (rowsInner_apply (k0_pay3 v5) g g').trans ?_
  exact Finset.sum_congr rfl fun l _ => by rw [pay3_apply, pay3_apply]

/-! ## The affine kernel's stored block

The matrix unit multiplies the 64 × 64 matrix by the shifted block, the left operand contracted along its second axis
and the right along its first: entry `(g, l)` sums, over `k`, the matrix at `(g, k)` times the shifted block at
`(k, l)`. The four lemmas below say which operand coordinate each axis reads. -/

theorem lhs_matTimesBlock_0 (i : S64x3136.Idx) (q : dot_S64x64_S64x3136_S64x3136_1_0_0_1_n_n.contr.Idx) :
    (dot_S64x64_S64x3136_S64x3136_1_0_0_1_n_n.lhsIdx i q 0).val = (i 0).val := by
  unfold DotDims.lhsIdx
  rw [dif_neg (show ¬(0 : Fin S64x64.rank) ∈ dot_S64x64_S64x3136_S64x3136_1_0_0_1_n_n.lhsBatch by decide),
    dif_pos (show (0 : Fin S64x64.rank) ∈ dot_S64x64_S64x3136_S64x3136_1_0_0_1_n_n.lhsNonContracting by decide)]
  rfl

theorem lhs_matTimesBlock_1 (i : S64x3136.Idx) (q : dot_S64x64_S64x3136_S64x3136_1_0_0_1_n_n.contr.Idx) :
    (dot_S64x64_S64x3136_S64x3136_1_0_0_1_n_n.lhsIdx i q 1).val = (q ⟨0, by decide⟩).val :=
  dot_S64x64_S64x3136_S64x3136_1_0_0_1_n_n.lhsIdx_val_of_single rfl i q

theorem rhs_matTimesBlock_0 (i : S64x3136.Idx) (q : dot_S64x64_S64x3136_S64x3136_1_0_0_1_n_n.contr.Idx) :
    (dot_S64x64_S64x3136_S64x3136_1_0_0_1_n_n.rhsIdx i q 0).val = (q ⟨0, by decide⟩).val :=
  dot_S64x64_S64x3136_S64x3136_1_0_0_1_n_n.rhsIdx_val_of_single rfl i q

theorem rhs_matTimesBlock_1 (i : S64x3136.Idx) (q : dot_S64x64_S64x3136_S64x3136_1_0_0_1_n_n.contr.Idx) :
    (dot_S64x64_S64x3136_S64x3136_1_0_0_1_n_n.rhsIdx i q 1).val = (i 1).val := by
  unfold DotDims.rhsIdx
  rw [dif_neg (show ¬(1 : Fin S64x3136.rank) ∈ dot_S64x64_S64x3136_S64x3136_1_0_0_1_n_n.rhsBatch by decide),
    dif_pos (show (1 : Fin S64x3136.rank) ∈ dot_S64x64_S64x3136_S64x3136_1_0_0_1_n_n.rhsNonContracting by decide)]
  rfl

/-- A 64 × 64 matrix times a 64 × 3136 matrix, into a zero accumulator, is at `(g, l)` the sum over `k` of the
    left factor at `(g, k)` times the right factor at `(k, l)`. -/
theorem matTimesBlock_apply (A : FVec Ideal S64x64 .f32) (B : FVec Ideal S64x3136 .f32) (g : Fin 64) (l : Fin 3136) :
    matmul dot_S64x64_S64x3136_S64x3136_1_0_0_1_n_n (some .fp32) A B (constant (F := Ideal) S64x3136 .f32 0x00000000#32) (ix2 g l)
      = ∑ k : Fin 64, A (ix2 g k) * B (ix2 k l) := by
  simp only [matmul]
  rw [Ideal.matmul_constant_zero_apply,
    ← Equiv.sum_comp (contrEquiv1 dot_S64x64_S64x3136_S64x3136_1_0_0_1_n_n 64 rfl rfl).symm]
  refine Finset.sum_congr rfl fun k _ => ?_
  have hk := contrEquiv1_symm_val dot_S64x64_S64x3136_S64x3136_1_0_0_1_n_n 64 rfl rfl k
  have el : dot_S64x64_S64x3136_S64x3136_1_0_0_1_n_n.lhsIdx (ix2 g l)
      ((contrEquiv1 dot_S64x64_S64x3136_S64x3136_1_0_0_1_n_n 64 rfl rfl).symm k) = ix2 g k :=
    funext fun a => Fin.ext (by
      match a with
      | ⟨0, _⟩ => exact lhs_matTimesBlock_0 _ _
      | ⟨1, _⟩ => exact (lhs_matTimesBlock_1 _ _).trans hk)
  have er : dot_S64x64_S64x3136_S64x3136_1_0_0_1_n_n.rhsIdx (ix2 g l)
      ((contrEquiv1 dot_S64x64_S64x3136_S64x3136_1_0_0_1_n_n 64 rfl rfl).symm k) = ix2 k l :=
    funext fun a => Fin.ext (by
      match a with
      | ⟨0, _⟩ => exact (rhs_matTimesBlock_0 _ _).trans hk
      | ⟨1, _⟩ => exact rhs_matTimesBlock_1 _ _)
  rw [el, er]

/-- The affine kernel's stored block at `(0, g, l)`: the matrix `a` applied to column `l` of the block after each
    row `k` is shifted by `mu`'s entry of that row, plus `be`'s entry of row `g`. -/
theorem k1_pay1_apply (a : Vec Ideal S64x64 .f32) (mu be : Vec Ideal S64x1 .f32) (x : Vec Ideal S1x64x3136 .f32)
    (g : Fin 64) (l : Fin 3136) :
    k1_pay1 a mu be x (ix3 (0 : Fin 1) g l)
      = (∑ k : Fin 64, a (ix2 g k) * (x (ix3 0 k l) - mu (ix2 k 0))) + be (ix2 g 0) := by
  unfold k1_pay1
  refine (shapeCast_ab_1ab_apply _ _ (0 : Fin 1) g l).trans ?_
  rw [addf_apply]
  refine congrArg₂ (· + ·) ?_ (Cert.LibColumn.broadcastTo_a1_ab_apply be _ g l)
  refine (matTimesBlock_apply _ _ g l).trans ?_
  refine Finset.sum_congr rfl fun k _ => ?_
  rw [shapeCast_self a, subf_apply, shapeCast_self mu]
  exact congrArg (a (ix2 g k) * ·)
    (congrArg₂ (· - ·) (shapeCast_1ab_ab_apply x _ k l) (Cert.LibColumn.broadcastTo_a1_ab_apply mu _ k l))

end Cert.KernelIdeal.Hand.Payloads

end
-- ==== Proof.KI.AffineValue.lean ====
/-
  What the second launch leaves in its output array, read at an index over the extended reals: entry (b, g, l) is the
  g-th row of the matrix applied to column l of row b of the input with the means subtracted, plus the g-th bias:
      ∑ₖ a(g, k) · (x(b, k, l) − μ(k)) + β(g).
-/
import proofs.«165382_j37855841747396_2_alg».proof.Proof.KI.Affine
import proofs.«165382_j37855841747396_2_alg».proof.Proof.KI.Payloads

noncomputable section

open scoped BigOperators

namespace Cert.KernelIdeal.Hand

open Idealize.ShloMosaic Idealize.ShloMosaic.ValueIdx
open Cert.KernelIdeal.Gen

/-- The whole-array function the output array ends at, at an index: the affine map of the input's column. -/
theorem G1_4_ideal_apply (X : S256x64x3136.Idx → Elt Ideal .f32) (A : S64x64.Idx → Elt Ideal .f32) (MU BE : S64x1.Idx → Elt Ideal .f32)
    (b : Fin 256) (g : Fin 64) (l : Fin 3136) :
    G1_4 X A MU BE (ix3 b g l)
      = (∑ k : Fin 64, A (ix2 g k) * (X (ix3 b k l) - MU (ix2 k 0))) + BE (ix2 g 0) :=
  (G1_4_apply X A MU BE b g l).trans
    (Payloads.k1_pay1_apply A MU BE (fun j => X (ix3 b (j 1 : Fin 64) (j 2 : Fin 3136))) g l)

end Cert.KernelIdeal.Hand

end
-- ==== Proof.KI.Result.lean ====
/-
  The kernel program's result as a function of its three arguments.

  The affine launch finds, at its four input arrays: the reshaped input as the statistics launch found it; the
  whitened weights and the mean column, which the host arithmetic between the launches computes from the two partial
  sums the statistics launch leaves and from the weight; and the bias as launched. Its output array is therefore, at
  (b, g, l), row g of the whitened weights applied to column l of row b of the reshaped input with the means
  subtracted, plus the bias of row g; and the program's result is that array cast back to the input's shape.
-/
import proofs.«165382_j37855841747396_2_alg».proof.Proof.KI.Boundary
import proofs.«165382_j37855841747396_2_alg».proof.Proof.KI.HostMid
import proofs.«165382_j37855841747396_2_alg».proof.Proof.KI.AffineValue

set_option maxRecDepth 16384

noncomputable section

open scoped BigOperators

namespace Cert.KernelIdeal.Hand

open Idealize.ShloMosaic Idealize.ShloMosaic.TcCoe Idealize.ShloMosaic.ValueIdx
open Idealize.ShloMosaic.Pipeline (Dat Cfg Window BodyObligation cellOf)
open Cert.KernelIdeal.Gen

section AnyFloat

variable {F : FTy → Type} [FloatOps F]
variable (m : (ℓ : Loc nD τ sig) → Buf (Elt F) ℓ) (ρ : Dev nD → PrngReg)

/-! ## What the affine launch finds at its four input arrays -/

/-- The reshaped input: no operation between the launches writes it, and the statistics launch only reads it. -/
theorem V5_v0 (c : Dev nD) : V5 m ρ c main_v0 = V1 m ρ c main_v0 :=
  (mid_keep_v0 (W2 m ρ c)).trans (W2_v0 m ρ c)

/-- The mean column, of the column sums' array as the statistics launch leaves it. -/
theorem V5_v5 (c : Dev nD) : V5 m ρ c main_v5 = meanOf ((dat0 (V1 m ρ) c).arrAt 1 cfg0.N) :=
  (mid_v5 (W2 m ρ c)).trans (by rw [W2_v1_0 m ρ c])

/-- The whitened weights, of the two partial-sum arrays as the statistics launch leaves them and the weight as launched. -/
theorem V5_v112 (c : Dev nD) :
    V5 m ρ c main_v112 = whiten (covOf ((dat0 (V1 m ρ) c).arrAt 1 cfg0.N) ((dat0 (V1 m ρ) c).arrAt 2 cfg0.N)) (m ((c : Thread nD τ).loc main_arg1)) :=
  (mid_v112 (W2 m ρ c)).trans (by rw [W2_v1_0 m ρ c, W2_v1_1 m ρ c, W2_arg1 m ρ c])

/-- The bias, as launched. -/
theorem V5_arg2 (c : Dev nD) : V5 m ρ c main_arg2 = (m ((c : Thread nD τ).loc main_arg2)) :=
  (mid_keep_arg2 (W2 m ρ c)).trans (W2_arg2 m ρ c)

/-! ## The two reshapes at the ends -/

/-- The program's result is the affine launch's output array cast to the input's shape. -/
theorem result_eq (c : Dev nD) :
    W7 m ρ c (Proc.devRef .tc main_v114)
      = shapeCast S64x256x56x56 ((dat1 (V5 m ρ) c).arrAt 4 cfg1.N) shapeCasts_S256x64x3136_S64x256x56x56 :=
  calc W7 m ρ c (Proc.devRef .tc main_v114)
    _ = shapeCast S64x256x56x56 (W6 m ρ c (Proc.devRef .tc main_v113)) shapeCasts_S256x64x3136_S64x256x56x56 := W7_result m ρ c
    _ = _ := by rw [W6_main_v113 m ρ c]

/-- The statistics launch's input is the first argument cast to 256 rows of 64 × 3136. -/
theorem X_eq (c : Dev nD) :
    V1 m ρ c main_v0 = shapeCast S256x64x3136 (m ((c : Thread nD τ).loc main_arg0)) shapeCasts_S64x256x56x56_S256x64x3136 :=
  V1_v0 m ρ c

/-! ## The values the output array is a function of, at their array types -/

/-- The reshaped input the statistics launch finds: 256 rows of 64 × 3136. -/
abbrev inRows (c : Dev nD) : FVec F S256x64x3136 .f32 := V1 m ρ c main_v0
/-- The column sums' array as the statistics launch leaves it: two partial sums of a 64-column. -/
abbrev colSums (c : Dev nD) : FVec F S2x64x1 .f32 := (dat0 (V1 m ρ) c).arrAt 1 cfg0.N
/-- The Gram sums' array as the statistics launch leaves it: two partial sums of a 64 × 64 matrix. -/
abbrev gramSums (c : Dev nD) : FVec F S2x64x64 .f32 := (dat0 (V1 m ρ) c).arrAt 2 cfg0.N
/-- The weight, as launched. -/
abbrev weightIn (c : Dev nD) : FVec F S64x64 .f32 := m ((c : Thread nD τ).loc main_arg1)
/-- The bias, as launched. -/
abbrev biasIn (c : Dev nD) : FVec F S64x1 .f32 := m ((c : Thread nD τ).loc main_arg2)

/-- The affine launch's output array, whole: the array function of the affine kernel at the reshaped input, the
    whitened weights, the mean column and the bias. -/
theorem out_eq (c : Dev nD) :
    (dat1 (V5 m ρ) c).arrAt 4 cfg1.N
      = G1_4 (V1 m ρ c main_v0) (whiten (covOf ((dat0 (V1 m ρ) c).arrAt 1 cfg0.N) ((dat0 (V1 m ρ) c).arrAt 2 cfg0.N)) (m ((c : Thread nD τ).loc main_arg1)))
          (meanOf ((dat0 (V1 m ρ) c).arrAt 1 cfg0.N)) (m ((c : Thread nD τ).loc main_arg2)) := by
  refine (arrAt1_4 (V5 m ρ) c).trans ?_
  show G1_4 (V5 m ρ c main_v0) (V5 m ρ c main_v112) (V5 m ρ c main_v5) (V5 m ρ c main_arg2) = _
  rw [V5_v0 m ρ c, V5_v112 m ρ c, V5_v5 m ρ c, V5_arg2 m ρ c]

end AnyFloat

/-! ## The output array at an index, over the extended reals -/

section AtIdeal

variable (m : (ℓ : Loc nD τ sig) → Buf (Elt Ideal) ℓ) (ρ : Dev nD → PrngReg)

/-- The affine launch's output array at `(b, g, l)`: row `g` of the whitened weights applied to column `l` of row `b` of
    the reshaped input with the means subtracted, plus the bias of row `g`. -/
theorem out_apply (c : Dev nD) (b : Fin 256) (g : Fin 64) (l : Fin 3136) :
    (dat1 (V5 m ρ) c).arrAt 4 cfg1.N (ix3 b g l)
      = (∑ k : Fin 64, whiten (covOf (colSums m ρ c) (gramSums m ρ c)) (weightIn m c) (ix2 g k)
            * (inRows m ρ c (ix3 b k l) - meanOf (colSums m ρ c) (ix2 k 0)))
        + biasIn m c (ix2 g 0) :=
  (congrFun (out_eq m ρ c) (ix3 b g l)).trans (G1_4_ideal_apply _ _ _ _ b g l)

end AtIdeal

end Cert.KernelIdeal.Hand

end
-- ==== Proof.KI.StatsValue.lean ====
/-
  The first launch (the statistics), read at the ideal (extended-real) instance: what the two result arrays hold after
  the run, at an index, as plain sums over the input array.
  The column array at (p, g, ·) is the sum of the input's lane g over the 128 rows 128 p … 128 p + 127 and the 3136
  positions; the matrix array at (p, g, g') is the sum over the same rows and positions of the products of lanes g and g'.
  The road: a block of a result array is what the last point of its run of eight left in the staging buffer (the two
  write-backs write disjoint blocks); that is the fold over the run, from zeros, of each point's addend; a point's
  addend is sixteen trips of the loop, each adding one row's lane sums (inner products); and the block a point reads
  is sixteen consecutive rows of the input array.
-/
import proofs.«165382_j37855841747396_2_alg».proof.Proof.KI.Stats
import proofs.«165382_j37855841747396_2_alg».proof.Proof.KI.Payloads
import Idealize.ShloMosaic.Lib.ValueIdx
import Idealize.ShloMosaic.Lib.Pipeline.Value

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal.Gen
open scoped BigOperators
open Idealize.ShloMosaic.ValueIdx (ix2 ix3 eq_ix3)
open Cert.KernelIdeal.Hand.Payloads

/-! ## Sixteen trips of the loop, read at an index -/

/-- Row `k` of the block at an index: the block at row `k`. -/
theorem rowOf_apply (x : Vec Ideal S16x64x3136 .f32) (k : Fin k0_t1_loop.trips) (hk : k.val < 16) (g : Fin 64) (l : Fin 3136) :
    rowOf x k (ix3 (0 : Fin 1) g l) = x (ix3 (⟨k.val, hk⟩ : Fin 16) g l) := by
  unfold rowOf
  show x ((Rect.unit (s := S16x64x3136) (k0_off1 k) S1x64x3136.size (k0_off1_inb k)).idx (ix3 (0 : Fin 1) g l)) = _
  refine congrArg x (funext fun a => Fin.ext ?_)
  show (k0_off1 k) a + 1 * ((ix3 (0 : Fin 1) g l) a).val = ((ix3 (⟨k.val, hk⟩ : Fin 16) g l) a).val
  rw [k0_off1_eq k]
  match a with
  | ⟨0, _⟩ => show k.val + 1 * 0 = k.val; omega
  | ⟨1, _⟩ => show 0 + 1 * g.val = g.val; omega
  | ⟨2, _⟩ => show 0 + 1 * l.val = l.val; omega

/-- Every index of the column block is `(0, g, 0)`. -/
theorem col_idx (j : S1x64x1.Idx) : j = ix3 (0 : Fin 1) (j 1 : Fin 64) (0 : Fin 1) := by
  funext a
  match a with
  | ⟨0, _⟩ => exact Fin.ext (by show (j 0).val = 0; have h : (j 0).val < 1 := (j 0).isLt; omega)
  | ⟨1, _⟩ => rfl
  | ⟨2, _⟩ => exact Fin.ext (by show (j 2).val = 0; have h : (j 2).val < 1 := (j 2).isLt; omega)

/-- Every index of the matrix block is `(0, g, g')`. -/
theorem mat_idx (j : S1x64x64.Idx) : j = ix3 (0 : Fin 1) (j 1 : Fin 64) (j 2 : Fin 64) := by
  funext a
  match a with
  | ⟨0, _⟩ => exact Fin.ext (by show (j 0).val = 0; have h : (j 0).val < 1 := (j 0).isLt; omega)
  | ⟨1, _⟩ => rfl
  | ⟨2, _⟩ => rfl

/-- The column after `n` trips, at row `g`: what it held plus the lane sums of rows `0 … n-1` of the block. -/
theorem acc1_apply_range (x : Vec Ideal S16x64x3136 .f32) (a : Vec Ideal S1x64x1 .f32) (g : Fin 64) :
    ∀ n, n ≤ 16 → acc1 x n a (ix3 (0 : Fin 1) g (0 : Fin 1))
      = a (ix3 0 g 0) + ∑ k ∈ Finset.range n, (if h : k < 16 then ∑ l : Fin 3136, x (ix3 (⟨k, h⟩ : Fin 16) g l) else 0)
  | 0, _ => by rw [acc1_zero, Finset.range_zero, Finset.sum_empty, add_zero]
  | n + 1, hn => by
    have hn' : n < 16 := hn
    have hk : n < k0_t1_loop.trips := by rw [trips16]; exact hn'
    rw [show acc1 x (n + 1) a = k0_pay4 (rowOf x ⟨n, hk⟩) (acc1 x n a) from acc1_succ x a ⟨n, hk⟩,
      pay4_apply, acc1_apply_range x a g n (by omega), Finset.sum_range_succ, dif_pos hn', add_assoc]
    exact congrArg _ (congrArg _ (Finset.sum_congr rfl fun l _ => rowOf_apply x ⟨n, hk⟩ hn' g l))

/-- The matrix after `n` trips, at `(g, g')`: what it held plus the inner products of rows `0 … n-1`'s lanes `g` and `g'`. -/
theorem acc2_apply_range (x : Vec Ideal S16x64x3136 .f32) (b : Vec Ideal S1x64x64 .f32) (g g' : Fin 64) :
    ∀ n, n ≤ 16 → acc2 x n b (ix3 (0 : Fin 1) g g')
      = b (ix3 0 g g') + ∑ k ∈ Finset.range n,
          (if h : k < 16 then ∑ l : Fin 3136, x (ix3 (⟨k, h⟩ : Fin 16) g l) * x (ix3 (⟨k, h⟩ : Fin 16) g' l) else 0)
  | 0, _ => by rw [acc2_zero, Finset.range_zero, Finset.sum_empty, add_zero]
  | n + 1, hn => by
    have hn' : n < 16 := hn
    have hk : n < k0_t1_loop.trips := by rw [trips16]; exact hn'
    rw [show acc2 x (n + 1) b = k0_pay5 (rowOf x ⟨n, hk⟩) (acc2 x n b) from acc2_succ x b ⟨n, hk⟩,
      pay5_apply, acc2_apply_range x b g g' n (by omega), Finset.sum_range_succ, dif_pos hn', add_assoc]
    exact congrArg _ (congrArg _ (Finset.sum_congr rfl fun l _ => by rw [rowOf_apply x ⟨n, hk⟩ hn' g l, rowOf_apply x ⟨n, hk⟩ hn' g' l]))

/-- A sum over the first sixteen naturals of a function of `Fin 16` is the sum over `Fin 16`. -/
theorem sum_range16 {M : Type*} [AddCommMonoid M] (f : Fin 16 → M) :
    ∑ k ∈ Finset.range 16, (if h : k < 16 then f ⟨k, h⟩ else 0) = ∑ k : Fin 16, f k := by
  rw [← Fin.sum_univ_eq_sum_range (fun k => if h : k < 16 then f ⟨k, h⟩ else 0) 16]
  exact Finset.sum_congr rfl fun k _ => by rw [dif_pos k.isLt]

/-- SIXTEEN TRIPS, the column: at every index, what it held plus the lane sums of the block's sixteen rows. -/
theorem acc1_apply (x : Vec Ideal S16x64x3136 .f32) (a : Vec Ideal S1x64x1 .f32) (j : S1x64x1.Idx) :
    acc1 x 16 a j = a j + ∑ k : Fin 16, ∑ l : Fin 3136, x (ix3 k (j 1 : Fin 64) l) := by
  obtain ⟨g, rfl⟩ : ∃ g : Fin 64, j = ix3 (0 : Fin 1) g (0 : Fin 1) := ⟨j 1, col_idx j⟩
  rw [acc1_apply_range x a g 16 le_rfl, sum_range16 (fun k => ∑ l : Fin 3136, x (ix3 k g l))]

/-- SIXTEEN TRIPS, the matrix: at every index, what it held plus the sixteen rows' inner products. -/
theorem acc2_apply (x : Vec Ideal S16x64x3136 .f32) (b : Vec Ideal S1x64x64 .f32) (j : S1x64x64.Idx) :
    acc2 x 16 b j = b j + ∑ k : Fin 16, ∑ l : Fin 3136, x (ix3 k (j 1 : Fin 64) l) * x (ix3 k (j 2 : Fin 64) l) := by
  obtain ⟨g, g', rfl⟩ : ∃ g g' : Fin 64, j = ix3 (0 : Fin 1) g g' := ⟨j 1, j 2, mat_idx j⟩
  rw [acc2_apply_range x b g g' 16 le_rfl, sum_range16 (fun k => ∑ l : Fin 3136, x (ix3 k g l) * x (ix3 k g' l))]

/-! ## Where the windows' blocks sit in their arrays -/

-- the TensorCore's buffer contents when the region is entered
variable (V : (c : Dev nD) → (b : Ref sig .tc) → Buf (Elt Ideal) ((c : Thread nD τ).loc b))

/-- The input window's block index at point `t` is `(t, 0, 0)`: point (p, j) reads block 8p + j. -/
theorem index0_0 (t : Fin cfg0.N) : win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0) t

/-- The column window's block index at point `t` is `(t / 8, 0, 0)`: point (p, j) holds block p. -/
theorem index0_1 (t : Fin cfg0.N) : win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0) t

/-- The matrix window's likewise. -/
theorem index0_2 (t : Fin cfg0.N) : win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0) t

/-- The input block at point `t`, at `(k, g, l)`: the input array at row `16 t + k`. -/
theorem iblk0_apply (c : Dev nD) (t : Fin cfg0.N) (k : Fin 16) (g : Fin 64) (l : Fin 3136) (h : t.val * 16 + k.val < 256) :
    (iblk0 V c 0 t : Vec Ideal S16x64x3136 .f32) (ix3 k g l)
      = V c (Pipeline.arrRef spec0 0) (ix3 (⟨t.val * 16 + k.val, h⟩ : Fin 256) g l) := by
  unfold iblk0
  rw [View.read_apply]
  show V c (Pipeline.arrRef spec0 0) _ = V c (Pipeline.arrRef spec0 0) _
  congr 1
  funext a
  apply Fin.ext
  match a with
  | ⟨0, _⟩ => show win0_0.index t 0 * 16 + 1 * k.val = t.val * 16 + k.val; rw [(index0_0 t).1]; omega
  | ⟨1, _⟩ => show win0_0.index t 1 * 64 + 1 * g.val = g.val; rw [(index0_0 t).2.1]; omega
  | ⟨2, _⟩ => show win0_0.index t 2 * 3136 + 1 * l.val = l.val; rw [(index0_0 t).2.2]; omega

/-! ## The three arrays read at their shapes

so that their values are extended reals to the eye of instance search. -/

/-- The input array as the region finds it. -/
abbrev xin (c : Dev nD) : FVec Ideal S256x64x3136 .f32 := V c (Pipeline.arrRef spec0 0)
/-- The column array after the run. -/
abbrev colOut (c : Dev nD) : FVec Ideal S2x64x1 .f32 := (dat0 V c).arrAt 1 cfg0.N
/-- The matrix array after the run. -/
abbrev matOut (c : Dev nD) : FVec Ideal S2x64x64 .f32 := (dat0 V c).arrAt 2 cfg0.N

/-! ## The final arrays: each block as its write-back point left it -/

/-- The column's two write-backs (points 7 and 15) write disjoint blocks of the array. -/
theorem flush_disj1 : ∀ t t' : Fin cfg0.N, (cfg0.win 1).flush t = true → (cfg0.win 1).flush t' = true → t ≠ t' →
    Disjoint ((cfg0.win 1).blk t).view.set ((cfg0.win 1).blk t').view.set := by
  intro t t' hf hf' hne
  have h7 := (flush0_1 t).mp hf
  have h7' := (flush0_1 t').mp hf'
  have hne' : t.val ≠ t'.val := fun e => hne (Fin.ext e)
  show Disjoint ((View.whole main_v1_0).slice (win0_1.rect t)).set ((View.whole main_v1_0).slice (win0_1.rect t')).set
  rw [View.set_slice_whole, View.set_slice_whole]
  refine Rect.unit_disjoint (0 : Fin 3) ?_
  show win0_1.index t 0 * 1 + 1 ≤ win0_1.index t' 0 * 1 ∨ win0_1.index t' 0 * 1 + 1 ≤ win0_1.index t 0 * 1
  rw [(index0_1 t).1, (index0_1 t').1]
  omega

/-- The matrix's likewise. -/
theorem flush_disj2 : ∀ t t' : Fin cfg0.N, (cfg0.win 2).flush t = true → (cfg0.win 2).flush t' = true → t ≠ t' →
    Disjoint ((cfg0.win 2).blk t).view.set ((cfg0.win 2).blk t').view.set := by
  intro t t' hf hf' hne
  have h7 := (flush0_2 t).mp hf
  have h7' := (flush0_2 t').mp hf'
  have hne' : t.val ≠ t'.val := fun e => hne (Fin.ext e)
  show Disjoint ((View.whole main_v1_1).slice (win0_2.rect t)).set ((View.whole main_v1_1).slice (win0_2.rect t')).set
  rw [View.set_slice_whole, View.set_slice_whole]
  refine Rect.unit_disjoint (0 : Fin 3) ?_
  show win0_2.index t 0 * 1 + 1 ≤ win0_2.index t' 0 * 1 ∨ win0_2.index t' 0 * 1 + 1 ≤ win0_2.index t 0 * 1
  rw [(index0_2 t).1, (index0_2 t').1]
  omega

/-- Block `p` of the column array after the run is what the last point of `p`'s run of eight left in the staging buffer. -/
theorem arrAt0_1_flushed (c : Dev nD) (p : Fin 2) (g : Fin 64) (hp : 8 * p.val + 7 < cfg0.N) :
    colOut V c (ix3 p g (0 : Fin 1)) = (outs0 V c (8 * p.val + 7) hp).1 (ix3 (0 : Fin 1) g (0 : Fin 1)) := by
  have hf : (cfg0.win 1).flush ⟨8 * p.val + 7, hp⟩ = true := (flush0_1 _).mpr (by show (8 * p.val + 7) % 8 = 7; omega)
  have h := (dat0 V c).arrAt_emb_eq_flushed 1 flush_disj1 ⟨8 * p.val + 7, hp⟩ hf (ix3 (0 : Fin 1) g (0 : Fin 1))
  have he : ((cfg0.win 1).blk ⟨8 * p.val + 7, hp⟩).view.emb (ix3 (0 : Fin 1) g (0 : Fin 1)) = ix3 p g (0 : Fin 1) := by
    funext a
    apply Fin.ext
    match a with
    | ⟨0, _⟩ => show win0_1.index ⟨8 * p.val + 7, hp⟩ 0 * 1 + 1 * 0 = p.val; rw [(index0_1 _).1]; show (8 * p.val + 7) / 8 * 1 + 1 * 0 = p.val; omega
    | ⟨1, _⟩ => show win0_1.index ⟨8 * p.val + 7, hp⟩ 1 * 64 + 1 * g.val = g.val; rw [(index0_1 _).2.1]; omega
    | ⟨2, _⟩ => show win0_1.index ⟨8 * p.val + 7, hp⟩ 2 * 1 + 1 * 0 = 0; rw [(index0_1 _).2.2]
  rw [he] at h
  refine h.trans ?_
  show (dat0 V c).after 1 ⟨8 * p.val + 7, hp⟩ _ = _
  rw [after0_1]
  exact congrArg _ (funext fun a => Fin.ext rfl)

/-- Block `p` of the matrix array likewise. -/
theorem arrAt0_2_flushed (c : Dev nD) (p : Fin 2) (g g' : Fin 64) (hp : 8 * p.val + 7 < cfg0.N) :
    matOut V c (ix3 p g g') = (outs0 V c (8 * p.val + 7) hp).2 (ix3 (0 : Fin 1) g g') := by
  have hf : (cfg0.win 2).flush ⟨8 * p.val + 7, hp⟩ = true := (flush0_2 _).mpr (by show (8 * p.val + 7) % 8 = 7; omega)
  have h := (dat0 V c).arrAt_emb_eq_flushed 2 flush_disj2 ⟨8 * p.val + 7, hp⟩ hf (ix3 (0 : Fin 1) g g')
  have he : ((cfg0.win 2).blk ⟨8 * p.val + 7, hp⟩).view.emb (ix3 (0 : Fin 1) g g') = ix3 p g g' := by
    funext a
    apply Fin.ext
    match a with
    | ⟨0, _⟩ => show win0_2.index ⟨8 * p.val + 7, hp⟩ 0 * 1 + 1 * 0 = p.val; rw [(index0_2 _).1]; show (8 * p.val + 7) / 8 * 1 + 1 * 0 = p.val; omega
    | ⟨1, _⟩ => show win0_2.index ⟨8 * p.val + 7, hp⟩ 1 * 64 + 1 * g.val = g.val; rw [(index0_2 _).2.1]; omega
    | ⟨2, _⟩ => show win0_2.index ⟨8 * p.val + 7, hp⟩ 2 * 64 + 1 * g'.val = g'.val; rw [(index0_2 _).2.2]; omega
  rw [he] at h
  refine h.trans ?_
  show (dat0 V c).after 2 ⟨8 * p.val + 7, hp⟩ _ = _
  rw [after0_2]
  exact congrArg _ (funext fun a => Fin.ext rfl)

/-! ## The fold over a run of eight points, read at an index -/

/-- The input block at point `n`, as a sixteen-row vector. -/
def xblk (c : Dev nD) (n : ℕ) (h : n < cfg0.N) : Vec Ideal S16x64x3136 .f32 := iblk0 V c 0 ⟨n, h⟩

/-- What point `n` adds to the column at an index: the lane sums of the sixteen rows of its input block. -/
def add1 (c : Dev nD) (n : ℕ) (i : S1x64x1.Idx) : Ideal .f32 :=
  if h : n < cfg0.N then ∑ k : Fin 16, ∑ l : Fin 3136, xblk V c n h (ix3 k (i 1 : Fin 64) l) else 0

/-- What point `n` adds to the matrix at an index: the inner products of its block's sixteen rows. -/
def add2 (c : Dev nD) (n : ℕ) (i : S1x64x64.Idx) : Ideal .f32 :=
  if h : n < cfg0.N then ∑ k : Fin 16, ∑ l : Fin 3136, xblk V c n h (ix3 k (i 1 : Fin 64) l) * xblk V c n h (ix3 k (i 2 : Fin 64) l)
  else 0

theorem reset1_apply (c : Dev nD) (n : ℕ) (hn : n < cfg0.N) (i : S1x64x1.Idx) : reset1 V c n hn i = 0 + add1 V c n i := by
  unfold reset1 add1 xblk; rw [acc1_apply, pay1_apply, dif_pos hn]
theorem step1_apply (c : Dev nD) (n : ℕ) (hn : n < cfg0.N) (acc : Vec Ideal S1x64x1 .f32) (i : S1x64x1.Idx) :
    step1 V c n hn acc i = acc i + add1 V c n i := by
  unfold step1 add1 xblk; rw [acc1_apply, dif_pos hn]
theorem reset2_apply (c : Dev nD) (n : ℕ) (hn : n < cfg0.N) (i : S1x64x64.Idx) : reset2 V c n hn i = 0 + add2 V c n i := by
  unfold reset2 add2 xblk; rw [acc2_apply, pay2_apply, dif_pos hn]
theorem step2_apply (c : Dev nD) (n : ℕ) (hn : n < cfg0.N) (acc : Vec Ideal S1x64x64 .f32) (i : S1x64x64.Idx) :
    step2 V c n hn acc i = acc i + add2 V c n i := by
  unfold step2 add2 xblk; rw [acc2_apply, dif_pos hn]

/-- The column at the last point of run `p`: the eight points' addends. -/
theorem outs0_fst_apply (c : Dev nD) (p : Fin 2) (hp : 8 * p.val + 7 < cfg0.N) (i : S1x64x1.Idx) :
    (outs0 V c (8 * p.val + 7) hp).1 i = ∑ s ∈ Finset.range 8, add1 V c (8 * p.val + s) i := by
  have h : (outs0 V c (8 * p.val + 7) hp).1 = Pipeline.accAt (reset1 V c) (step1 V c) (8 * p.val) 7 hp :=
    Pipeline.eq_accAt (fun n h => (outs0 V c n h).1) 8 (reset1 V c) (step1 V c) (outs0_reset_fst V c) (outs0_step_fst V c) p.val 7 (by decide) hp
  rw [h, Pipeline.accAt_add_apply (reset1 V c) (step1 V c) (fun _ => 0) (add1 V c) (8 * p.val) 7
      (fun h i => reset1_apply V c _ h i) (fun n h acc i _ _ => step1_apply V c n h acc i) 7 le_rfl hp i, zero_add]

/-- The matrix likewise. -/
theorem outs0_snd_apply (c : Dev nD) (p : Fin 2) (hp : 8 * p.val + 7 < cfg0.N) (i : S1x64x64.Idx) :
    (outs0 V c (8 * p.val + 7) hp).2 i = ∑ s ∈ Finset.range 8, add2 V c (8 * p.val + s) i := by
  have h : (outs0 V c (8 * p.val + 7) hp).2 = Pipeline.accAt (reset2 V c) (step2 V c) (8 * p.val) 7 hp :=
    Pipeline.eq_accAt (fun n h => (outs0 V c n h).2) 8 (reset2 V c) (step2 V c) (outs0_reset_snd V c) (outs0_step_snd V c) p.val 7 (by decide) hp
  rw [h, Pipeline.accAt_add_apply (reset2 V c) (step2 V c) (fun _ => 0) (add2 V c) (8 * p.val) 7
      (fun h i => reset2_apply V c _ h i) (fun n h acc i _ _ => step2_apply V c n h acc i) 7 le_rfl hp i, zero_add]

/-! ## The final arrays at an index: plain sums over the 128 rows of the block pair -/

/-- THE COLUMN ARRAY after the run, at `(p, g, ·)`: the sum, over the eight points of `p`'s run, the sixteen rows of each
    point's block and the 3136 lanes, of the input array's lane `g` — rows `128 p … 128 p + 127`. -/
theorem arrAt0_1_apply (c : Dev nD) (p : Fin 2) (g : Fin 64) (u : Fin 1) :
    colOut V c (ix3 p g u)
      = ∑ j : Fin 8, ∑ k : Fin 16, ∑ l : Fin 3136,
          xin V c (ix3 (⟨(p.val * 8 + j.val) * 16 + k.val, by omega⟩ : Fin 256) g l) := by
  obtain rfl : u = 0 := Subsingleton.elim _ _
  have hN : cfg0.N = 16 := N_0
  have hp : 8 * p.val + 7 < cfg0.N := by rw [hN]; omega
  refine (arrAt0_1_flushed V c p g hp).trans ?_
  rw [outs0_fst_apply V c p hp, Finset.sum_range]
  refine Finset.sum_congr rfl fun j _ => ?_
  have hj : 8 * p.val + j.val < cfg0.N := by rw [hN]; omega
  unfold add1
  rw [dif_pos hj]
  refine Finset.sum_congr rfl fun k _ => Finset.sum_congr rfl fun l _ => ?_
  unfold xblk
  refine (iblk0_apply V c ⟨8 * p.val + j.val, hj⟩ k g l (by show (8 * p.val + j.val) * 16 + k.val < 256; omega)).trans ?_
  exact congrArg (fun r : Fin 256 => xin V c (ix3 r g l))
    (Fin.ext (by show (8 * p.val + j.val) * 16 + k.val = (p.val * 8 + j.val) * 16 + k.val; omega))

/-- THE MATRIX ARRAY after the run, at `(p, g, g')`: the sum over the same 128 rows and the lanes of the products of the
    input array's lanes `g` and `g'`. -/
theorem arrAt0_2_apply (c : Dev nD) (p : Fin 2) (g g' : Fin 64) :
    matOut V c (ix3 p g g')
      = ∑ j : Fin 8, ∑ k : Fin 16, ∑ l : Fin 3136,
          xin V c (ix3 (⟨(p.val * 8 + j.val) * 16 + k.val, by omega⟩ : Fin 256) g l)
            * xin V c (ix3 (⟨(p.val * 8 + j.val) * 16 + k.val, by omega⟩ : Fin 256) g' l) := by
  have hN : cfg0.N = 16 := N_0
  have hp : 8 * p.val + 7 < cfg0.N := by rw [hN]; omega
  refine (arrAt0_2_flushed V c p g g' hp).trans ?_
  rw [outs0_snd_apply V c p hp, Finset.sum_range]
  refine Finset.sum_congr rfl fun j _ => ?_
  have hj : 8 * p.val + j.val < cfg0.N := by rw [hN]; omega
  unfold add2
  rw [dif_pos hj]
  refine Finset.sum_congr rfl fun k _ => Finset.sum_congr rfl fun l _ => ?_
  unfold xblk
  have hr : (8 * p.val + j.val) * 16 + k.val < 256 := by omega
  have e : (⟨(8 * p.val + j.val) * 16 + k.val, hr⟩ : Fin 256) = ⟨(p.val * 8 + j.val) * 16 + k.val, by omega⟩ :=
    Fin.ext (by show (8 * p.val + j.val) * 16 + k.val = (p.val * 8 + j.val) * 16 + k.val; omega)
  have h1 := iblk0_apply V c ⟨8 * p.val + j.val, hj⟩ k g l hr
  have h2 := iblk0_apply V c ⟨8 * p.val + j.val, hj⟩ k g' l hr
  rw [e] at h1 h2
  exact congrArg₂ (· * ·) h1 h2

end Cert.KernelIdeal.Hand

end
-- ==== Proof.Finite.lean ====
/-
  From the certificate's precondition to "every input entry is a real number".

  The precondition is a conjunction of three tests `all (|a| < +∞)`, one per float argument. At the ideal
  instance a float is an extended real, the absolute value is `max a (-a)`, and the pattern `0x7F800000`
  denotes `⊤`. An extended real whose absolute value lies strictly below `⊤` is neither `⊤` nor `⊥`,
  hence the image of a real.
-/
import proofs.«165382_j37855841747396_2_alg».proof.Defs
import proofs.«165382_j37855841747396_2_alg».proof.Proof.Gen.Pre_finite_inputs
import Idealize.ShloMosaic.Lib.ReduceAll
import Idealize.ShloMosaic.Lib.ValueIdx
import Idealize.ShloMosaic.PureOps.Ideal

noncomputable section

namespace Cert.Hand.Finite

open Idealize.ShloMosaic Idealize.SL.Sem
open Cert.Pre_finite_inputs

/-- The scalar shape has exactly one index: a function out of the empty type of axes. -/
instance subsingleton_scalarIdx : Subsingleton S_.Idx := ⟨fun a b => funext fun d => d.elim0⟩

/-- The `f32` pattern `0x7F800000` (sign 0, exponent all ones, fraction 0) denotes `+∞`. -/
theorem ofBits_posInf : Ideal.ofBits .f32 0x7F800000#32 = (⊤ : EReal) := by
  simp [Ideal.ofBits, Ideal.ieee]

/-- An extended real whose absolute value `max a (-a)` is strictly below `⊤` is a real number:
    at `⊥` the maximum is `-⊥ = ⊤`, at `⊤` it is `⊤` itself. -/
theorem real_of_abs_lt_top (a : EReal) (h : max a (-a) < ⊤) : ∃ r : ℝ, a = (r : EReal) := by
  induction a using EReal.rec with
  | bot => simp at h
  | coe r => exact ⟨r, rfl⟩
  | top => simp at h

/-- A one-bit word made from a Boolean is 1 only if the Boolean is true. -/
theorem bool_of_ofBool_eq_one : ∀ c : Bool, BitVec.ofBool c = 1#1 → c = true := by decide

/-- The elementwise test of the precondition, read back: if the ordered comparison `|a| < +∞` answers 1,
    then `a` is a real number. -/
theorem real_of_test (a : Ideal .f32)
    (h : FloatOps.cmpf (F := Ideal) .olt (FloatOps.hostAbsf a) (FloatOps.ofBits (F := Ideal) .f32 0x7F800000#32) = 1#1) :
    ∃ r : ℝ, a = (r : EReal) := by
  refine real_of_abs_lt_top a ?_
  have h' : BitVec.ofBool (decide (max a (-a) < (⊤ : EReal))) = 1#1 := by
    rw [← ofBits_posInf]; exact h
  exact of_decide_eq_true (bool_of_ofBool_eq_one _ h')

/-- If the certificate's precondition answers 1 on three argument arrays at the ideal instance, every entry of each
    array is a real number. The predicate is `(all₀ ∧ all₁) ∧ all₂`, each `allₖ` a reduction by `and` over
    all axes of the elementwise test `|a| < +∞` on the k-th array. -/
theorem finite_of_pre [Cert.Pre_finite_inputs.Facts]
    (x : FVec Ideal S64x256x56x56 .f32) (w : FVec Ideal S64x64 .f32) (b : FVec Ideal S64x1 .f32)
    (h : Cert.Pre_finite_inputs.fn (F := Ideal) x w b = fun _ => 1#1) :
    (∀ i, ∃ r : ℝ, x i = (r : EReal)) ∧ (∀ i, ∃ r : ℝ, w i = (r : EReal)) ∧ (∀ i, ∃ r : ℝ, b i = (r : EReal)) := by
  have h0 := congrFun h ValueIdx.ix0
  dsimp only [Cert.Pre_finite_inputs.fn] at h0
  obtain ⟨hxw, hb⟩ := IntOp.andi_eq_one.1 h0
  obtain ⟨hx, hw⟩ := IntOp.andi_eq_one.1 hxw
  exact ⟨fun i => real_of_test (x i) (Host.reduce_andi_all _ _ _ _ _ hx i),
    fun i => real_of_test (w i) (Host.reduce_andi_all _ _ _ _ _ hw i),
    fun i => real_of_test (b i) (Host.reduce_andi_all _ _ _ _ _ hb i)⟩

/-- The same at the idealized kernel's precondition: on every device, every entry of each of the three argument
    buffers of an admitted initial memory is a real number. -/
theorem finite_of_Pre_KernelIdeal [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) :=
  finite_of_pre _ _ _ (h c)

end Cert.Hand.Finite

end
-- ==== Proof.KI.HostRead.lean ====
/-
  The statistics between the two launches, read at an index at the ideal values: the mean column is the two partial
  column sums added and divided by the sample count 802816 = 256·56·56, and the covariance at (g, g') is the two partial
  second-moment sums added and divided by the count, minus the product of the means of g and g', plus the regulariser's
  entry there.
-/
import proofs.«165382_j37855841747396_2_alg».proof.Proof.KI.HostDefs
import proofs.«165382_j37855841747396_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Idealize.ShloMosaic Idealize.ShloMosaic.ValueIdx
open Cert.KernelIdeal.Gen

/-! ## The two float words of the statistics -/

/-- The word of the sample count denotes the real 802816: exponent 2^19, significand 1.53125. -/
theorem count_eq : Ideal.ofBits .f32 0x49440000#32 = ((802816 : ℝ) : EReal) := by
  simp [Ideal.ofBits, Ideal.ieee, -EReal.coe_mul]; norm_num

/-- The zero word denotes 0. -/
theorem zero_eq : Ideal.ofBits .f32 0x00000000#32 = 0 := Ideal.ofBits_zero_f32

/-! ## Which source index a reduced index and a coordinate name, for a stack of matrices summed over the stack -/

/-- Reducing `[a, b, c]` along axis 0: over `(g, u)`, coordinate `k` put back is `(k, g, u)`. -/
theorem lift3_axis0 {a b c : ℕ} (h : (⟨3, ![a, b, c]⟩ : Shape).Reduces [0] (⟨2, ![b, c]⟩ : Shape)) (g : Fin b) (u : Fin c)
    (k : Fin ((⟨3, ![a, b, c]⟩ : Shape).size 0)) : h.lift (ix2 g u) k = ix3 (⟨k.val, k.isLt⟩ : Fin a) g u := by
  funext d; apply Fin.ext
  fin_cases d <;> rfl

/-- The host's sum of a stack of matrices over the stack is, at `(g, u)`, the initial value plus the sum of the entries there. -/
theorem hostSumAxis0_apply {a b c : ℕ} (x : FVec Ideal ⟨3, ![a, b, c]⟩ .f32) (init : EReal)
    (h' : (⟨3, ![a, b, c]⟩ : Shape).ReducesTo [0] (⟨2, ![b, c]⟩ : Shape))
    (h : (⟨3, ![a, b, c]⟩ : Shape).Reduces [0] (⟨2, ![b, c]⟩ : Shape)) (g : Fin b) (u : Fin c) :
    Ideal.hostReduceAdd h' x init (ix2 g u) = init + ∑ p : Fin a, x (ix3 p g u) :=
  (Ideal.hostReduceAdd_single h' h x init (ix2 g u)).trans
    (congrArg (init + ·) (Finset.sum_congr rfl fun k _ => congrArg x (lift3_axis0 h g u k)))

/-- The two partial column sums reduce over the stack axis to the column. -/
theorem reduces_S2x64x1_S64x1 : S2x64x1.Reduces [0] S64x1 := by decide
/-- The two partial second-moment sums reduce over the stack axis to the matrix. -/
theorem reduces_S2x64x64_S64x64 : S2x64x64.Reduces [0] S64x64 := by decide

/-! ## The mean column -/

/-- The mean of channel `g`: the two partial sums added, over the sample count. -/
theorem meanOf_apply (s1p : FVec Ideal S2x64x1 .f32) (g : Fin 64) (u : Fin 1) :
    meanOf s1p (ix2 g u) = Ideal.div (∑ p : Fin 2, s1p (ix3 p g u)) ((802816 : ℝ) : EReal) := by
  unfold meanOf
  show Ideal.div (Ideal.hostReduceAdd reducesTo_S2x64x1_S64x1_d0 s1p (Ideal.ofBits .f32 0x00000000#32) (ix2 g u))
      (broadcastInDim S64x1 ![] bcast_S_S64x1 (constant (F := Ideal) S_ .f32 0x49440000#32) (ix2 g u)) = _
  rw [hostSumAxis0_apply s1p _ reducesTo_S2x64x1_S64x1_d0 reduces_S2x64x1_S64x1 g u, zero_eq, zero_add,
    broadcastInDim_apply _ bcast_S_S64x1 _ (ix2 g u) ix0 (fun a => a.elim0)]
  show Ideal.div _ (Ideal.ofBits .f32 0x49440000#32) = _
  rw [count_eq]

/-! ## The product of the mean column with its transpose -/

/-- The left operand's row is the output's row. -/
theorem outer_lhs_0 (i : S64x64.Idx) (q : Cert.KernelIdeal.dot_S64x1_S1x64_S64x64_1_0_0_1_n_n.contr.Idx) :
    (Cert.KernelIdeal.dot_S64x1_S1x64_S64x64_1_0_0_1_n_n.lhsIdx i q 0).val = (i 0).val := by
  unfold DotDims.lhsIdx
  rw [dif_neg (show ¬(0 : Fin S64x1.rank) ∈ Cert.KernelIdeal.dot_S64x1_S1x64_S64x64_1_0_0_1_n_n.lhsBatch by decide),
    dif_pos (show (0 : Fin S64x1.rank) ∈ Cert.KernelIdeal.dot_S64x1_S1x64_S64x64_1_0_0_1_n_n.lhsNonContracting by decide)]
  rfl

/-- The left operand's column is the contracted coordinate. -/
theorem outer_lhs_1 (i : S64x64.Idx) (q : Cert.KernelIdeal.dot_S64x1_S1x64_S64x64_1_0_0_1_n_n.contr.Idx) :
    (Cert.KernelIdeal.dot_S64x1_S1x64_S64x64_1_0_0_1_n_n.lhsIdx i q 1).val = (q ⟨0, by decide⟩).val :=
  Cert.KernelIdeal.dot_S64x1_S1x64_S64x64_1_0_0_1_n_n.lhsIdx_val_of_single rfl i q

/-- The right operand's row is the contracted coordinate. -/
theorem outer_rhs_0 (i : S64x64.Idx) (q : Cert.KernelIdeal.dot_S64x1_S1x64_S64x64_1_0_0_1_n_n.contr.Idx) :
    (Cert.KernelIdeal.dot_S64x1_S1x64_S64x64_1_0_0_1_n_n.rhsIdx i q 0).val = (q ⟨0, by decide⟩).val :=
  Cert.KernelIdeal.dot_S64x1_S1x64_S64x64_1_0_0_1_n_n.rhsIdx_val_of_single rfl i q

/-- The right operand's column is the output's column. -/
theorem outer_rhs_1 (i : S64x64.Idx) (q : Cert.KernelIdeal.dot_S64x1_S1x64_S64x64_1_0_0_1_n_n.contr.Idx) :
    (Cert.KernelIdeal.dot_S64x1_S1x64_S64x64_1_0_0_1_n_n.rhsIdx i q 1).val = (i 1).val := by
  unfold DotDims.rhsIdx
  rw [dif_neg (show ¬(1 : Fin S1x64.rank) ∈ Cert.KernelIdeal.dot_S64x1_S1x64_S64x64_1_0_0_1_n_n.rhsBatch by decide),
    dif_pos (show (1 : Fin S1x64.rank) ∈ Cert.KernelIdeal.dot_S64x1_S1x64_S64x64_1_0_0_1_n_n.rhsNonContracting by decide)]
  rfl

/-- A `[64, 1]` column times a `[1, 64]` row: one contracted coordinate, so the entry at `(g, g')` is the one product. -/
theorem outer_apply (c : FVec Ideal S64x1 .f32) (r : FVec Ideal S1x64 .f32) (g g' : Fin 64) :
    Host.dotGeneral Cert.KernelIdeal.dot_S64x1_S1x64_S64x64_1_0_0_1_n_n none c r (ix2 g g') = c (ix2 g 0) * r (ix2 0 g') := by
  simp only [Host.dotGeneral]
  rw [Ideal.dotGeneral_apply, ← Equiv.sum_comp (contrEquiv1 Cert.KernelIdeal.dot_S64x1_S1x64_S64x64_1_0_0_1_n_n 1 rfl rfl).symm, Fin.sum_univ_one]
  have hk := contrEquiv1_symm_val Cert.KernelIdeal.dot_S64x1_S1x64_S64x64_1_0_0_1_n_n 1 rfl rfl 0
  have el : Cert.KernelIdeal.dot_S64x1_S1x64_S64x64_1_0_0_1_n_n.lhsIdx (ix2 g g') ((contrEquiv1 Cert.KernelIdeal.dot_S64x1_S1x64_S64x64_1_0_0_1_n_n 1 rfl rfl).symm 0) = ix2 g 0 :=
    funext fun a => Fin.ext (by
      match a with
      | ⟨0, _⟩ => exact outer_lhs_0 _ _
      | ⟨1, _⟩ => exact (outer_lhs_1 _ _).trans hk)
  have er : Cert.KernelIdeal.dot_S64x1_S1x64_S64x64_1_0_0_1_n_n.rhsIdx (ix2 g g') ((contrEquiv1 Cert.KernelIdeal.dot_S64x1_S1x64_S64x64_1_0_0_1_n_n 1 rfl rfl).symm 0) = ix2 0 g' :=
    funext fun a => Fin.ext (by
      match a with
      | ⟨0, _⟩ => exact (outer_rhs_0 _ _).trans hk
      | ⟨1, _⟩ => exact outer_rhs_1 _ _)
  rw [el, er]

/-- The transposed column reads, at `(0, g')`, the column's entry `g'`. -/
theorem transpose_col_apply (c : FVec Ideal S64x1 .f32) (g' : Fin 64) :
    transpose S1x64 [1, 0] c transposes_S64x1_S1x64_1_0 (ix2 0 g') = c (ix2 g' 0) :=
  transpose_apply _ c transposes_S64x1_S1x64_1_0 (ix2 0 g') (ix2 g' 0) (fun b => by
    match b with
    | ⟨0, _⟩ => rfl
    | ⟨1, _⟩ => rfl)

/-! ## The covariance -/

/-- A scalar spread over the matrix reads the scalar everywhere. -/
theorem bcastM_apply {F : FTy → Type} [FloatOps F] (x : FVec F S_ .f32) (i : S64x64.Idx) : bcastM x i = x ix0 := by
  unfold bcastM
  exact broadcastInDim_apply _ bcast_S_S64x64 x i ix0 (fun a => a.elim0)

/-- The covariance at `(g, g')`: the two partial second-moment sums added, over the sample count, minus the product of the
    two means, plus the regulariser's entry there (1e-5 times the identity matrix, left as the program's own term). -/
theorem covOf_apply (s1p : FVec Ideal S2x64x1 .f32) (s2p : FVec Ideal S2x64x64 .f32) (g g' : Fin 64) :
    covOf s1p s2p (ix2 g g')
      = (Ideal.div (∑ p : Fin 2, s2p (ix3 p g g')) ((802816 : ℝ) : EReal) - meanOf s1p (ix2 g 0) * meanOf s1p (ix2 g' 0))
        + (mulf (bcastM (constant S_ .f32 0x3727C5AC#32)) (eyeM (F := Ideal))) (ix2 g g') := by
  unfold covOf
  show (Ideal.div (Ideal.hostReduceAdd reducesTo_S2x64x64_S64x64_d0 s2p (Ideal.ofBits .f32 0x00000000#32) (ix2 g g'))
          (bcastM (constant (F := Ideal) S_ .f32 0x49440000#32) (ix2 g g'))
        - Host.dotGeneral Cert.KernelIdeal.dot_S64x1_S1x64_S64x64_1_0_0_1_n_n none (meanOf s1p)
            (transpose S1x64 [1, 0] (meanOf s1p) transposes_S64x1_S1x64_1_0) (ix2 g g'))
      + mulf (bcastM (constant S_ .f32 0x3727C5AC#32)) (eyeM (F := Ideal)) (ix2 g g') = _
  rw [hostSumAxis0_apply s2p _ reducesTo_S2x64x64_S64x64_d0 reduces_S2x64x64_S64x64 g g', zero_eq, zero_add,
    outer_apply, transpose_col_apply, bcastM_apply (constant (F := Ideal) S_ .f32 0x49440000#32) (ix2 g g')]
  show (Ideal.div _ (Ideal.ofBits .f32 0x49440000#32) - _) + _ = _
  rw [count_eq]

end Cert.KernelIdeal.Hand

end
-- ==== Proof.LibRegroup.lean ====
/-
  Two readings of one image batch, and the sums that go with them.

  An image batch \`x : [64, 256, 56, 56]\` (image \`n\`, channel \`c\`, row \`h\`, column \`w\`) has its 256 channels
  in 4 groups of 64: \`c = q·64 + g\`. Flattened row-major it can be read

  * PLAINLY as \`[256, 64, 3136]\`: entry \`(b, g, t)\` is the element at flat position \`(b·64 + g)·3136 + t\`; or
  * REGROUPED: cast to \`[64, 4, 64, 56, 56]\` \`(n, q, g, h, w)\`, the group axis brought to the front by the
    permutation \`[2, 0, 1, 3, 4]\` giving \`[64, 64, 4, 56, 56]\` \`(g, n, q, h, w)\`, then cast to the matrix
    \`[64, 802816]\` \`(g, m)\`.

  With \`b = n·4 + q\`, \`t = h·56 + w\` and \`m = b·3136 + t\` the two readings meet the SAME element of \`x\`, namely
  \`x (n, q·64 + g, h, w)\`: both flat positions are \`((n·256 + q·64 + g)·56 + h)·56 + w\` (\`regroup_apply\`). The
  way back — a matrix \`[64, 802816]\` cast to \`[64, 64, 4, 56, 56]\`, permuted by \`[1, 2, 0, 3, 4]\` to
  \`[64, 4, 64, 56, 56]\` and cast to \`[64, 256, 56, 56]\` — is therefore the plain cast of a \`[256, 64, 3136]\` array
  whose entry \`(b, g, t)\` is the matrix's \`(g, b·3136 + t)\` (\`regroup_back\`).

  A sum over the long axis \`m\` splits accordingly into the double sum over \`(b, t)\` (\`sum_regroup\`), and a sum over
  the 256 values of \`b\` into a triple sum over \`(p, j, k)\` with \`b = (p·8 + j)·16 + k\` (\`sum_rows\`).

  Everything is generic in the element type; all the arithmetic is linear in the coordinates once the quotients and
  remainders are named, so no index set is ever enumerated.
-/
import Idealize.ShloMosaic.Lib.Pipeline.Value
import Idealize.ShloMosaic.Lib.ValueIdx
import Idealize.ShloMosaic.Lib.ValueLayout

noncomputable section

open scoped BigOperators

namespace Cert.Lib.Regroup

open Idealize.ShloMosaic Idealize.ShloMosaic.ValueIdx

/-! ## The common element -/

section Element
variable {α : Type}

/-- The plain reading \`[256, 64, 3136]\` at \`(n·4 + q, g, h·56 + w)\` is \`x (n, q·64 + g, h, w)\`. -/
theorem plain_apply (x : (⟨4, ![64, 256, 56, 56]⟩ : Shape).Idx → α)
    (h3 : (⟨4, ![64, 256, 56, 56]⟩ : Shape).ShapeCasts ⟨3, ![256, 64, 3136]⟩)
    (n : Fin 64) (q : Fin 4) (g : Fin 64) (h : Fin 56) (w : Fin 56) :
    shapeCast ⟨3, ![256, 64, 3136]⟩ x h3
        (ix3 (⟨n.val * 4 + q.val, by omega⟩ : Fin 256) g (⟨h.val * 56 + w.val, by omega⟩ : Fin 3136))
      = x (ix4 n (⟨q.val * 64 + g.val, by omega⟩ : Fin 256) h w) :=
  shapeCast_apply x h3 _ _ (by
    rw [Shape.rowMajor_val_four, Shape.rowMajor_val_three]
    show ((n.val * 256 + (q.val * 64 + g.val)) * 56 + h.val) * 56 + w.val
      = ((n.val * 4 + q.val) * 64 + g.val) * 3136 + (h.val * 56 + w.val)
    omega)

/-- The regrouped reading \`[64, 802816]\` at \`(g, (n·4 + q)·3136 + h·56 + w)\` is \`x (n, q·64 + g, h, w)\`. -/
theorem regrouped_apply (x : (⟨4, ![64, 256, 56, 56]⟩ : Shape).Idx → α)
    (h1 : (⟨4, ![64, 256, 56, 56]⟩ : Shape).ShapeCasts ⟨5, ![64, 4, 64, 56, 56]⟩)
    (ht : (⟨5, ![64, 4, 64, 56, 56]⟩ : Shape).Transposes [2, 0, 1, 3, 4] ⟨5, ![64, 64, 4, 56, 56]⟩)
    (h2 : (⟨5, ![64, 64, 4, 56, 56]⟩ : Shape).ShapeCasts ⟨2, ![64, 802816]⟩)
    (n : Fin 64) (q : Fin 4) (g : Fin 64) (h : Fin 56) (w : Fin 56) :
    shapeCast ⟨2, ![64, 802816]⟩
        (transpose ⟨5, ![64, 64, 4, 56, 56]⟩ [2, 0, 1, 3, 4] (shapeCast ⟨5, ![64, 4, 64, 56, 56]⟩ x h1) ht) h2
        (ix2 g (⟨(n.val * 4 + q.val) * 3136 + (h.val * 56 + w.val), by omega⟩ : Fin 802816))
      = x (ix4 n (⟨q.val * 64 + g.val, by omega⟩ : Fin 256) h w) := by
  -- the matrix entry is entry (g, n, q, h, w) of the permuted array …
  refine (shapeCast_apply _ h2 _ (ix5 g n q h w) (by
    rw [Shape.rowMajor_val_five, Shape.rowMajor_val_two]
    show (((g.val * 64 + n.val) * 4 + q.val) * 56 + h.val) * 56 + w.val
      = g.val * 802816 + ((n.val * 4 + q.val) * 3136 + (h.val * 56 + w.val))
    omega)).trans ?_
  -- … which is entry (n, q, g, h, w) of the five-axis array …
  refine (transpose_apply _ _ ht _ (ix5 n q g h w) fun c =>
    match c with | ⟨0, _⟩ => rfl | ⟨1, _⟩ => rfl | ⟨2, _⟩ => rfl | ⟨3, _⟩ => rfl | ⟨4, _⟩ => rfl).trans ?_
  -- … which is entry (n, q·64 + g, h, w) of the batch.
  exact shapeCast_apply x h1 _ _ (by
    rw [Shape.rowMajor_val_four, Shape.rowMajor_val_five]
    show ((n.val * 256 + (q.val * 64 + g.val)) * 56 + h.val) * 56 + w.val
      = (((n.val * 4 + q.val) * 64 + g.val) * 56 + h.val) * 56 + w.val
    omega)

end Element

/-! ## The two readings agree -/

section Agree
variable {α : Type}

/-- **The regrouped matrix at \`(g, b·3136 + t)\` is the plain reading at \`(b, g, t)\`.** -/
theorem regroup_apply (x : (⟨4, ![64, 256, 56, 56]⟩ : Shape).Idx → α)
    (h1 : (⟨4, ![64, 256, 56, 56]⟩ : Shape).ShapeCasts ⟨5, ![64, 4, 64, 56, 56]⟩)
    (ht : (⟨5, ![64, 4, 64, 56, 56]⟩ : Shape).Transposes [2, 0, 1, 3, 4] ⟨5, ![64, 64, 4, 56, 56]⟩)
    (h2 : (⟨5, ![64, 64, 4, 56, 56]⟩ : Shape).ShapeCasts ⟨2, ![64, 802816]⟩)
    (h3 : (⟨4, ![64, 256, 56, 56]⟩ : Shape).ShapeCasts ⟨3, ![256, 64, 3136]⟩)
    (b : Fin 256) (g : Fin 64) (t : Fin 3136) :
    shapeCast ⟨2, ![64, 802816]⟩
        (transpose ⟨5, ![64, 64, 4, 56, 56]⟩ [2, 0, 1, 3, 4] (shapeCast ⟨5, ![64, 4, 64, 56, 56]⟩ x h1) ht) h2
        (ix2 g (⟨b.val * 3136 + t.val, by omega⟩ : Fin 802816))
      = shapeCast ⟨3, ![256, 64, 3136]⟩ x h3 (ix3 b g t) := by
  -- b = n·4 + q and t = h·56 + w
  obtain ⟨n, q, rfl⟩ : ∃ (n : Fin 64) (q : Fin 4), b = ⟨n.val * 4 + q.val, by omega⟩ :=
    ⟨⟨b.val / 4, by omega⟩, ⟨b.val % 4, by omega⟩, Fin.ext (by show b.val = b.val / 4 * 4 + b.val % 4; omega)⟩
  obtain ⟨h, w, rfl⟩ : ∃ (h : Fin 56) (w : Fin 56), t = ⟨h.val * 56 + w.val, by omega⟩ :=
    ⟨⟨t.val / 56, by omega⟩, ⟨t.val % 56, by omega⟩, Fin.ext (by show t.val = t.val / 56 * 56 + t.val % 56; omega)⟩
  exact (regrouped_apply x h1 ht h2 n q g h w).trans (plain_apply x h3 n q g h w).symm

/-- **The way back.** A matrix \`y : [64, 802816]\` cast to \`[64, 64, 4, 56, 56]\`, permuted by \`[1, 2, 0, 3, 4]\` and cast to
    \`[64, 256, 56, 56]\` is the plain cast of any \`z : [256, 64, 3136]\` with \`z (b, g, t) = y (g, b·3136 + t)\`. -/
theorem regroup_back (y : (⟨2, ![64, 802816]⟩ : Shape).Idx → α) (z : (⟨3, ![256, 64, 3136]⟩ : Shape).Idx → α)
    (h1' : (⟨2, ![64, 802816]⟩ : Shape).ShapeCasts ⟨5, ![64, 64, 4, 56, 56]⟩)
    (ht' : (⟨5, ![64, 64, 4, 56, 56]⟩ : Shape).Transposes [1, 2, 0, 3, 4] ⟨5, ![64, 4, 64, 56, 56]⟩)
    (h2' : (⟨5, ![64, 4, 64, 56, 56]⟩ : Shape).ShapeCasts ⟨4, ![64, 256, 56, 56]⟩)
    (h3' : (⟨3, ![256, 64, 3136]⟩ : Shape).ShapeCasts ⟨4, ![64, 256, 56, 56]⟩)
    (hyz : ∀ (b : Fin 256) (g : Fin 64) (t : Fin 3136),
      y (ix2 g (⟨b.val * 3136 + t.val, by omega⟩ : Fin 802816)) = z (ix3 b g t)) :
    shapeCast ⟨4, ![64, 256, 56, 56]⟩
        (transpose ⟨5, ![64, 4, 64, 56, 56]⟩ [1, 2, 0, 3, 4] (shapeCast ⟨5, ![64, 64, 4, 56, 56]⟩ y h1') ht') h2'
      = shapeCast ⟨4, ![64, 256, 56, 56]⟩ z h3' := by
  funext i
  -- the index is (n, c, h, w), and c = q·64 + g
  obtain ⟨n, c, h, w, rfl⟩ : ∃ (n : Fin 64) (c : Fin 256) (h : Fin 56) (w : Fin 56), i = ix4 n c h w :=
    ⟨i 0, i 1, i 2, i 3, eq_ix4 i⟩
  obtain ⟨q, g, rfl⟩ : ∃ (q : Fin 4) (g : Fin 64), c = ⟨q.val * 64 + g.val, by omega⟩ :=
    ⟨⟨c.val / 64, by omega⟩, ⟨c.val % 64, by omega⟩, Fin.ext (by show c.val = c.val / 64 * 64 + c.val % 64; omega)⟩
  -- the right side is z (n·4 + q, g, h·56 + w)
  have hR : shapeCast ⟨4, ![64, 256, 56, 56]⟩ z h3' (ix4 n (⟨q.val * 64 + g.val, by omega⟩ : Fin 256) h w)
      = z (ix3 (⟨n.val * 4 + q.val, by omega⟩ : Fin 256) g (⟨h.val * 56 + w.val, by omega⟩ : Fin 3136)) :=
    shapeCast_apply z h3' _ _ (by
      rw [Shape.rowMajor_val_three, Shape.rowMajor_val_four]
      show ((n.val * 4 + q.val) * 64 + g.val) * 3136 + (h.val * 56 + w.val)
        = ((n.val * 256 + (q.val * 64 + g.val)) * 56 + h.val) * 56 + w.val
      omega)
  rw [hR, ← hyz]
  -- the left side: entry (n, q, g, h, w) of the permuted array …
  refine (shapeCast_apply _ h2' _ (ix5 n q g h w) (by
    rw [Shape.rowMajor_val_five, Shape.rowMajor_val_four]
    show (((n.val * 4 + q.val) * 64 + g.val) * 56 + h.val) * 56 + w.val
      = ((n.val * 256 + (q.val * 64 + g.val)) * 56 + h.val) * 56 + w.val
    omega)).trans ?_
  -- … entry (g, n, q, h, w) of the five-axis array …
  refine (transpose_apply _ _ ht' _ (ix5 g n q h w) fun c =>
    match c with | ⟨0, _⟩ => rfl | ⟨1, _⟩ => rfl | ⟨2, _⟩ => rfl | ⟨3, _⟩ => rfl | ⟨4, _⟩ => rfl).trans ?_
  -- … entry (g, (n·4 + q)·3136 + h·56 + w) of the matrix.
  exact shapeCast_apply y h1' _ _ (by
    rw [Shape.rowMajor_val_two, Shape.rowMajor_val_five]
    show g.val * 802816 + ((n.val * 4 + q.val) * 3136 + (h.val * 56 + w.val))
      = (((g.val * 64 + n.val) * 4 + q.val) * 56 + h.val) * 56 + w.val
    omega)

end Agree

/-! ## The sums -/

section Sums
variable {M : Type} [AddCommMonoid M]

/-- The long axis is the pairs \`(b, t)\`: \`m = b·3136 + t\`. -/
def longEquiv : Fin 256 × Fin 3136 ≃ Fin 802816 where
  toFun p := ⟨p.1.val * 3136 + p.2.val, by have := p.1.isLt; have := p.2.isLt; omega⟩
  invFun m := (⟨m.val / 3136, by have := m.isLt; omega⟩, ⟨m.val % 3136, by omega⟩)
  left_inv p := by
    have h1 := p.1.isLt; have h2 := p.2.isLt
    refine Prod.ext (Fin.ext ?_) (Fin.ext ?_)
    · show (p.1.val * 3136 + p.2.val) / 3136 = p.1.val; omega
    · show (p.1.val * 3136 + p.2.val) % 3136 = p.2.val; omega
  right_inv m := Fin.ext (by show m.val / 3136 * 3136 + m.val % 3136 = m.val; omega)

/-- **A sum over the long axis is the double sum over \`(b, t)\`.** -/
theorem sum_regroup (f : Fin 802816 → M) :
    ∑ m, f m = ∑ b : Fin 256, ∑ t : Fin 3136, f ⟨b.val * 3136 + t.val, by omega⟩ := by
  rw [← Equiv.sum_comp longEquiv f, Fintype.sum_prod_type]
  rfl

/-- The 256 values of \`b\` are the triples \`(p, j, k)\`: \`b = (p·8 + j)·16 + k\`. -/
def rowsEquiv : Fin 2 × Fin 8 × Fin 16 ≃ Fin 256 where
  toFun p := ⟨(p.1.val * 8 + p.2.1.val) * 16 + p.2.2.val, by
    have := p.1.isLt; have := p.2.1.isLt; have := p.2.2.isLt; omega⟩
  invFun b := (⟨b.val / 128, by have := b.isLt; omega⟩, ⟨b.val / 16 % 8, by omega⟩, ⟨b.val % 16, by omega⟩)
  left_inv p := by
    have h1 := p.1.isLt; have h2 := p.2.1.isLt; have h3 := p.2.2.isLt
    refine Prod.ext (Fin.ext ?_) (Prod.ext (Fin.ext ?_) (Fin.ext ?_))
    · show ((p.1.val * 8 + p.2.1.val) * 16 + p.2.2.val) / 128 = p.1.val; omega
    · show ((p.1.val * 8 + p.2.1.val) * 16 + p.2.2.val) / 16 % 8 = p.2.1.val; omega
    · show ((p.1.val * 8 + p.2.1.val) * 16 + p.2.2.val) % 16 = p.2.2.val; omega
  right_inv b := Fin.ext (by
    show (b.val / 128 * 8 + b.val / 16 % 8) * 16 + b.val % 16 = b.val; omega)

/-- **A sum over the 256 values of \`b\` is the triple sum over \`(p, j, k)\`.** -/
theorem sum_rows (f : Fin 256 → M) :
    ∑ b, f b = ∑ p : Fin 2, ∑ j : Fin 8, ∑ k : Fin 16, f ⟨(p.val * 8 + j.val) * 16 + k.val, by omega⟩ := by
  rw [← Equiv.sum_comp rowsEquiv f, Fintype.sum_prod_type]
  refine Finset.sum_congr rfl fun p _ => ?_
  rw [Fintype.sum_prod_type]
  rfl

end Sums

end Cert.Lib.Regroup

end
-- ==== Proof.RI.Read.lean ====
/-
  The reference's functions read at an index, at the ideal (extended-real) instance.

  With the input regrouped to 64 rows of 802816 entries: a row's mean is the row's sum divided by 802816; a centred
  entry is the entry minus its row's mean; the covariance at (g, g') is the inner product of the centred rows g and g'
  divided by 802816, plus the ridge term; the output before it is regrouped back is, at (g, m), the whitening matrix's
  row g applied to column m of the centred rows, plus the bias of row g. And the regrouped input at (g, b·3136 + t) is
  the plain reading [256, 64, 3136] of the input at (b, g, t).
-/
import proofs.«165382_j37855841747396_2_alg».proof.Proof.RI.Defs
import proofs.«165382_j37855841747396_2_alg».proof.Proof.LibRegroup
import proofs.«165382_j37855841747396_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Hand

open Idealize.ShloMosaic Idealize.ShloMosaic.ValueIdx Cert.ReferenceIdeal Cert.ReferenceIdeal.Gen

/-! ## The count -/

/-- The divisor the program spells, 2¹⁹ · 1.53125, is the number of entries of a row. -/
theorem count_eq : Ideal.ofBits .f32 0x49440000#32 = ((802816 : ℝ) : EReal) := by
  simp [Ideal.ofBits, Ideal.ieee, -EReal.coe_mul]; norm_num

/-! ## The layout steps -/

/-- A column `[64, 1]` spread over `[64, 802816]` reads, at `(g, m)`, the column's entry of row `g`. -/
theorem spreadCol_apply {α : Type} (v : S64x1.Idx → α) (g : Fin 64) (m : Fin 802816) :
    broadcastInDim S64x802816 ![0, 1] bcast_S64x1_S64x802816_0_1 v (ix2 g m) = v (ix2 g (0 : Fin 1)) :=
  broadcastInDim_apply _ _ v (ix2 g m) (ix2 g (0 : Fin 1)) fun a =>
    match a with | ⟨0, _⟩ => rfl | ⟨1, _⟩ => rfl

/-- A vector `[64]` made a column `[64, 1]` reads, at `(g, u)`, the vector at `g`. -/
theorem asCol_apply {α : Type} (v : S64.Idx → α) (g : Fin 64) (u : Fin 1) :
    broadcastInDim S64x1 ![0] bcast_S64_S64x1_0 v (ix2 g u) = v (ix1 g) :=
  broadcastInDim_apply _ _ v (ix2 g u) (ix1 g) fun a => match a with | ⟨0, _⟩ => rfl

/-- The host's sum of a matrix along its columns is, at row `r`, the initial value plus the sum of that row. -/
theorem hostSumAxis1_apply {a b : ℕ} {u : Shape} {φ : FTy} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  exact congrArg (_ + ·) (Finset.sum_congr rfl fun k _ => congrArg x (Cert.LibColumn.lift_axis1 h r k))

/-! ## The means and the centred rows -/

/-- A row's mean is the row's sum divided by the number of its entries. -/
theorem meanR_apply (x : FVec Ideal S64x256x56x56 .f32) (g : Fin 64) (u : Fin 1) :
    meanR x (ix2 g u) = Ideal.div (∑ m : Fin 802816, regroup x (ix2 g m)) ((802816 : ℝ) : EReal) := by
  unfold meanR
  show Ideal.div _ _ = _
  refine congrArg₂ Ideal.div ?_ ?_
  · refine (asCol_apply _ g u).trans ?_
    refine (hostSumAxis1_apply (regroup x) _ reducesTo_S64x802816_S64_d1 (by decide) h_S_ g).trans ?_
    show Ideal.ofBits .f32 0x00000000#32 + _ = _
    rw [Ideal.ofBits_zero_f32, zero_add]
  · exact count_eq

/-- A centred entry is the entry minus its row's mean. -/
theorem centered_apply (x : FVec Ideal S64x256x56x56 .f32) (g : Fin 64) (m : Fin 802816) :
    centered x (ix2 g m) = regroup x (ix2 g m) - meanR x (ix2 g (0 : Fin 1)) := by
  unfold centered
  rw [subf_apply, spreadCol_apply]

/-! ## The covariance

The host multiplies the centred rows by their transpose, the left operand contracted along its second axis and the
right along its first. The four lemmas below say which operand coordinate each axis reads: a free axis reads an output
coordinate, the contracted axis the summation index. -/

theorem lhs_gram_0 (i : S64x64.Idx) (q : dot_S64x802816_S802816x64_S64x64_1_0_0_1_n_n.contr.Idx) :
    (dot_S64x802816_S802816x64_S64x64_1_0_0_1_n_n.lhsIdx i q 0).val = (i 0).val := by
  unfold DotDims.lhsIdx
  rw [dif_neg (show ¬(0 : Fin S64x802816.rank) ∈ dot_S64x802816_S802816x64_S64x64_1_0_0_1_n_n.lhsBatch by decide),
    dif_pos (show (0 : Fin S64x802816.rank) ∈ dot_S64x802816_S802816x64_S64x64_1_0_0_1_n_n.lhsNonContracting by decide)]
  rfl

theorem lhs_gram_1 (i : S64x64.Idx) (q : dot_S64x802816_S802816x64_S64x64_1_0_0_1_n_n.contr.Idx) :
    (dot_S64x802816_S802816x64_S64x64_1_0_0_1_n_n.lhsIdx i q 1).val = (q ⟨0, by decide⟩).val :=
  dot_S64x802816_S802816x64_S64x64_1_0_0_1_n_n.lhsIdx_val_of_single rfl i q

theorem rhs_gram_0 (i : S64x64.Idx) (q : dot_S64x802816_S802816x64_S64x64_1_0_0_1_n_n.contr.Idx) :
    (dot_S64x802816_S802816x64_S64x64_1_0_0_1_n_n.rhsIdx i q 0).val = (q ⟨0, by decide⟩).val :=
  dot_S64x802816_S802816x64_S64x64_1_0_0_1_n_n.rhsIdx_val_of_single rfl i q

theorem rhs_gram_1 (i : S64x64.Idx) (q : dot_S64x802816_S802816x64_S64x64_1_0_0_1_n_n.contr.Idx) :
    (dot_S64x802816_S802816x64_S64x64_1_0_0_1_n_n.rhsIdx i q 1).val = (i 1).val := by
  unfold DotDims.rhsIdx
  rw [dif_neg (show ¬(1 : Fin S802816x64.rank) ∈ dot_S64x802816_S802816x64_S64x64_1_0_0_1_n_n.rhsBatch by decide),
    dif_pos (show (1 : Fin S802816x64.rank) ∈ dot_S64x802816_S802816x64_S64x64_1_0_0_1_n_n.rhsNonContracting by decide)]
  rfl

/-- A 64 × 802816 matrix times an 802816 × 64 matrix is, at `(g, g')`, the sum over the long axis of the products. -/
theorem gram_apply (A : FVec Ideal S64x802816 .f32) (B : FVec Ideal S802816x64 .f32) (g : Fin 64) (g' : Fin 64) :
    Host.dotGeneral dot_S64x802816_S802816x64_S64x64_1_0_0_1_n_n none A B (ix2 g g') = ∑ k : Fin 802816, A (ix2 g k) * B (ix2 k g') := by
  simp only [Host.dotGeneral]
  rw [Ideal.dotGeneral_apply, ← Equiv.sum_comp (contrEquiv1 dot_S64x802816_S802816x64_S64x64_1_0_0_1_n_n 802816 rfl rfl).symm]
  refine Finset.sum_congr rfl fun k _ => ?_
  have hk := contrEquiv1_symm_val dot_S64x802816_S802816x64_S64x64_1_0_0_1_n_n 802816 rfl rfl k
  have el : dot_S64x802816_S802816x64_S64x64_1_0_0_1_n_n.lhsIdx (ix2 g g') ((contrEquiv1 dot_S64x802816_S802816x64_S64x64_1_0_0_1_n_n 802816 rfl rfl).symm k) = ix2 g k :=
    funext fun a => Fin.ext (by
      match a with
      | ⟨0, _⟩ => exact lhs_gram_0 _ _
      | ⟨1, _⟩ => exact (lhs_gram_1 _ _).trans hk)
  have er : dot_S64x802816_S802816x64_S64x64_1_0_0_1_n_n.rhsIdx (ix2 g g') ((contrEquiv1 dot_S64x802816_S802816x64_S64x64_1_0_0_1_n_n 802816 rfl rfl).symm k) = ix2 k g' :=
    funext fun a => Fin.ext (by
      match a with
      | ⟨0, _⟩ => exact (rhs_gram_0 _ _).trans hk
      | ⟨1, _⟩ => exact rhs_gram_1 _ _)
  rw [el, er]

/-- The covariance at `(g, g')`: the inner product of the centred rows `g` and `g'` divided by the number of a row's
    entries, plus the ridge term at `(g, g')`. -/
theorem covR_apply (x : FVec Ideal S64x256x56x56 .f32) (g g' : Fin 64) :
    covR x (ix2 g g')
      = Ideal.div (∑ m : Fin 802816, centered x (ix2 g m) * centered x (ix2 g' m)) ((802816 : ℝ) : EReal)
        + (mulf (broadcastInDim S64x64 ![] bcast_S_S64x64 (constant S_ .f32 0x3727C5AC#32)) (eyeM (F := Ideal))) (ix2 g g') := by
  unfold covR
  rw [addf_apply]
  refine congrArg (· + _) ?_
  show Ideal.div _ _ = _
  refine congrArg₂ Ideal.div ?_ count_eq
  refine (gram_apply _ _ g g').trans ?_
  exact Finset.sum_congr rfl fun m _ => by rw [transpose_ix2_apply]

/-! ## The output before it is regrouped back

The host multiplies the whitening matrix by the centred rows, the left operand contracted along its second axis and
the right along its first; again the four axis lemmas, then the product at an index. -/

theorem lhs_apply_0 (i : S64x802816.Idx) (q : dot_S64x64_S64x802816_S64x802816_1_0_0_1_n_n.contr.Idx) :
    (dot_S64x64_S64x802816_S64x802816_1_0_0_1_n_n.lhsIdx i q 0).val = (i 0).val := by
  unfold DotDims.lhsIdx
  rw [dif_neg (show ¬(0 : Fin S64x64.rank) ∈ dot_S64x64_S64x802816_S64x802816_1_0_0_1_n_n.lhsBatch by decide),
    dif_pos (show (0 : Fin S64x64.rank) ∈ dot_S64x64_S64x802816_S64x802816_1_0_0_1_n_n.lhsNonContracting by decide)]
  rfl

theorem lhs_apply_1 (i : S64x802816.Idx) (q : dot_S64x64_S64x802816_S64x802816_1_0_0_1_n_n.contr.Idx) :
    (dot_S64x64_S64x802816_S64x802816_1_0_0_1_n_n.lhsIdx i q 1).val = (q ⟨0, by decide⟩).val :=
  dot_S64x64_S64x802816_S64x802816_1_0_0_1_n_n.lhsIdx_val_of_single rfl i q

theorem rhs_apply_0 (i : S64x802816.Idx) (q : dot_S64x64_S64x802816_S64x802816_1_0_0_1_n_n.contr.Idx) :
    (dot_S64x64_S64x802816_S64x802816_1_0_0_1_n_n.rhsIdx i q 0).val = (q ⟨0, by decide⟩).val :=
  dot_S64x64_S64x802816_S64x802816_1_0_0_1_n_n.rhsIdx_val_of_single rfl i q

theorem rhs_apply_1 (i : S64x802816.Idx) (q : dot_S64x64_S64x802816_S64x802816_1_0_0_1_n_n.contr.Idx) :
    (dot_S64x64_S64x802816_S64x802816_1_0_0_1_n_n.rhsIdx i q 1).val = (i 1).val := by
  unfold DotDims.rhsIdx
  rw [dif_neg (show ¬(1 : Fin S64x802816.rank) ∈ dot_S64x64_S64x802816_S64x802816_1_0_0_1_n_n.rhsBatch by decide),
    dif_pos (show (1 : Fin S64x802816.rank) ∈ dot_S64x64_S64x802816_S64x802816_1_0_0_1_n_n.rhsNonContracting by decide)]
  rfl

/-- A 64 × 64 matrix times a 64 × 802816 matrix is, at `(g, m)`, the sum over `k` of the left factor at `(g, k)` times the
    right factor at `(k, m)`. -/
theorem matRows_apply (A : FVec Ideal S64x64 .f32) (B : FVec Ideal S64x802816 .f32) (g : Fin 64) (m : Fin 802816) :
    Host.dotGeneral dot_S64x64_S64x802816_S64x802816_1_0_0_1_n_n none A B (ix2 g m) = ∑ k : Fin 64, A (ix2 g k) * B (ix2 k m) := by
  simp only [Host.dotGeneral]
  rw [Ideal.dotGeneral_apply, ← Equiv.sum_comp (contrEquiv1 dot_S64x64_S64x802816_S64x802816_1_0_0_1_n_n 64 rfl rfl).symm]
  refine Finset.sum_congr rfl fun k _ => ?_
  have hk := contrEquiv1_symm_val dot_S64x64_S64x802816_S64x802816_1_0_0_1_n_n 64 rfl rfl k
  have el : dot_S64x64_S64x802816_S64x802816_1_0_0_1_n_n.lhsIdx (ix2 g m) ((contrEquiv1 dot_S64x64_S64x802816_S64x802816_1_0_0_1_n_n 64 rfl rfl).symm k) = ix2 g k :=
    funext fun a => Fin.ext (by
      match a with
      | ⟨0, _⟩ => exact lhs_apply_0 _ _
      | ⟨1, _⟩ => exact (lhs_apply_1 _ _).trans hk)
  have er : dot_S64x64_S64x802816_S64x802816_1_0_0_1_n_n.rhsIdx (ix2 g m) ((contrEquiv1 dot_S64x64_S64x802816_S64x802816_1_0_0_1_n_n 64 rfl rfl).symm k) = ix2 k m :=
    funext fun a => Fin.ext (by
      match a with
      | ⟨0, _⟩ => exact (rhs_apply_0 _ _).trans hk
      | ⟨1, _⟩ => exact rhs_apply_1 _ _)
  rw [el, er]

section AnyFloat
variable {F : FTy → Type} [FloatOps F]

/-- What the reference regroups back: the whitening matrix of the covariance applied to the centred rows, the bias
    added to each row. -/
def outPre (x : FVec F S64x256x56x56 .f32) (w : FVec F S64x64 .f32) (b : FVec F S64x1 .f32) : FVec F S64x802816 .f32 :=
  addf
    (Host.dotGeneral dot_S64x64_S64x802816_S64x802816_1_0_0_1_n_n none (whiten (covR x) w) (centered x))
    (broadcastInDim S64x802816 ![0, 1] bcast_S64x1_S64x802816_0_1 b)

/-- The reference's output is that, regrouped back. -/
theorem outR_eq (x : FVec F S64x256x56x56 .f32) (w : FVec F S64x64 .f32) (b : FVec F S64x1 .f32) :
    outR x w b = regroupBack (outPre x w b) := rfl

/-- The regrouped input at `(g, b·3136 + t)` is the plain reading `[256, 64, 3136]` of the input at `(b, g, t)`. -/
theorem regroup_read (x : FVec F S64x256x56x56 .f32)
    (h3 : (⟨4, ![64, 256, 56, 56]⟩ : Shape).ShapeCasts ⟨3, ![256, 64, 3136]⟩)
    (b : Fin 256) (g : Fin 64) (t : Fin 3136) :
    regroup x (ix2 g (⟨b.val * 3136 + t.val, by omega⟩ : Fin 802816))
      = shapeCast ⟨3, ![256, 64, 3136]⟩ x h3 (ix3 b g t) :=
  Cert.Lib.Regroup.regroup_apply x shapeCasts_S64x256x56x56_S64x4x64x56x56
    transposes_S64x4x64x56x56_S64x64x4x56x56_2_0_1_3_4 shapeCasts_S64x64x4x56x56_S64x802816 h3 b g t

end AnyFloat

/-- The output before it is regrouped back, at `(g, m)`: the whitening matrix's row `g` applied to column `m` of the
    centred rows, plus the bias of row `g`. -/
theorem outPre_apply (x : FVec Ideal S64x256x56x56 .f32) (w : FVec Ideal S64x64 .f32) (b : FVec Ideal S64x1 .f32)
    (g : Fin 64) (m : Fin 802816) :
    outPre x w b (ix2 g m)
      = (∑ k : Fin 64, whiten (covR x) w (ix2 g k) * centered x (ix2 k m)) + b (ix2 g (0 : Fin 1)) := by
  unfold outPre
  rw [addf_apply, matRows_apply, spreadCol_apply]

end Cert.ReferenceIdeal.Hand

end
-- ==== Proof.TailEq.lean ====
/-
  The two programs whiten with the same chain of host operations. From a covariance matrix and the weights both compute
  the Frobenius norm, scale the matrix by it, run ten Newton–Schulz steps T = ½(3I − ZY), Y ← YT, Z ← TZ from Z = I,
  divide Z by the root of the norm and multiply by the weights. The chains are the same operations with the same
  constants, so as functions of (covariance, weights) they are one function, at any float model.
-/
import proofs.«165382_j37855841747396_2_alg».proof.Proof.KI.HostDefs
import proofs.«165382_j37855841747396_2_alg».proof.Proof.RI.Defs

noncomputable section

namespace Cert.Hand.TailEq

open Idealize.ShloMosaic

variable {F : FTy → Type} [FloatOps F]

/-- The identity matrix is built the same way in both programs. -/
theorem eyeM_eq : Cert.ReferenceIdeal.Hand.eyeM (F := F) = Cert.KernelIdeal.Hand.eyeM := rfl

/-- One Newton–Schulz step is the same pair of products in both programs. -/
theorem nsStep_eq (Y Z : FVec F Cert.KernelIdeal.S64x64 .f32) :
    Cert.ReferenceIdeal.Hand.nsStep Y Z = Cert.KernelIdeal.Hand.nsStep Y Z := rfl

/-- The whitened weights are the same function of the covariance and the weights in both programs. -/
theorem whiten_eq (cov w : FVec F Cert.KernelIdeal.S64x64 .f32) :
    Cert.ReferenceIdeal.Hand.whiten cov w = Cert.KernelIdeal.Hand.whiten cov w := rfl

end Cert.Hand.TailEq

end
-- ==== Proof.LibCovariance.lean ====
/-
  The covariance of finitely many samples, two ways, over the reals and over the extended reals.

  For two features with rows x, y : κ → ℝ over a finite type κ of M samples, the mean of the products of the CENTERED
  rows, (∑ₘ (xₘ − x̄)(yₘ − ȳ)) / M with x̄ = (∑ x)/M, equals the mean of the products minus the product of the means,
  (∑ₘ xₘ yₘ)/M − x̄ ȳ  (§ A). The same identity holds over the extended reals [−∞, +∞] whenever every entry is finite,
  that is, the coercion of a real, and the count is the coercion of a nonzero real: every intermediate quantity is then
  the coercion of the corresponding real quantity (§ C), because the coercion ℝ → [−∞, +∞] commutes with finite sums,
  differences, products and quotients by a nonzero constant (§ B). § C states this both with the extended reals' own
  quotient x / y = x · y⁻¹ and with the quotient the ideal float instance uses, which differs from it only at y = 0.
-/
import Mathlib.Data.EReal.Basic
import Mathlib.Data.EReal.Operations
import Mathlib.Data.EReal.Inv
import Mathlib.Algebra.BigOperators.Group.Finset.Basic
import Mathlib.Algebra.BigOperators.Ring.Finset
import Mathlib.Data.Fintype.BigOperators
import Mathlib.Tactic.Ring
import Mathlib.Tactic.FieldSimp
import Mathlib.Tactic.Linarith
import Idealize.ShloMosaic.PureOps.Ideal
import Idealize.ShloMosaic.PureOps.Ideal.Laws

namespace Cert.Lib.Covariance

open scoped BigOperators
open Idealize.ShloMosaic

/-! ## A. Over the reals -/

section Real

variable {κ : Type*} [Fintype κ]

/-- The sum of the products of two rows centered at their means is the sum of the products minus the product of the
    sums over the count: ∑ₘ (xₘ − Sx/M)(yₘ − Sy/M) = ∑ₘ xₘ yₘ − Sx·Sy/M, where Sx = ∑ x, Sy = ∑ y and M ≠ 0 is the
    number of samples. -/
theorem centered_sum_eq (x y : κ → ℝ) (M : ℝ) (hM : M ≠ 0) (hcard : (Fintype.card κ : ℝ) = M) :
    ∑ m, (x m - (∑ n, x n) / M) * (y m - (∑ n, y n) / M)
      = (∑ m, x m * y m) - (∑ n, x n) * (∑ n, y n) / M := by
  have hexp : ∀ m, (x m - (∑ n, x n) / M) * (y m - (∑ n, y n) / M)
      = x m * y m - (∑ n, y n) / M * x m - (∑ n, x n) / M * y m + (∑ n, x n) / M * ((∑ n, y n) / M) := fun m => by ring
  simp only [hexp, Finset.sum_add_distrib, Finset.sum_sub_distrib, ← Finset.mul_sum, Finset.sum_const,
    Finset.card_univ, nsmul_eq_mul, hcard]
  field_simp
  ring

/-- The covariance of two features over M samples, two ways: the mean of the products of the rows centered at their
    means equals the mean of the products minus the product of the means. -/
theorem centered_gram_eq (x y : κ → ℝ) (M : ℝ) (hM : M ≠ 0) (hcard : (Fintype.card κ : ℝ) = M) :
    (∑ m, (x m - (∑ n, x n) / M) * (y m - (∑ n, y n) / M)) / M
      = (∑ m, x m * y m) / M - ((∑ n, x n) / M) * ((∑ n, y n) / M) := by
  rw [centered_sum_eq x y M hM hcard]
  field_simp

end Real

/-! ## B. The coercion of the reals into the extended reals commutes with the arithmetic

Each lemma is stated in the direction that moves the coercion OUTWARD (an operation on coerced reals is the coercion
of the real operation), so that rewriting with them turns an extended-real expression built from coerced reals into
one coerced real. `coe_sum` and its companions are the inward direction of the sums. -/

section Coe

variable {ι κ : Type*}

/-- The coercion ℝ → [−∞, +∞] as a homomorphism of additive monoids: it sends 0 to 0 and sums to sums. -/
def coeAddHom : ℝ →+ EReal := ⟨⟨Real.toEReal, EReal.coe_zero⟩, EReal.coe_add⟩

@[simp] theorem coeAddHom_apply (r : ℝ) : coeAddHom r = (r : EReal) := rfl

/-- The coercion of a finite sum of reals is the sum of the coercions. -/
theorem coe_sum (s : Finset ι) (f : ι → ℝ) : ((∑ i ∈ s, f i : ℝ) : EReal) = ∑ i ∈ s, ((f i : ℝ) : EReal) :=
  map_sum coeAddHom f s

/-- A finite sum of coerced reals is the coercion of the real sum. -/
theorem sum_coe (s : Finset ι) (f : ι → ℝ) : ∑ i ∈ s, ((f i : ℝ) : EReal) = ((∑ i ∈ s, f i : ℝ) : EReal) :=
  (coe_sum s f).symm

/-- Over a whole finite type: the coercion of the sum is the sum of the coercions. -/
theorem coe_sum_univ [Fintype ι] (f : ι → ℝ) : ((∑ i, f i : ℝ) : EReal) = ∑ i, ((f i : ℝ) : EReal) :=
  coe_sum Finset.univ f

/-- Over a whole finite type: a sum of coerced reals is the coercion of the real sum. -/
theorem sum_univ_coe [Fintype ι] (f : ι → ℝ) : ∑ i, ((f i : ℝ) : EReal) = ((∑ i, f i : ℝ) : EReal) :=
  sum_coe Finset.univ f

/-- A sum of extended reals each of which is known to be a coerced real is the coercion of the sum of those reals. -/
theorem sum_eq_coe (s : Finset ι) (F : ι → EReal) (f : ι → ℝ) (h : ∀ i ∈ s, F i = (f i : EReal)) :
    ∑ i ∈ s, F i = ((∑ i ∈ s, f i : ℝ) : EReal) := by
  rw [coe_sum]; exact Finset.sum_congr rfl h

/-- The same over a whole finite type. -/
theorem sum_univ_eq_coe [Fintype ι] (F : ι → EReal) (f : ι → ℝ) (h : ∀ i, F i = (f i : EReal)) :
    ∑ i, F i = ((∑ i, f i : ℝ) : EReal) :=
  sum_eq_coe Finset.univ F f fun i _ => h i

/-- The sum of two coerced reals is the coercion of their sum. -/
theorem add_coe (a b : ℝ) : (a : EReal) + (b : EReal) = ((a + b : ℝ) : EReal) := (EReal.coe_add a b).symm

/-- The difference of two coerced reals is the coercion of their difference. -/
theorem sub_coe (a b : ℝ) : (a : EReal) - (b : EReal) = ((a - b : ℝ) : EReal) := (EReal.coe_sub a b).symm

/-- The product of two coerced reals is the coercion of their product. -/
theorem mul_coe (a b : ℝ) : (a : EReal) * (b : EReal) = ((a * b : ℝ) : EReal) := (EReal.coe_mul a b).symm

/-- The negation of a coerced real is the coercion of its negation. -/
theorem neg_coe (a : ℝ) : -(a : EReal) = ((-a : ℝ) : EReal) := (EReal.coe_neg a).symm

/-- The inverse of a coerced real is the coercion of its inverse (both send 0 to 0). -/
theorem inv_coe (c : ℝ) : ((c : EReal))⁻¹ = ((c⁻¹ : ℝ) : EReal) := (EReal.coe_inv c).symm

/-- The extended reals' quotient x / y = x · y⁻¹ of two coerced reals is the coercion of the real quotient. (True for
    every divisor, 0 included: both sides are then 0; the lemmas below that need c ≠ 0 say so.) -/
theorem div_coe (a c : ℝ) : (a : EReal) / (c : EReal) = ((a / c : ℝ) : EReal) := (EReal.coe_div a c).symm

/-- A coerced real is 0 in the extended reals exactly when the real is 0. -/
theorem coe_ne_zero {c : ℝ} (hc : c ≠ 0) : (c : EReal) ≠ 0 := EReal.coe_ne_zero.mpr hc

/-- Iterated finite sums: the coercion of a double sum of reals is the double sum of the coercions. -/
theorem coe_sum_sum (s : Finset ι) (t : Finset κ) (f : ι → κ → ℝ) :
    ((∑ i ∈ s, ∑ j ∈ t, f i j : ℝ) : EReal) = ∑ i ∈ s, ∑ j ∈ t, ((f i j : ℝ) : EReal) := by
  rw [coe_sum]; exact Finset.sum_congr rfl fun i _ => coe_sum t (f i)

/-- Iterated finite sums of coerced reals are the coercion of the real double sum. -/
theorem sum_sum_coe (s : Finset ι) (t : Finset κ) (f : ι → κ → ℝ) :
    ∑ i ∈ s, ∑ j ∈ t, ((f i j : ℝ) : EReal) = ((∑ i ∈ s, ∑ j ∈ t, f i j : ℝ) : EReal) :=
  (coe_sum_sum s t f).symm

/-- The two orders of an iterated finite sum of extended reals agree (addition of extended reals is commutative and
    associative, at the infinities too). -/
theorem sum_comm (s : Finset ι) (t : Finset κ) (F : ι → κ → EReal) :
    ∑ i ∈ s, ∑ j ∈ t, F i j = ∑ j ∈ t, ∑ i ∈ s, F i j := Finset.sum_comm

/-- A sum of extended reals over a product of two finite types is the iterated sum. -/
theorem sum_prod [Fintype ι] [Fintype κ] (F : ι × κ → EReal) : ∑ p, F p = ∑ i, ∑ j, F (i, j) :=
  Fintype.sum_prod_type F

/-- … and in the other order of the two factors. -/
theorem sum_prod_right [Fintype ι] [Fintype κ] (F : ι × κ → EReal) : ∑ p, F p = ∑ j, ∑ i, F (i, j) :=
  Fintype.sum_prod_type_right F

/-- The coercion of a sum of reals over a product of two finite types is the iterated sum of the coercions. -/
theorem coe_sum_prod [Fintype ι] [Fintype κ] (f : ι × κ → ℝ) :
    ((∑ p, f p : ℝ) : EReal) = ∑ i, ∑ j, ((f (i, j) : ℝ) : EReal) := by
  rw [Fintype.sum_prod_type]; exact coe_sum_sum _ _ fun i j => f (i, j)

/-- Re-indexing a finite sum of extended reals along a bijection of the index types does not change it. -/
theorem sum_equiv [Fintype ι] [Fintype κ] (e : ι ≃ κ) (F : κ → EReal) : ∑ i, F (e i) = ∑ k, F k :=
  Equiv.sum_comp e F

/-- Re-indexing along a bijection, with the two summands given separately and equal along it. -/
theorem sum_equiv_of_eq [Fintype ι] [Fintype κ] (e : ι ≃ κ) (F : ι → EReal) (G : κ → EReal) (h : ∀ i, F i = G (e i)) :
    ∑ i, F i = ∑ k, G k :=
  Fintype.sum_equiv e F G h

/-- The same re-indexing for real sums (the real side of an identity whose two sides range over different index
    types of one size). -/
theorem real_sum_equiv_of_eq [Fintype ι] [Fintype κ] (e : ι ≃ κ) (f : ι → ℝ) (g : κ → ℝ) (h : ∀ i, f i = g (e i)) :
    ∑ i, f i = ∑ k, g k :=
  Fintype.sum_equiv e f g h

end Coe

/-! ## C. The same at the operations of the ideal float instance, and the covariance identity over the extended reals -/

section IdealOps

variable {φ : FTy}

/-- The ideal instance's quotient is the extended reals' own quotient x / y = x · y⁻¹ at every divisor other than 0,
    the infinities included (it differs from it only in what it answers at y = 0). -/
theorem ideal_div_eq_div (x : EReal) {y : EReal} (hy : y ≠ 0) : Ideal.div x y = x / y := by
  rw [Ideal.div, if_neg hy, div_eq_mul_inv]

/-- The ideal instance's quotient of a coerced real by a coerced NONZERO real is the coercion of the real quotient. -/
theorem ideal_div_coe (a : ℝ) {c : ℝ} (hc : c ≠ 0) : Ideal.div (a : EReal) (c : EReal) = ((a / c : ℝ) : EReal) := by
  rw [ideal_div_eq_div _ (coe_ne_zero hc), div_coe]

/-- The ideal instance's float addition of two coerced reals is the coercion of their sum. -/
theorem addf_coe (a b : ℝ) :
    FloatOps.addf (F := Ideal) (φ := φ) (a : EReal) (b : EReal) = ((a + b : ℝ) : EReal) := add_coe a b

/-- The ideal instance's float subtraction of two coerced reals is the coercion of their difference. -/
theorem subf_coe (a b : ℝ) :
    FloatOps.subf (F := Ideal) (φ := φ) (a : EReal) (b : EReal) = ((a - b : ℝ) : EReal) := sub_coe a b

/-- The ideal instance's float product of two coerced reals is the coercion of their product. -/
theorem mulf_coe (a b : ℝ) :
    FloatOps.mulf (F := Ideal) (φ := φ) (a : EReal) (b : EReal) = ((a * b : ℝ) : EReal) := mul_coe a b

/-- The ideal instance's kernel-side float quotient of a coerced real by a coerced nonzero real is the coercion of
    the real quotient. -/
theorem divf_coe (a : ℝ) {c : ℝ} (hc : c ≠ 0) :
    FloatOps.divf (F := Ideal) (φ := φ) (a : EReal) (c : EReal) = ((a / c : ℝ) : EReal) := ideal_div_coe a hc

/-- The ideal instance's host-side float quotient of a coerced real by a coerced nonzero real is the coercion of the
    real quotient. -/
theorem hostDivf_coe (a : ℝ) {c : ℝ} (hc : c ≠ 0) :
    FloatOps.hostDivf (F := Ideal) (φ := φ) (a : EReal) (c : EReal) = ((a / c : ℝ) : EReal) := ideal_div_coe a hc

end IdealOps

section EReal

variable {κ : Type*} [Fintype κ]

/-- With the extended reals' own quotient: for finite rows (coerced reals x, y) and a nonzero real count, the mean of
    the products of the centered rows IS the coercion of the real one. -/
theorem centered_gram_coe (x y : κ → ℝ) (Mr : ℝ) :
    (∑ m, ((x m : EReal) - (∑ n, (x n : EReal)) / (Mr : EReal)) * ((y m : EReal) - (∑ n, (y n : EReal)) / (Mr : EReal)))
        / (Mr : EReal)
      = (((∑ m, (x m - (∑ n, x n) / Mr) * (y m - (∑ n, y n) / Mr)) / Mr : ℝ) : EReal) := by
  simp only [sum_univ_coe, div_coe, sub_coe, mul_coe]

/-- With the extended reals' own quotient: for finite rows and a real count, the mean of the products minus the
    product of the means IS the coercion of the real one. -/
theorem raw_gram_coe (x y : κ → ℝ) (Mr : ℝ) :
    (∑ m, (x m : EReal) * (y m : EReal)) / (Mr : EReal)
        - ((∑ n, (x n : EReal)) / (Mr : EReal)) * ((∑ n, (y n : EReal)) / (Mr : EReal))
      = (((∑ m, x m * y m) / Mr - ((∑ n, x n) / Mr) * ((∑ n, y n) / Mr) : ℝ) : EReal) := by
  simp only [sum_univ_coe, div_coe, sub_coe, mul_coe]

/-- With the ideal instance's quotient: for finite rows and a NONZERO real count, the mean of the products of the
    centered rows is the coercion of the real one. -/
theorem ideal_centered_gram_coe (x y : κ → ℝ) {Mr : ℝ} (hMr : Mr ≠ 0) :
    Ideal.div (∑ m, ((x m : EReal) - Ideal.div (∑ n, (x n : EReal)) (Mr : EReal))
        * ((y m : EReal) - Ideal.div (∑ n, (y n : EReal)) (Mr : EReal))) (Mr : EReal)
      = (((∑ m, (x m - (∑ n, x n) / Mr) * (y m - (∑ n, y n) / Mr)) / Mr : ℝ) : EReal) := by
  simp only [sum_univ_coe, ideal_div_coe _ hMr, sub_coe, mul_coe]

/-- With the ideal instance's quotient: for finite rows and a nonzero real count, the mean of the products minus the
    product of the means is the coercion of the real one. -/
theorem ideal_raw_gram_coe (x y : κ → ℝ) {Mr : ℝ} (hMr : Mr ≠ 0) :
    Ideal.div (∑ m, (x m : EReal) * (y m : EReal)) (Mr : EReal)
        - Ideal.div (∑ n, (x n : EReal)) (Mr : EReal) * Ideal.div (∑ n, (y n : EReal)) (Mr : EReal)
      = (((∑ m, x m * y m) / Mr - ((∑ n, x n) / Mr) * ((∑ n, y n) / Mr) : ℝ) : EReal) := by
  simp only [sum_univ_coe, ideal_div_coe _ hMr, sub_coe, mul_coe]

/-- THE COVARIANCE IDENTITY OVER THE EXTENDED REALS, with their own quotient x / y = x · y⁻¹: for rows X, Y every
    entry of which is finite (the coercion of a real) and a count M that is the coercion of a nonzero real equal to
    the number of samples, the mean of the products of the rows centered at their means equals the mean of the
    products minus the product of the means. -/
theorem centered_gram_eq_ereal (X Y : κ → EReal) (hX : ∀ m, ∃ r : ℝ, X m = (r : EReal))
    (hY : ∀ m, ∃ r : ℝ, Y m = (r : EReal)) (M : EReal) (Mr : ℝ) (hM : M = (Mr : EReal)) (hMr : Mr ≠ 0)
    (hcard : (Fintype.card κ : ℝ) = Mr) :
    (∑ m, (X m - (∑ n, X n) / M) * (Y m - (∑ n, Y n) / M)) / M
      = (∑ m, X m * Y m) / M - ((∑ n, X n) / M) * ((∑ n, Y n) / M) := by
  choose x hx using hX
  choose y hy using hY
  obtain rfl : X = fun m => (x m : EReal) := funext hx
  obtain rfl : Y = fun m => (y m : EReal) := funext hy
  subst hM
  rw [centered_gram_coe, raw_gram_coe, centered_gram_eq x y Mr hMr hcard]

/-- THE COVARIANCE IDENTITY OVER THE EXTENDED REALS, with the ideal float instance's quotient (the form a program
    read at that instance has: each `/` a host or kernel float division): same hypotheses, same identity. -/
theorem centered_gram_eq_ideal (X Y : κ → EReal) (hX : ∀ m, ∃ r : ℝ, X m = (r : EReal))
    (hY : ∀ m, ∃ r : ℝ, Y m = (r : EReal)) (M : EReal) (Mr : ℝ) (hM : M = (Mr : EReal)) (hMr : Mr ≠ 0)
    (hcard : (Fintype.card κ : ℝ) = Mr) :
    Ideal.div (∑ m, (X m - Ideal.div (∑ n, X n) M) * (Y m - Ideal.div (∑ n, Y n) M)) M
      = Ideal.div (∑ m, X m * Y m) M - Ideal.div (∑ n, X n) M * Ideal.div (∑ n, Y n) M := by
  choose x hx using hX
  choose y hy using hY
  obtain rfl : X = fun m => (x m : EReal) := funext hx
  obtain rfl : Y = fun m => (y m : EReal) := funext hy
  subst hM
  rw [ideal_centered_gram_coe x y hMr, ideal_raw_gram_coe x y hMr, centered_gram_eq x y Mr hMr hcard]

/-- The same identity with the value named: under the same hypotheses both sides are the coercion of ONE real, the
    covariance of the real rows (so the entry is finite). -/
theorem centered_gram_ideal_eq_coe (X Y : κ → EReal) (x y : κ → ℝ) (hX : ∀ m, X m = (x m : EReal))
    (hY : ∀ m, Y m = (y m : EReal)) (M : EReal) (Mr : ℝ) (hM : M = (Mr : EReal)) (hMr : Mr ≠ 0)
    (hcard : (Fintype.card κ : ℝ) = Mr) :
    Ideal.div (∑ m, (X m - Ideal.div (∑ n, X n) M) * (Y m - Ideal.div (∑ n, Y n) M)) M
        = (((∑ m, x m * y m) / Mr - ((∑ n, x n) / Mr) * ((∑ n, y n) / Mr) : ℝ) : EReal)
      ∧ Ideal.div (∑ m, X m * Y m) M - Ideal.div (∑ n, X n) M * Ideal.div (∑ n, Y n) M
        = (((∑ m, x m * y m) / Mr - ((∑ n, x n) / Mr) * ((∑ n, y n) / Mr) : ℝ) : EReal) := by
  obtain rfl : X = fun m => (x m : EReal) := funext hX
  obtain rfl : Y = fun m => (y m : EReal) := funext hY
  subst hM
  exact ⟨by rw [ideal_centered_gram_coe x y hMr, centered_gram_eq x y Mr hMr hcard], ideal_raw_gram_coe x y hMr⟩

end EReal

end Cert.Lib.Covariance
-- ==== Proof.Bridge.lean ====
/-
  The mathematics that joins the two programs, free of either program's text.

  The kernel reads the input as a [256, 64, 3136] array X (row b, feature g, lane t) and gathers each feature's sum and
  each pair of features' sum of products in the nested order (pair of cores p, grid step j, row of the block k, lane l),
  with row b = (8 p + j) · 16 + k. The reference reads the same numbers as 64 long rows x1 (feature g, sample m) with
  m = 3136 b + t. Addition of extended reals is commutative and associative, so the nested sums are the long sums.
  The covariance is where the programs differ: the kernel forms E[x xᵀ] − μ μᵀ from the raw sums, the reference
  E[(x − μ)(x − μ)ᵀ] from the centred rows, with μ the sum over the count. On finite entries the two agree.
-/
import proofs.«165382_j37855841747396_2_alg».proof.Proof.LibCovariance
import proofs.«165382_j37855841747396_2_alg».proof.Proof.LibRegroup
import Idealize.ShloMosaic.Lib.ValueIdx
import Idealize.ShloMosaic.PureOps.Ideal

noncomputable section

open scoped BigOperators

namespace Cert.Hand.Bridge

open Idealize.ShloMosaic Idealize.ShloMosaic.ValueIdx

/-- The sample count as an extended real. -/
abbrev cnt : EReal := ((802816 : ℝ) : EReal)

section Sums

variable (X : (⟨3, ![256, 64, 3136]⟩ : Shape).Idx → EReal) (x1 : (⟨2, ![64, 802816]⟩ : Shape).Idx → EReal)
  (hx : ∀ (b : Fin 256) (g : Fin 64) (t : Fin 3136),
    x1 (ix2 g (⟨b.val * 3136 + t.val, by omega⟩ : Fin 802816)) = X (ix3 b g t))

include hx

/-- A quantity summed over (core pair, grid step, block row, lane) of the kernel's array is the same quantity summed
    over the reference's long row. -/
theorem nested_eq_long (f : EReal → EReal) (g : Fin 64) :
    (∑ p : Fin 2, ∑ j : Fin 8, ∑ k : Fin 16, ∑ l : Fin 3136,
        f (X (ix3 (⟨(p.val * 8 + j.val) * 16 + k.val, by omega⟩ : Fin 256) g l)))
      = ∑ m : Fin 802816, f (x1 (ix2 g m)) := by
  rw [Cert.Lib.Regroup.sum_regroup (fun m => f (x1 (ix2 g m))),
    Cert.Lib.Regroup.sum_rows (fun b : Fin 256 => ∑ t : Fin 3136, f (x1 (ix2 g (⟨b.val * 3136 + t.val, by omega⟩ : Fin 802816))))]
  refine Finset.sum_congr rfl fun p _ => Finset.sum_congr rfl fun j _ => Finset.sum_congr rfl fun k _ =>
    Finset.sum_congr rfl fun l _ => ?_
  exact congrArg f (hx _ g l).symm

/-- Each feature's sum: the kernel's nested sum is the reference's row sum. -/
theorem rowsum_eq (g : Fin 64) :
    (∑ p : Fin 2, ∑ j : Fin 8, ∑ k : Fin 16, ∑ l : Fin 3136,
        X (ix3 (⟨(p.val * 8 + j.val) * 16 + k.val, by omega⟩ : Fin 256) g l))
      = ∑ m : Fin 802816, x1 (ix2 g m) :=
  nested_eq_long X x1 hx id g

/-- Each pair of features' sum of products: the kernel's nested sum is the reference's product of two rows. -/
theorem gram_eq (g g' : Fin 64) :
    (∑ p : Fin 2, ∑ j : Fin 8, ∑ k : Fin 16, ∑ l : Fin 3136,
        X (ix3 (⟨(p.val * 8 + j.val) * 16 + k.val, by omega⟩ : Fin 256) g l)
          * X (ix3 (⟨(p.val * 8 + j.val) * 16 + k.val, by omega⟩ : Fin 256) g' l))
      = ∑ m : Fin 802816, x1 (ix2 g m) * x1 (ix2 g' m) := by
  rw [Cert.Lib.Regroup.sum_regroup (fun m => x1 (ix2 g m) * x1 (ix2 g' m)),
    Cert.Lib.Regroup.sum_rows (fun b : Fin 256 => ∑ t : Fin 3136,
      x1 (ix2 g (⟨b.val * 3136 + t.val, by omega⟩ : Fin 802816)) * x1 (ix2 g' (⟨b.val * 3136 + t.val, by omega⟩ : Fin 802816)))]
  refine Finset.sum_congr rfl fun p _ => Finset.sum_congr rfl fun j _ => Finset.sum_congr rfl fun k _ =>
    Finset.sum_congr rfl fun l _ => ?_
  rw [hx _ g l, hx _ g' l]

end Sums

/-- The covariance entry of two features: second moment minus the product of the means equals the mean product of the
    centred rows, when every entry of the two rows is a real number. -/
theorem cov_entry (r s : Fin 802816 → EReal) (hr : ∀ m, ∃ a : ℝ, r m = (a : EReal)) (hs : ∀ m, ∃ a : ℝ, s m = (a : EReal)) :
    Ideal.div (∑ m, r m * s m) cnt - Ideal.div (∑ m, r m) cnt * Ideal.div (∑ m, s m) cnt
      = Ideal.div (∑ m, (r m - Ideal.div (∑ n, r n) cnt) * (s m - Ideal.div (∑ n, s n) cnt)) cnt :=
  (Cert.Lib.Covariance.centered_gram_eq_ideal r s hr hs cnt 802816 rfl (by norm_num) (by simp)).symm

end Cert.Hand.Bridge

end
-- ==== Proof.Equal.lean ====
/-
  The two programs' results are one array, over the extended reals, when every input entry is finite.

  Notation: X is the input read as [256, 64, 3136] (row b, feature g, lane t), the kernel's reading; the reference reads
  the same entries as 64 long rows, entry (g, 3136 b + t). s1p and s2p are the statistics launch's two arrays: per
  core pair p, each feature's sum and each feature pair's sum of products over that pair's 128 rows.
  * The means agree: both are the feature's total over the count; the kernel's total is nested, the reference's long.
  * The covariances agree: second moment minus product of means against the mean product of centred rows — equal on
    finite entries; the ridge 1e-5·I is the same term in both.
  * The whitened weights are the same function of the covariance in both programs, hence agree.
  * The outputs agree entry by entry: ∑ₖ A(g, k)·(x(b, k, t) − μ(k)) + β(g), laid back to [64, 256, 56, 56] either as
    a plain reshape of [256, 64, 3136] or through the reference's regrouping of [64, 802816].
-/
import proofs.«165382_j37855841747396_2_alg».proof.Proof.KI.HostRead
import proofs.«165382_j37855841747396_2_alg».proof.Proof.RI.Read
import proofs.«165382_j37855841747396_2_alg».proof.Proof.TailEq
import proofs.«165382_j37855841747396_2_alg».proof.Proof.Bridge

noncomputable section

open scoped BigOperators

namespace Cert.Hand.Equal

open Idealize.ShloMosaic Idealize.ShloMosaic.ValueIdx

variable (x : FVec Ideal Cert.ReferenceIdeal.S64x256x56x56 .f32) (w : FVec Ideal Cert.ReferenceIdeal.S64x64 .f32)
  (be : FVec Ideal Cert.ReferenceIdeal.S64x1 .f32)
  (X : Cert.KernelIdeal.S256x64x3136.Idx → EReal)
  (hXx : ∀ (b : Fin 256) (g : Fin 64) (t : Fin 3136),
    Cert.ReferenceIdeal.Hand.regroup x (ix2 g (⟨b.val * 3136 + t.val, by omega⟩ : Fin 802816)) = X (ix3 b g t))
  (s1p : FVec Ideal Cert.KernelIdeal.S2x64x1 .f32) (s2p : FVec Ideal Cert.KernelIdeal.S2x64x64 .f32)
  (hs1 : ∀ (p : Fin 2) (g : Fin 64) (u : Fin 1), s1p (ix3 p g u)
    = ∑ j : Fin 8, ∑ k : Fin 16, ∑ l : Fin 3136, X (ix3 (⟨(p.val * 8 + j.val) * 16 + k.val, by omega⟩ : Fin 256) g l))
  (hs2 : ∀ (p : Fin 2) (g g' : Fin 64), s2p (ix3 p g g')
    = ∑ j : Fin 8, ∑ k : Fin 16, ∑ l : Fin 3136,
        X (ix3 (⟨(p.val * 8 + j.val) * 16 + k.val, by omega⟩ : Fin 256) g l)
          * X (ix3 (⟨(p.val * 8 + j.val) * 16 + k.val, by omega⟩ : Fin 256) g' l))

include hXx hs1 in
/-- Each feature's total, gathered by the kernel per core pair, is the reference's row sum. -/
theorem total_eq (g : Fin 64) (u : Fin 1) :
    (∑ p : Fin 2, s1p (ix3 p g u)) = ∑ m : Fin 802816, Cert.ReferenceIdeal.Hand.regroup x (ix2 g m) := by
  simp only [hs1]
  exact Cert.Hand.Bridge.rowsum_eq X (Cert.ReferenceIdeal.Hand.regroup x) hXx g

include hXx hs1 in
/-- The mean columns agree. -/
theorem mean_eq : Cert.KernelIdeal.Hand.meanOf s1p = Cert.ReferenceIdeal.Hand.meanR x := by
  funext i
  obtain ⟨g, u, rfl⟩ : ∃ (g : Fin 64) (u : Fin 1), i = ix2 g u := ⟨i 0, i 1, eq_ix2 i⟩
  rw [Cert.KernelIdeal.Hand.meanOf_apply, Cert.ReferenceIdeal.Hand.meanR_apply, total_eq x X hXx s1p hs1 g u]

include hXx hs1 hs2 in
/-- The covariance matrices agree, when every entry of the regrouped input is a real number. -/
theorem cov_eq (hfin : ∀ i, ∃ r : ℝ, Cert.ReferenceIdeal.Hand.regroup x i = (r : EReal)) :
    Cert.KernelIdeal.Hand.covOf s1p s2p = Cert.ReferenceIdeal.Hand.covR x := by
  funext i
  obtain ⟨g, g', rfl⟩ : ∃ (g g' : Fin 64), i = ix2 g g' := ⟨i 0, i 1, eq_ix2 i⟩
  have hS2 : (∑ p : Fin 2, s2p (ix3 p g g'))
      = ∑ m : Fin 802816, Cert.ReferenceIdeal.Hand.regroup x (ix2 g m) * Cert.ReferenceIdeal.Hand.regroup x (ix2 g' m) := by
    simp only [hs2]
    exact Cert.Hand.Bridge.gram_eq X (Cert.ReferenceIdeal.Hand.regroup x) hXx g g'
  rw [Cert.KernelIdeal.Hand.covOf_apply, Cert.ReferenceIdeal.Hand.covR_apply, Cert.KernelIdeal.Hand.meanOf_apply,
    Cert.KernelIdeal.Hand.meanOf_apply, total_eq x X hXx s1p hs1 g 0, total_eq x X hXx s1p hs1 g' 0, hS2]
  simp only [Cert.ReferenceIdeal.Hand.centered_apply, Cert.ReferenceIdeal.Hand.meanR_apply]
  rw [Cert.Hand.Bridge.cov_entry _ _ (fun m => hfin _) (fun m => hfin _)]
  rfl

include hXx in
/-- The results agree: the reference's output is the kernel's output array laid back to [64, 256, 56, 56]. -/
theorem out_eq (hμ : Cert.KernelIdeal.Hand.meanOf s1p = Cert.ReferenceIdeal.Hand.meanR x)
    (hc : Cert.KernelIdeal.Hand.covOf s1p s2p = Cert.ReferenceIdeal.Hand.covR x)
    (O : Cert.KernelIdeal.S256x64x3136.Idx → EReal)
    (hO : ∀ (b : Fin 256) (g : Fin 64) (l : Fin 3136), O (ix3 b g l)
      = (∑ k : Fin 64, Cert.KernelIdeal.Hand.whiten (Cert.KernelIdeal.Hand.covOf s1p s2p) w (ix2 g k)
            * (X (ix3 b k l) - Cert.KernelIdeal.Hand.meanOf s1p (ix2 k 0))) + be (ix2 g 0))
    (hBack : Cert.KernelIdeal.S256x64x3136.ShapeCasts Cert.KernelIdeal.S64x256x56x56) :
    Cert.ReferenceIdeal.Hand.outR x w be = shapeCast Cert.KernelIdeal.S64x256x56x56 O hBack := by
  show Cert.ReferenceIdeal.Hand.regroupBack (Cert.ReferenceIdeal.Hand.outPre x w be) = _
  unfold Cert.ReferenceIdeal.Hand.regroupBack
  refine Cert.Lib.Regroup.regroup_back (Cert.ReferenceIdeal.Hand.outPre x w be) O _ _ _ hBack fun b g t => ?_
  rw [Cert.ReferenceIdeal.Hand.outPre_apply, hO, hμ, hc]
  simp only [Cert.ReferenceIdeal.Hand.centered_apply, hXx, Cert.Hand.TailEq.whiten_eq]

end Cert.Hand.Equal

end
-- ==== Proof.Algebraic.lean ====
/-
  The algebraic conjunct: from memories that agree on finite arguments, the idealized kernel program and the reference
  both run to the end, leave the arguments alone, and end at the same result.

  The kernel's result buffer holds the second launch's output array laid back to [64, 256, 56, 56]; that array is, entry
  by entry, ∑ₖ A(g, k)·(x(b, k, l) − μ(k)) + β(g) with μ and A computed by the host from the first launch's two arrays of
  sums. The reference's result is the same expression in the reference's own means, covariance and layout, and the two
  are equal when every input entry is a real number, which the precondition says.
-/
import proofs.«165382_j37855841747396_2_alg».proof.Defs
import proofs.«165382_j37855841747396_2_alg».proof.Proof.Gen.KernelIdeal
import proofs.«165382_j37855841747396_2_alg».proof.Proof.Gen.ReferenceIdeal
import proofs.«165382_j37855841747396_2_alg».proof.Proof.Gen.Pre_finite_inputs
import proofs.«165382_j37855841747396_2_alg».proof.Proof.KI.Result
import proofs.«165382_j37855841747396_2_alg».proof.Proof.KI.StatsValue
import proofs.«165382_j37855841747396_2_alg».proof.Proof.RI.Run
import proofs.«165382_j37855841747396_2_alg».proof.Proof.Finite
import proofs.«165382_j37855841747396_2_alg».proof.Proof.Equal

noncomputable section

open scoped BigOperators

namespace Cert.Proof

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ)

/-- The three arguments as the kernel program's memory holds them, as arrays of extended reals. -/
abbrev argX (c : Dev Cert.KernelIdeal.nD) : FVec Ideal Cert.ReferenceIdeal.S64x256x56x56 .f32 :=
  m ((c.tc : Thread Cert.KernelIdeal.nD Cert.KernelIdeal.τ).loc Cert.KernelIdeal.main_arg0)
abbrev argW (c : Dev Cert.KernelIdeal.nD) : FVec Ideal Cert.ReferenceIdeal.S64x64 .f32 :=
  m ((c.tc : Thread Cert.KernelIdeal.nD Cert.KernelIdeal.τ).loc Cert.KernelIdeal.main_arg1)
abbrev argB (c : Dev Cert.KernelIdeal.nD) : FVec Ideal Cert.ReferenceIdeal.S64x1 .f32 :=
  m ((c.tc : Thread Cert.KernelIdeal.nD Cert.KernelIdeal.τ).loc Cert.KernelIdeal.main_arg2)

/-- The reference's result of the kernel program's arguments. -/
abbrev refOut (c : Dev Cert.KernelIdeal.nD) : FVec Ideal Cert.ReferenceIdeal.S64x256x56x56 .f32 :=
  Cert.ReferenceIdeal.Hand.outR (F := Ideal) (argX m c) (argW m c) (argB m c)

/-- Every entry of the regrouped input is an entry of the input. -/
theorem regroup_entry (x : FVec Ideal Cert.ReferenceIdeal.S64x256x56x56 .f32) (i : Cert.ReferenceIdeal.S64x802816.Idx) :
    ∃ j, Cert.ReferenceIdeal.Hand.regroup x i = x j := ⟨_, rfl⟩

/-- On finite arguments the kernel program's result buffer ends at the reference's result of the same arguments. -/
theorem kernel_result (ρ : Dev Cert.KernelIdeal.nD → PrngReg) (hpre : Cert.Pre_KernelIdeal m) (c : Dev Cert.KernelIdeal.nD) :
    Cert.KernelIdeal.Hand.W7 m ρ c (Proc.devRef .tc Cert.KernelIdeal.main_v114) = refOut m c := by
  have hfin : ∀ j, ∃ r : ℝ, argX m c j = (r : EReal) := (Cert.Hand.Finite.finite_of_Pre_KernelIdeal m hpre c).1
  have hXx : ∀ (b : Fin 256) (g : Fin 64) (t : Fin 3136),
      Cert.ReferenceIdeal.Hand.regroup (argX m c) (ix2 g (⟨b.val * 3136 + t.val, by omega⟩ : Fin 802816))
        = Cert.KernelIdeal.Hand.inRows m ρ c (ix3 b g t) := fun b g t =>
    (Cert.ReferenceIdeal.Hand.regroup_read (argX m c) Cert.KernelIdeal.Gen.shapeCasts_S64x256x56x56_S256x64x3136 b g t).trans
      (congrFun (Cert.KernelIdeal.Hand.X_eq m ρ c) (ix3 b g t)).symm
  have hs1 : ∀ (p : Fin 2) (g : Fin 64) (u : Fin 1), Cert.KernelIdeal.Hand.colSums m ρ c (ix3 p g u)
      = ∑ j : Fin 8, ∑ k : Fin 16, ∑ l : Fin 3136,
          Cert.KernelIdeal.Hand.inRows m ρ c (ix3 (⟨(p.val * 8 + j.val) * 16 + k.val, by omega⟩ : Fin 256) g l) := fun p g u =>
    Cert.KernelIdeal.Hand.arrAt0_1_apply (Cert.KernelIdeal.Hand.V1 m ρ) c p g u
  have hs2 : ∀ (p : Fin 2) (g g' : Fin 64), Cert.KernelIdeal.Hand.gramSums m ρ c (ix3 p g g')
      = ∑ j : Fin 8, ∑ k : Fin 16, ∑ l : Fin 3136,
          Cert.KernelIdeal.Hand.inRows m ρ c (ix3 (⟨(p.val * 8 + j.val) * 16 + k.val, by omega⟩ : Fin 256) g l)
            * Cert.KernelIdeal.Hand.inRows m ρ c (ix3 (⟨(p.val * 8 + j.val) * 16 + k.val, by omega⟩ : Fin 256) g' l) := fun p g g' =>
    Cert.KernelIdeal.Hand.arrAt0_2_apply (Cert.KernelIdeal.Hand.V1 m ρ) c p g g'
  have hμ := Cert.Hand.Equal.mean_eq (argX m c) (Cert.KernelIdeal.Hand.inRows m ρ c) hXx (Cert.KernelIdeal.Hand.colSums m ρ c) hs1
  have hc := Cert.Hand.Equal.cov_eq (argX m c) (Cert.KernelIdeal.Hand.inRows m ρ c) hXx (Cert.KernelIdeal.Hand.colSums m ρ c)
    (Cert.KernelIdeal.Hand.gramSums m ρ c) hs1 hs2 fun i => by
      obtain ⟨j, hj⟩ := regroup_entry (argX m c) i
      rw [hj]; exact hfin j
  rw [Cert.KernelIdeal.Hand.result_eq m ρ c]
  exact (Cert.Hand.Equal.out_eq (argX m c) (argW m c) (argB m c) (Cert.KernelIdeal.Hand.inRows m ρ c) hXx
    (Cert.KernelIdeal.Hand.colSums m ρ c) (Cert.KernelIdeal.Hand.gramSums m ρ c) hμ hc _
    (Cert.KernelIdeal.Hand.out_apply m ρ c) Cert.KernelIdeal.Gen.shapeCasts_S256x64x3136_S64x256x56x56).symm

/-- The two idealized programs, from memories agreeing on finite arguments, end at equal results. -/
theorem algebraic : Cert.algebraic_KernelIdeal_ReferenceIdeal := by
  intro m ρ m' ρ' hpre hagree
  refine ⟨fun c => refOut m c, ?_, ?_⟩
  · refine (θ_run Cert.KernelIdeal.defs _ _).mono (fun r h c => ⟨?_, ?_, ?_, ?_⟩) (Cert.KernelIdeal.Hand.run_main m ρ)
    · exact (h c _ (Cert.KernelIdeal.Hand.mem_uc Cert.KernelIdeal.main_v114 (by decide))).trans (kernel_result m ρ hpre c)
    · exact (h c _ (Cert.KernelIdeal.Hand.mem_uc Cert.KernelIdeal.main_arg0 (by decide))).trans (Cert.KernelIdeal.Hand.W7_main_arg0 m ρ c)
    · exact (h c _ (Cert.KernelIdeal.Hand.mem_uc Cert.KernelIdeal.main_arg1 (by decide))).trans (Cert.KernelIdeal.Hand.W7_main_arg1 m ρ c)
    · exact (h c _ (Cert.KernelIdeal.Hand.mem_uc Cert.KernelIdeal.main_arg2 (by decide))).trans (Cert.KernelIdeal.Hand.W7_main_arg2 m ρ c)
  · refine (θ_run Cert.ReferenceIdeal.defs _ _).mono (fun r h c => ⟨?_, (h c).2⟩) (Cert.ReferenceIdeal.Hand.run m' ρ')
    rw [(h c).1, (hagree c).1, (hagree c).2.1, (hagree c).2.2]

end Cert.Proof

end
-- ==== Proof.lean ====
/-
  The certificate's claim: the two kernel programs and the reference each run to the end, fault nowhere and leave the
  three arguments as launched; the idealized kernel is the kernel's own text (no rewrite to preserve); and over the
  extended reals, from memories that agree on finite arguments, the idealized kernel and the reference end at the same
  result.

  The kernel program is two launches among host arithmetic. The first gathers, per pair of cores, each feature's sum
  and each feature pair's sum of products over the [256, 64, 3136] reading of the input; the host turns these into the
  mean column, the covariance E[x xᵀ] − μ μᵀ + 1e-5·I and, by ten Newton–Schulz steps, the whitened weights; the second
  launch applies  A (x − μ) + β  row by row. The reference regroups the input to 64 long rows, centres them, forms the
  covariance of the centred rows, whitens with the same chain of operations, and applies the same affine map. The two
  covariances agree on finite entries (second moment minus product of means = mean product of centred entries), the
  whitening is one function of the covariance in both programs, and the two layouts name the same entries.
-/
import proofs.«165382_j37855841747396_2_alg».proof.Defs
import proofs.«165382_j37855841747396_2_alg».proof.Proof.Gen.Kernel
import proofs.«165382_j37855841747396_2_alg».proof.Proof.Gen.KernelIdeal
import proofs.«165382_j37855841747396_2_alg».proof.Proof.Gen.ReferenceIdeal
import proofs.«165382_j37855841747396_2_alg».proof.Proof.Gen.Pre_finite_inputs
import proofs.«165382_j37855841747396_2_alg».proof.Proof.K.Run
import proofs.«165382_j37855841747396_2_alg».proof.Proof.KI.Run
import proofs.«165382_j37855841747396_2_alg».proof.Proof.RI.Run
import proofs.«165382_j37855841747396_2_alg».proof.Proof.Algebraic
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Hand.frame m ρ

/-- The idealized kernel program runs and leaves its arguments as launched. -/
theorem frame_ki : Cert.frame_KernelIdeal := fun m ρ _ => Cert.KernelIdeal.Hand.frame m ρ

/-- The reference runs and leaves its arguments as launched. -/
theorem frame_ri : Cert.frame_ReferenceIdeal := fun m ρ _ => Cert.ReferenceIdeal.Hand.run_frame m ρ

/-- The idealization rewrote nothing. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
